-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S512x128 : Shape := ⟨2, ![512, 128]⟩
abbrev S128x1 : Shape := ⟨2, ![128, 1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S512x128 : S_.BroadcastsInDim S512x128 (![] : Fin 0 → Fin S512x128.rank)
  reducesTo_S512x128_S_d0_1 : S512x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128x1 .f32) (main_arg5 : FVec F S128x1 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  main_v28

def fn {F : FTy → Type} [FloatOps F] (main_arg0 : FVec F S8192x512 .f32) (main_arg1 : FVec F S8192x8192 .f32) (main_arg2 : FVec F S8192x8192 .f32) (main_arg3 : FVec F S512x128 .f32) (main_arg4 : FVec F S128x1 .f32) (main_arg5 : FVec F S128x1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_v13 main_v16
-- ==== Kernel.lean ====
abbrev S8192x512 : Shape := ⟨2, ![8192, 512]⟩
abbrev S8192x8192 : Shape := ⟨2, ![8192, 8192]⟩
abbrev S512x128 : Shape := ⟨2, ![512, 128]⟩
abbrev S128x1 : Shape := ⟨2, ![128, 1]⟩
abbrev S8192x128 : Shape := ⟨2, ![8192, 128]⟩
abbrev S8192x1 : Shape := ⟨2, ![8192, 1]⟩
abbrev S1x8192 : Shape := ⟨2, ![1, 8192]⟩
abbrev S_ : Shape := ⟨0, ![]⟩
abbrev S8192x127 : Shape := ⟨2, ![8192, 127]⟩
abbrev S8192x256 : Shape := ⟨2, ![8192, 256]⟩
abbrev S1024x1 : Shape := ⟨2, ![1024, 1]⟩
abbrev S1x1024 : Shape := ⟨2, ![1, 1024]⟩
abbrev S1024x1024 : Shape := ⟨2, ![1024, 1024]⟩
abbrev S1024x256 : Shape := ⟨2, ![1024, 256]⟩
abbrev S1024x128 : Shape := ⟨2, ![1024, 128]⟩
abbrev S1024 : Shape := ⟨1, ![1024]⟩

abbrev nBuf : Space → Nat
  | .hbm => 17
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S512x128, .f32⟩
  | .hbm, ⟨4, _⟩ => ⟨S128x1, .f32⟩
  | .hbm, ⟨5, _⟩ => ⟨S128x1, .f32⟩
  | .hbm, ⟨6, _⟩ => ⟨S8192x128, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x128, .bf16⟩
  | .hbm, ⟨11, _⟩ => ⟨S_, .bf16⟩
  | .hbm, ⟨12, _⟩ => ⟨S8192x1, .bf16⟩
  | .hbm, ⟨13, _⟩ => ⟨S_, .bf16⟩
  | .hbm, ⟨14, _⟩ => ⟨S8192x127, .bf16⟩
  | .hbm, ⟨15, _⟩ => ⟨S8192x256, .bf16⟩
  | .hbm, ⟨16, _⟩ => ⟨S8192x128, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x256, .bf16⟩
  | .local _ .vmem, ⟨9, _⟩ => ⟨S1024x256, .bf16⟩
  | .local _ .vmem, ⟨10, _⟩ => ⟨S1024x128, .f32⟩
  | .local _ .vmem, ⟨11, _⟩ => ⟨S1024x128, .f32⟩
  | .local _ .vmem, ⟨12, _⟩ => ⟨S1024x1, .f32⟩
  | .local _ .vmem, ⟨13, _⟩ => ⟨S1024x256, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_24 : BitVec 32 := 0#32
  let v46 : BitVec 1 := Scalar.cmpi .ne v45 c0_i32_24
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8192x1_S1x8192 : S8192x1.ShapeCasts S1x8192
  bitsLt_bf16_f32 : FTy.bits .bf16 < FTy.bits .f32
  bcast_S_S8192x1 : S_.BroadcastsInDim S8192x1 (![] : Fin 0 → Fin S8192x1.rank)
  bcast_S_S8192x127 : S_.BroadcastsInDim S8192x127 (![] : Fin 0 → Fin S8192x127.rank)
  concatenates_S8192x128_S8192x1_S8192x127_S8192x256_d1 : Shape.Concatenates [S8192x128, S8192x1, S8192x127] S8192x256 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x256 : S1024x1.Broadcasts S1024x256
  slices_S1024x256_o0_128_S1024x1 : S1024x256.Slices ![0, 128] S1024x1
  slices_S1024x256_o0_0_S1024x128 : S1024x256.Slices ![0, 0] S1024x128
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  dot_S8192x512_S512x128_S8192x128_1_0_0_1_n_n_wf : DotDims.WF S8192x512 S512x128 S8192x128 [1] [0] [0] [1] [] []
  dot_S8192x128_S128x1_S8192x1_1_0_0_1_n_n_wf : DotDims.WF S8192x128 S128x1 S8192x1 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S8192x1.size a
  hwx0_0 : ∀ i : grid0.Coords, EltTy.bits .f32 = 32 ∨ (Rect.block (s := S8192x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x8192.size a
  hwx0_1 : ∀ i : grid0.Coords, EltTy.bits .f32 = 32 ∨ (Rect.block (s := S1x8192) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .bf16 = 32 ∨ (Rect.block (s := S8192x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S8192x128.size a
  hwx0_5 : ∀ i : grid0.Coords, EltTy.bits .f32 = 32 ∨ (Rect.block (s := S8192x128) S1024x128.size (cc0_transform_5 i) (hinb0_5 i)).WholeWords (EltTy.packing .f32)

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_v1) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1024x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S512x128 : Shape := ⟨2, ![512, 128]⟩
abbrev S128x1 : Shape := ⟨2, ![128, 1]⟩
abbrev S8192x128 : Shape := ⟨2, ![8192, 128]⟩
abbrev S8192x1 : Shape := ⟨2, ![8192, 1]⟩
abbrev S1x8192 : Shape := ⟨2, ![1, 8192]⟩
abbrev S_ : Shape := ⟨0, ![]⟩
abbrev S8192 : Shape := ⟨1, ![8192]⟩

abbrev nBuf : Space → Nat
  | .hbm => 58
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .f32⟩
  | .hbm, ⟨2, _⟩ => ⟨S8192x8192, .f32⟩
  | .hbm, ⟨3, _⟩ => ⟨S512x128, .f32⟩
  | .hbm, ⟨4, _⟩ => ⟨S128x1, .f32⟩
  | .hbm, ⟨5, _⟩ => ⟨S128x1, .f32⟩
  | .hbm, ⟨6, _⟩ => ⟨S8192x128, .f32⟩
  | .hbm, ⟨7, _⟩ => ⟨S8192x1, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S_, .f32⟩
  | .hbm, ⟨16, _⟩ => ⟨S8192x8192, .f32⟩
  | .hbm, ⟨17, _⟩ => ⟨S8192x8192, .i1⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .i1⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x128, .f32⟩
  | .hbm, ⟨43, _⟩ => ⟨S_, .f32⟩
  | .hbm, ⟨44, _⟩ => ⟨S8192x128, .f32⟩
  | .hbm, ⟨45, _⟩ => ⟨S8192x128, .i1⟩
  | .hbm, ⟨46, _⟩ => ⟨S_, .f32⟩
  | .hbm, ⟨47, _⟩ => ⟨S8192x128, .f32⟩
  | .hbm, ⟨48, _⟩ => ⟨S8192x128, .i1⟩
  | .hbm, ⟨49, _⟩ => ⟨S_, .f32⟩
  | .hbm, ⟨50, _⟩ => ⟨S_, .f32⟩
  | .hbm, ⟨51, _⟩ => ⟨S8192x128, .f32⟩
  | .hbm, ⟨52, _⟩ => ⟨S8192x128, .f32⟩
  | .hbm, ⟨53, _⟩ => ⟨S8192x128, .f32⟩
  | .hbm, ⟨54, _⟩ => ⟨S_, .f32⟩
  | .hbm, ⟨55, _⟩ => ⟨S8192x128, .f32⟩
  | .hbm, ⟨56, _⟩ => ⟨S8192x128, .f32⟩
  | .hbm, ⟨57, _⟩ => ⟨S8192x128, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_call1_v0 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call2_cst : Ref sig .tc := ⟨.hbm, 43, rfl⟩
abbrev main_call2_v0 : Ref sig .tc := ⟨.hbm, 44, rfl⟩
abbrev main_call2_v1 : Ref sig .tc := ⟨.hbm, 45, rfl⟩
abbrev main_call2_cst_0 : Ref sig .tc := ⟨.hbm, 46, rfl⟩
abbrev main_call2_v2 : Ref sig .tc := ⟨.hbm, 47, rfl⟩
abbrev main_call2_v3 : Ref sig .tc := ⟨.hbm, 48, rfl⟩
abbrev main_call2_cst_1 : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_v4 : Ref sig .tc := ⟨.hbm, 52, rfl⟩
abbrev main_call2_v5 : Ref sig .tc := ⟨.hbm, 53, rfl⟩
abbrev main_call2_cst_2 : Ref sig .tc := ⟨.hbm, 54, rfl⟩
abbrev main_call2_v6 : Ref sig .tc := ⟨.hbm, 55, rfl⟩
abbrev main_call2_v7 : Ref sig .tc := ⟨.hbm, 56, rfl⟩
abbrev main_v24 : Ref sig .tc := ⟨.hbm, 57, rfl⟩

abbrev nD : Nat := 1
abbrev τ : Topo := Topo.v7x

variable {F : FTy → Type} [FloatOps F]

class Facts₀ : Prop where
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S_S8192x128 : S_.BroadcastsInDim S8192x128 (![] : Fin 0 → Fin S8192x128.rank)
  dot_S8192x512_S512x128_S8192x128_1_0_0_1_n_n_wf : DotDims.WF S8192x512 S512x128 S8192x128 [1] [0] [0] [1] [] []
  dot_S8192x128_S128x1_S8192x1_1_0_0_1_n_n_wf : DotDims.WF S8192x128 S128x1 S8192x1 [1] [0] [0] [1] [] []
  dot_S8192x8192_S8192x128_S8192x128_1_0_0_1_n_n_wf : DotDims.WF S8192x8192 S8192x128 S8192x128 [1] [0] [0] [1] [] []

variable [Facts₀]

def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Kernel.Kit.lean ====
/-
  The launch side of `Kernel`'s one pallas_call, shared by the three runs of its body and by the frame:
  the contents every TensorCore buffer has when the grid is entered (the ten host operations before it applied to the
  starting memory: the projection h = input·W, the two attention columns h·a_self and h·a_neighs, the second one
  re-laid as a row, and h widened to 256 columns by a column of ones and 127 columns of zeros), the six argument
  arrays untouched by those operations, each window's block at a grid point, the two branch conditions of the body
  (the first column tile j = 0, where the running maximum and the accumulator are reset, and the last one j = 7,
  where the quotient and the ELU are stored) decided over the 8 × 8 grid, and where the output window is idle.
-/
import proofs.«429846_j4741643895566_3_alg».proof.Proof.Gen.Kernel.Launch
import proofs.«429846_j4741643895566_3_alg».proof.Proof.Gen.Kernel.Skeleton
import proofs.«429846_j4741643895566_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s TensorCore buffer `b` holds when the grid is entered: the ten host operations applied, in order,
    to the starting memory. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations before the launch writes `main_arg0`: the kernel finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the launch writes `main_arg1`: the kernel finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the launch writes `main_arg2`: the kernel finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the launch writes `main_arg3`: the kernel finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the launch writes `main_arg4`: the kernel finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the launch writes `main_arg5`: the kernel finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- The block of window `w` at grid point `t`, cut out of the window's array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of input window 0 holds the window's block of its array at every grid point, whether or not the
    pipeline fetched it there (an unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 1 holds the window's block of its array at every grid point, whether or not the
    pipeline fetched it there (an unfetched window's block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 2 holds the window's block of its array at every grid point, whether or not the
    pipeline fetched it there (an unfetched window's block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 3 holds the window's block of its array at every grid point, whether or not the
    pipeline fetched it there (an unfetched window's block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 4 holds the window's block of its array at every grid point, whether or not the
    pipeline fetched it there (an unfetched window's block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the launch -/

/-- A run that ends with every window's array at what the pipeline's bookkeeping computes, and every other buffer as
    the grid found it, leaves the six argument arrays as the program was started: the adjacency and the mask (windows
    2 and 3) are inputs the pipeline only reads, the other four are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's two branches -/

/-- The reset branch is taken: the column-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The finishing branch is taken: the column-tile coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last column tile the body stores nothing into the output window, -/
theorem idleAt0_5 : ∀ t : Fin cfg0.N, ¬cond0_1 (grid0.coords t) → cfg0.idle 5 (grid0.coords t) = true := by decide +kernel
/-- and the pipeline does not write its block back there. -/
theorem noFlush0_5 : ∀ t : Fin cfg0.N, ¬cond0_1 (grid0.coords t) → (cfg0.win 5).flush t = false := by decide +kernel
/-- At the last column tile the body stores the whole output block. -/
theorem liveAt0_5 : ∀ t : Fin cfg0.N, cond0_1 (grid0.coords t) → cfg0.idle 5 (grid0.coords t) = false := by decide +kernel

/-! ## The memrefs the body is called with -/

abbrev VO0_5 : View sig .tc .vmem S1024x128 .f32 := (Memref.whole cc0_stg5_0 : Memref sig .tc .vmem S1024x128 .f32).view
abbrev ms0_0 (t : Fin cfg0.N) : Memref sig .tc .vmem S1024x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The running row maximum and the 256-wide accumulator: scratch the kernel keeps from one column tile to the next. -/
abbrev scM0_0 : Memref sig .tc .vmem S1024x1 .f32 := Memref.whole cc0_scratch0
abbrev scM0_1 : Memref sig .tc .vmem S1024x256 .f32 := Memref.whole cc0_scratch1
abbrev VS0_0 : View sig .tc .vmem S1024x1 .f32 := scM0_0.view
abbrev VS0_1 : View sig .tc .vmem S1024x256 .f32 := scM0_1.view

/-- What the launch lends the body besides the windows: the two scratch buffers at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Fr

end
-- ==== Proof.Kernel.RunB.lean ====
/-
  The body of `Kernel`'s kernel at a MIDDLE column tile (0 < j < 7: neither branch taken), run once on any whole
  staging memrefs: the five input blocks at given contents, the running maximum and the accumulator at what the tile
  before left, the output buffer untouched. It ends with the inputs as they were, the output buffer as it was, and
  each scratch overwritten by the stores the run meets (the new maximum; the rescaled accumulator plus this tile's
  product).
-/
import proofs.«429846_j4741643895566_3_alg».proof.Proof.Kernel.Kit

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) :
    Σ' (L5 : List (View.Piece (Elt F) S1024x128 .f32)) (LS0 : List (View.Piece (Elt F) S1024x1 .f32)), { LS1 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9) K } := by
  refine ⟨[], ?_, ?_, fun xi5 E K => ?run⟩
  case run =>
    simp only [cc0__gat_kernel_eq_skeleton]; unfold cc0__gat_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Fr

end
-- ==== Proof.Kernel.RunA.lean ====
/-
  The body of `Kernel`'s kernel at the FIRST column tile (j = 0: the reset branch taken, the finishing branch not), run
  once on any whole staging memrefs: the five input blocks at given contents, both scratch buffers at anything, the
  output buffer untouched. It ends with the inputs and the output buffer as they were and each scratch holding two
  stores in order: the reset (minus infinity; zeros) and then this tile's update computed from the reset values.
-/
import proofs.«429846_j4741643895566_3_alg».proof.Proof.Kernel.RunB

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) :
    Σ' (L5 : List (View.Piece (Elt F) S1024x128 .f32)) (LS0 : List (View.Piece (Elt F) S1024x1 .f32)), { LS1 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9) K } := by
  refine ⟨[], ?_, ?_, fun xi5 E K => ?run⟩
  case run =>
    simp only [cc0__gat_kernel_eq_skeleton]; unfold cc0__gat_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.Kernel.Fr

end
-- ==== Proof.Kernel.RunC.lean ====
/-
  The body of `Kernel`'s kernel at the LAST column tile (j = 7: the reset branch not taken, the finishing branch taken),
  run once on any whole staging memrefs: the five input blocks at given contents, the running maximum and the
  accumulator at what the tile before left, the output buffer at anything. It ends with the inputs as they were, each
  scratch overwritten by this tile's update, and the output buffer overwritten by the one store of the finishing
  branch (the accumulator's first 128 columns divided by its column 128, through the ELU).
-/
import proofs.«429846_j4741643895566_3_alg».proof.Proof.Kernel.RunA

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) :
    Σ' (L5 : List (View.Piece (Elt F) S1024x128 .f32)) (LS0 : List (View.Piece (Elt F) S1024x1 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9) K } := by
  refine ⟨?_, ?_, ?_, fun E K => ?run⟩
  case run =>
    simp only [cc0__gat_kernel_eq_skeleton]; unfold cc0__gat_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.Kernel.Fr

end
-- ==== Proof.Kernel.Outs.lean ====
/-
  What each of the three cases of `Kernel`'s kernel body leaves behind, named: the contents of the output window's
  staging buffer and of the two scratch buffers (the running row maximum, 1024 × 1, and the accumulator, 1024 × 256)
  after the body, as the stores its run met read back; and that those stores cover each buffer, so that what was there
  before does not matter.
-/
import proofs.«429846_j4741643895566_3_alg».proof.Proof.Kernel.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### Case A -/

/-- What case A leaves in the output window's staging buffer: its stores read back over unspecified contents (it stores nothing there: a placeholder nothing consults, the window being idle and not written back). -/
def out0_A_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) : Vec F S1024x128 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)

/-- Case A's stores into the running-maximum scratch cover it. -/
theorem scover0_A_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (y : S1024x1.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S1024x1.size (by sl_kernel_rfl) y

/-- What case A leaves in the running-maximum scratch. -/
def sout0_A_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)

/-- Case A's stores into the accumulator scratch cover it. -/
theorem scover0_A_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (y : S1024x256.Idx) :
    ∃ pc ∈ (kernelRun0_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.2.1 S1024x256.size (by sl_kernel_rfl) y

/-- What case A leaves in the accumulator scratch. -/
def sout0_A_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) : Vec F S1024x256 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3 x4).2.2.1)

/-! ### Case B -/

/-- What case B leaves in the output window's staging buffer: its stores read back over unspecified contents (it stores nothing there: a placeholder nothing consults, the window being idle and not written back). -/
def out0_B_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x128 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0 xs1).1)

/-- Case B's stores into the running-maximum scratch cover it. -/
theorem scover0_B_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0 xs1).2.1 S1024x1.size (by sl_kernel_rfl) y

/-- What case B leaves in the running-maximum scratch. -/
def sout0_B_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0 xs1).2.1)

/-- Case B's stores into the accumulator scratch cover it. -/
theorem scover0_B_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) (y : S1024x256.Idx) :
    ∃ pc ∈ (kernelRun0_B c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0 xs1).2.2.1 S1024x256.size (by sl_kernel_rfl) y

/-- What case B leaves in the accumulator scratch. -/
def sout0_B_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x256 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 x4 xs0 xs1).2.2.1)

/-! ### Case C -/

/-- The one store of the finishing branch covers the output block. -/
theorem cover0_C_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).1 S1024x128.size (by sl_kernel_rfl) y

/-- What case C leaves in the output window's staging buffer: its stores read back over unspecified contents. -/
def out0_C_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x128 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0 xs1).1)

/-- Case C's stores into the running-maximum scratch cover it. -/
theorem scover0_C_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.1 S1024x1.size (by sl_kernel_rfl) y

/-- What case C leaves in the running-maximum scratch. -/
def sout0_C_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0 xs1).2.1)

/-- Case C's stores into the accumulator scratch cover it. -/
theorem scover0_C_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) (y : S1024x256.Idx) :
    ∃ pc ∈ (kernelRun0_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.2.1 S1024x256.size (by sl_kernel_rfl) y

/-- What case C leaves in the accumulator scratch. -/
def sout0_C_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x256 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 x4 xs0 xs1).2.2.1)

end Cert.Kernel.Fr

end
-- ==== Proof.Kernel.Frame.lean ====
/-
  The frame of the idealized kernel program, at any float instance: the one launch of the graph-attention kernel on
  its 8 × 8 grid (row tile i, column tile j; point t = 8·i + j) leaves every argument array as the program was started.

  What the three buffers the body writes hold after each grid point is defined by recursion along the grid: the output
  window's staging buffer, the running row maximum (1024 × 1) and the accumulator (1024 × 256).  At a first column
  tile (t ≡ 0 mod 8) the body resets both scratch buffers and folds the tile in, whatever they held; at a middle tile
  it folds the tile into what the point before left; at a last tile (t ≡ 7 mod 8) it does the same and stores the
  quotient through the ELU into the output block.  The invariant carried from one point to the next is that the two
  scratch buffers hold exactly these contents; before the first point they hold anything, and after the last point
  their contents are forgotten again.  The output window is idle away from the last column tile: its buffer is
  handed back as it was found and is not written back there.  With the body's triple at each of the three cases this
  is the pipeline's body obligation at every point, and the launch theorem gives the run and the frame.
-/
import proofs.«429846_j4741643895566_3_alg».proof.Proof.Kernel.Outs

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the three buffers hold after each point -/

/-- The output window's staging buffer, the running maximum and the accumulator after the body at position `n` of the
    grid: at the first point, and at every first column tile, the reset case at that point's blocks; elsewhere the
    middle or the finishing case at that point's blocks over the two scratch contents the point before left.  No point
    is both a first and a last column tile. -/
def outsAt0 (c : Dev nD) : (n : ℕ) → n < cfg0.N → Vec F S1024x128 .f32 × Vec F S1024x1 .f32 × Vec F S1024x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 = 7 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- At a first column tile: the reset case's contents. -/
theorem outsAt0_A (c : Dev nD) (t : Fin cfg0.N) (h0 : t.val % 8 = 0) (h1 : ¬t.val % 8 = 7) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle column tile: the middle case's contents, over what the point before left in the two scratch buffers. -/
theorem outsAt0_B (c : Dev nD) (t : Fin cfg0.N) (h0 : ¬t.val % 8 = 0) (h1 : ¬t.val % 8 = 7) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last column tile: the finishing case's contents, over what the point before left in the two scratch buffers. -/
theorem outsAt0_C (c : Dev nD) (t : Fin cfg0.N) (h0 : ¬t.val % 8 = 0) (h1 : t.val % 8 = 7) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the two scratch buffers at anything; afterwards the running maximum and the
    accumulator at what the point before left in them; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n`: both scratch buffers at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: both scratch buffers at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- On core `c`: the arrays as the grid finds them; after the body at point `t` each input window's buffer at its
    block and the output window's at `outsAt0`'s first component; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the contents at the grid's entry. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input window's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`: the invariant, the core's debt, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point.  The inputs' buffers hold their blocks; the point is a first, a middle or a last column
    tile; the invariant hands the body the two scratch buffers (at anything before the first point, at what the
    point before left otherwise) and takes them back at this point's contents, the body's stores covering both; away
    from the last column tile the output buffer comes back as it was found, at the last it holds the one store that
    covers it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- a first column tile: both scratch buffers are reset, whatever they held
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · -- a last column tile: the output block is stored
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_5 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _ _ _ _)
    · -- a middle column tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0 sout0_B_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the grid is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's own back: the contents of the two scratch buffers
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of the program on the TensorCores terminates, and
    every final state has each window's array at what the pipeline's bookkeeping computes from the proof data and every
    other buffer as the grid found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME: every execution terminates and leaves the six argument arrays as the program was started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Fr

end
-- ==== Proof.KernelIdeal.Kit.lean ====
/-
  The launch side of `KernelIdeal`'s one pallas_call, shared by the three runs of its body and by the frame:
  the contents every TensorCore buffer has when the grid is entered (the ten host operations before it applied to the
  starting memory: the projection h = input·W, the two attention columns h·a_self and h·a_neighs, the second one
  re-laid as a row, and h widened to 256 columns by a column of ones and 127 columns of zeros), the six argument
  arrays untouched by those operations, each window's block at a grid point, the two branch conditions of the body
  (the first column tile j = 0, where the running maximum and the accumulator are reset, and the last one j = 7,
  where the quotient and the ELU are stored) decided over the 8 × 8 grid, and where the output window is idle.
-/
import proofs.«429846_j4741643895566_3_alg».proof.Proof.Gen.KernelIdeal.Launch
import proofs.«429846_j4741643895566_3_alg».proof.Proof.Gen.KernelIdeal.Skeleton
import proofs.«429846_j4741643895566_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s TensorCore buffer `b` holds when the grid is entered: the ten host operations applied, in order,
    to the starting memory. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is its host operations followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- None of the host operations before the launch writes `main_arg0`: the kernel finds it as the program was started. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the launch writes `main_arg1`: the kernel finds it as the program was started. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the launch writes `main_arg2`: the kernel finds it as the program was started. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the launch writes `main_arg3`: the kernel finds it as the program was started. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the launch writes `main_arg4`: the kernel finds it as the program was started. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- None of the host operations before the launch writes `main_arg5`: the kernel finds it as the program was started. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- The block of window `w` at grid point `t`, cut out of the window's array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staging buffer of input window 0 holds the window's block of its array at every grid point, whether or not the
    pipeline fetched it there (an unfetched window's block index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 1 holds the window's block of its array at every grid point, whether or not the
    pipeline fetched it there (an unfetched window's block index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 2 holds the window's block of its array at every grid point, whether or not the
    pipeline fetched it there (an unfetched window's block index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 3 holds the window's block of its array at every grid point, whether or not the
    pipeline fetched it there (an unfetched window's block index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- The staging buffer of input window 4 holds the window's block of its array at every grid point, whether or not the
    pipeline fetched it there (an unfetched window's block index has not moved). -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run of the launch -/

/-- A run that ends with every window's array at what the pipeline's bookkeeping computes, and every other buffer as
    the grid found it, leaves the six argument arrays as the program was started: the adjacency and the mask (windows
    2 and 3) are inputs the pipeline only reads, the other four are staged by no window. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).2 main_arg0 (Pipeline.mem_restRefs_of main_arg0 (by decide) (by decide))).trans (V_main_arg0 m c),
      ((h c).1 2).trans (((dats 0 c).arrAt_in 2 rfl _).trans ((hA c 2).trans (V_main_arg1 m c))),
      ((h c).1 3).trans (((dats 0 c).arrAt_in 3 rfl _).trans ((hA c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's two branches -/

/-- The reset branch is taken: the column-tile coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The finishing branch is taken: the column-tile coordinate is 7. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Away from the last column tile the body stores nothing into the output window, -/
theorem idleAt0_5 : ∀ t : Fin cfg0.N, ¬cond0_1 (grid0.coords t) → cfg0.idle 5 (grid0.coords t) = true := by decide +kernel
/-- and the pipeline does not write its block back there. -/
theorem noFlush0_5 : ∀ t : Fin cfg0.N, ¬cond0_1 (grid0.coords t) → (cfg0.win 5).flush t = false := by decide +kernel
/-- At the last column tile the body stores the whole output block. -/
theorem liveAt0_5 : ∀ t : Fin cfg0.N, cond0_1 (grid0.coords t) → cfg0.idle 5 (grid0.coords t) = false := by decide +kernel

/-! ## The memrefs the body is called with -/

abbrev VO0_5 : View sig .tc .vmem S1024x128 .f32 := (Memref.whole cc0_stg5_0 : Memref sig .tc .vmem S1024x128 .f32).view
abbrev ms0_0 (t : Fin cfg0.N) : Memref sig .tc .vmem S1024x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .f32 := win0_5.stage (cfg0.slots t 5)
abbrev hs0_5 (t : Fin cfg0.N) : (ms0_5 t).IsWhole := hstage0_5 ((cfg0.slots t 5).cast nbuf0_5)
/-- The running row maximum and the 256-wide accumulator: scratch the kernel keeps from one column tile to the next. -/
abbrev scM0_0 : Memref sig .tc .vmem S1024x1 .f32 := Memref.whole cc0_scratch0
abbrev scM0_1 : Memref sig .tc .vmem S1024x256 .f32 := Memref.whole cc0_scratch1
abbrev VS0_0 : View sig .tc .vmem S1024x1 .f32 := scM0_0.view
abbrev VS0_1 : View sig .tc .vmem S1024x256 .f32 := scM0_1.view

/-- What the launch lends the body besides the windows: the two scratch buffers at some contents, and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Fr

end
-- ==== Proof.KernelIdeal.RunB.lean ====
/-
  The body of `KernelIdeal`'s kernel at a MIDDLE column tile (0 < j < 7: neither branch taken), run once on any whole
  staging memrefs: the five input blocks at given contents, the running maximum and the accumulator at what the tile
  before left, the output buffer untouched. It ends with the inputs as they were, the output buffer as it was, and
  each scratch overwritten by the stores the run meets (the new maximum; the rescaled accumulator plus this tile's
  product).
-/
import proofs.«429846_j4741643895566_3_alg».proof.Proof.KernelIdeal.Kit

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) :
    Σ' (L5 : List (View.Piece (Elt F) S1024x128 .f32)) (LS0 : List (View.Piece (Elt F) S1024x1 .f32)), { LS1 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9) K } := by
  refine ⟨[], ?_, ?_, fun xi5 E K => ?run⟩
  case run =>
    simp only [cc0__gat_kernel_eq_skeleton]; unfold cc0__gat_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Fr

end
-- ==== Proof.KernelIdeal.RunA.lean ====
/-
  The body of `KernelIdeal`'s kernel at the FIRST column tile (j = 0: the reset branch taken, the finishing branch not), run
  once on any whole staging memrefs: the five input blocks at given contents, both scratch buffers at anything, the
  output buffer untouched. It ends with the inputs and the output buffer as they were and each scratch holding two
  stores in order: the reset (minus infinity; zeros) and then this tile's update computed from the reset values.
-/
import proofs.«429846_j4741643895566_3_alg».proof.Proof.KernelIdeal.RunB

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_A (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) :
    Σ' (L5 : List (View.Piece (Elt F) S1024x128 .f32)) (LS0 : List (View.Piece (Elt F) S1024x1 .f32)), { LS1 : List (View.Piece (Elt F) S1024x256 .f32) //
      ∀ (xi5 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9) K } := by
  refine ⟨[], ?_, ?_, fun xi5 E K => ?run⟩
  case run =>
    simp only [cc0__gat_kernel_eq_skeleton]; unfold cc0__gat_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Fr

end
-- ==== Proof.KernelIdeal.RunC.lean ====
/-
  The body of `KernelIdeal`'s kernel at the LAST column tile (j = 7: the reset branch not taken, the finishing branch taken),
  run once on any whole staging memrefs: the five input blocks at given contents, the running maximum and the
  accumulator at what the tile before left, the output buffer at anything. It ends with the inputs as they were, each
  scratch overwritten by this tile's update, and the output buffer overwritten by the one store of the finishing
  branch (the accumulator's first 128 columns divided by its column 128, through the ELU).
-/
import proofs.«429846_j4741643895566_3_alg».proof.Proof.KernelIdeal.RunA

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) :
    Σ' (L5 : List (View.Piece (Elt F) S1024x128 .f32)) (LS0 : List (View.Piece (Elt F) S1024x1 .f32)), { LS1 : List (View.Piece (Elt F) S1024x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc0__gat_kernel i arg2 harg2 arg3 harg3 arg4 harg4 arg5 harg5 arg6 harg6 arg7 harg7 arg8 harg8 arg9 harg9) K } := by
  refine ⟨?_, ?_, ?_, fun E K => ?run⟩
  case run =>
    simp only [cc0__gat_kernel_eq_skeleton]; unfold cc0__gat_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]; · iexists _; iexact HS0
    iexists _; iexact HS1

end Cert.KernelIdeal.Fr

end
-- ==== Proof.KernelIdeal.Outs.lean ====
/-
  What each of the three cases of `KernelIdeal`'s kernel body leaves behind, named: the contents of the output window's
  staging buffer and of the two scratch buffers (the running row maximum, 1024 × 1, and the accumulator, 1024 × 256)
  after the body, as the stores its run met read back; and that those stores cover each buffer, so that what was there
  before does not matter.
-/
import proofs.«429846_j4741643895566_3_alg».proof.Proof.KernelIdeal.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### Case A -/

/-- What case A leaves in the output window's staging buffer: its stores read back over unspecified contents (it stores nothing there: a placeholder nothing consults, the window being idle and not written back). -/
def out0_A_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) : Vec F S1024x128 .f32 :=
  VO0_5.read (Elt F) (VO0_5.writes (Elt F) VO0_5.junk (kernelRun0_A c i arg2 harg2 arg3 harg3 arg4 harg4 arg5 harg5 arg6 harg6 arg7 harg7 arg8 harg8 arg9 harg9 hc0 hc1 x0 x1 x2 x3 x4).1)

/-- Case A's stores into the running-maximum scratch cover it. -/
theorem scover0_A_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (y : S1024x1.Idx) :
    ∃ pc ∈ (kernelRun0_A c i arg2 harg2 arg3 harg3 arg4 harg4 arg5 harg5 arg6 harg6 arg7 harg7 arg8 harg8 arg9 harg9 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.1 S1024x1.size (by sl_kernel_rfl) y

/-- What case A leaves in the running-maximum scratch. -/
def sout0_A_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) : Vec F S1024x1 .f32 :=
  VS0_0.read (Elt F) (VS0_0.writes (Elt F) VS0_0.junk (kernelRun0_A c i arg2 harg2 arg3 harg3 arg4 harg4 arg5 harg5 arg6 harg6 arg7 harg7 arg8 harg8 arg9 harg9 hc0 hc1 x0 x1 x2 x3 x4).2.1)

/-- Case A's stores into the accumulator scratch cover it. -/
theorem scover0_A_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (y : S1024x256.Idx) :
    ∃ pc ∈ (kernelRun0_A c i arg2 harg2 arg3 harg3 arg4 harg4 arg5 harg5 arg6 harg6 arg7 harg7 arg8 harg8 arg9 harg9 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 hc1 x0 x1 x2 x3 x4).2.2.1 S1024x256.size (by sl_kernel_rfl) y

/-- What case A leaves in the accumulator scratch. -/
def sout0_A_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) : Vec F S1024x256 .f32 :=
  VS0_1.read (Elt F) (VS0_1.writes (Elt F) VS0_1.junk (kernelRun0_A c i arg2 harg2 arg3 harg3 arg4 harg4 arg5 harg5 arg6 harg6 arg7 harg7 arg8 harg8 arg9 harg9 hc0 hc1 x0 x1 x2 x3 x4).2.2.1)

/-! ### Case B -/

/-- What case B leaves in the output window's staging buffer: its stores read back over unspecified contents (it stores nothing there: a placeholder nothing consults, the window being idle and not written back). -/
def out0_B_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x128 .f32 :=
  VO0_5.read (Elt F) (VO0_5.writes (Elt F) VO0_5.junk (kernelRun0_B c i arg2 harg2 arg3 harg3 arg4 harg4 arg5 harg5 arg6 harg6 arg7 harg7 arg8 harg8 arg9 harg9 hc0 hc1 x0 x1 x2 x3 x4 xs0 xs1).1)

/-- Case B's stores into the running-maximum scratch cover it. -/
theorem scover0_B_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) (y : S1024x1.Idx) :
    ∃ pc ∈ (kernelRun0_B c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0 xs1).2.1 S1024x1.size (by sl_kernel_rfl) y

/-- What case B leaves in the running-maximum scratch. -/
def sout0_B_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x1 .f32 :=
  VS0_0.read (Elt F) (VS0_0.writes (Elt F) VS0_0.junk (kernelRun0_B c i arg2 harg2 arg3 harg3 arg4 harg4 arg5 harg5 arg6 harg6 arg7 harg7 arg8 harg8 arg9 harg9 hc0 hc1 x0 x1 x2 x3 x4 xs0 xs1).2.1)

/-- Case B's stores into the accumulator scratch cover it. -/
theorem scover0_B_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) (y : S1024x256.Idx) :
    ∃ pc ∈ (kernelRun0_B c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_B c i arg2 harg2 arg3 harg3 arg4 harg4 arg5 harg5 arg6 harg6 arg7 harg7 arg8 harg8 arg9 harg9 hc0 hc1 x0 x1 x2 x3 x4 xs0 xs1).2.2.1 S1024x256.size (by sl_kernel_rfl) y

/-- What case B leaves in the accumulator scratch. -/
def sout0_B_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x256 .f32 :=
  VS0_1.read (Elt F) (VS0_1.writes (Elt F) VS0_1.junk (kernelRun0_B c i arg2 harg2 arg3 harg3 arg4 harg4 arg5 harg5 arg6 harg6 arg7 harg7 arg8 harg8 arg9 harg9 hc0 hc1 x0 x1 x2 x3 x4 xs0 xs1).2.2.1)

/-! ### Case C -/

/-- The one store of the finishing branch covers the output block. -/
theorem cover0_C_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) (y : S1024x128.Idx) :
    ∃ pc ∈ (kernelRun0_C c i arg2 harg2 arg3 harg3 arg4 harg4 arg5 harg5 arg6 harg6 arg7 harg7 arg8 harg8 arg9 harg9 hc0 hc1 x0 x1 x2 x3 x4 xs0 xs1).1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).1 S1024x128.size (by sl_kernel_rfl) y

/-- What case C leaves in the output window's staging buffer: its stores read back over unspecified contents. -/
def out0_C_5 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x128 .f32 :=
  VO0_5.read (Elt F) (VO0_5.writes (Elt F) VO0_5.junk (kernelRun0_C c i arg2 harg2 arg3 harg3 arg4 harg4 arg5 harg5 arg6 harg6 arg7 harg7 arg8 harg8 arg9 harg9 hc0 hc1 x0 x1 x2 x3 x4 xs0 xs1).1)

/-- Case C's stores into the running-maximum scratch cover it. -/
theorem scover0_C_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) (y : S1024x1.Idx) :
    ∃ pc ∈ (kernelRun0_C c i arg2 harg2 arg3 harg3 arg4 harg4 arg5 harg5 arg6 harg6 arg7 harg7 arg8 harg8 arg9 harg9 hc0 hc1 x0 x1 x2 x3 x4 xs0 xs1).2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.1 S1024x1.size (by sl_kernel_rfl) y

/-- What case C leaves in the running-maximum scratch. -/
def sout0_C_0 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x1 .f32 :=
  VS0_0.read (Elt F) (VS0_0.writes (Elt F) VS0_0.junk (kernelRun0_C c i arg2 harg2 arg3 harg3 arg4 harg4 arg5 harg5 arg6 harg6 arg7 harg7 arg8 harg8 arg9 harg9 hc0 hc1 x0 x1 x2 x3 x4 xs0 xs1).2.1)

/-- Case C's stores into the accumulator scratch cover it. -/
theorem scover0_C_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) (y : S1024x256.Idx) :
    ∃ pc ∈ (kernelRun0_C c i arg2 harg2 arg3 harg3 arg4 harg4 arg5 harg5 arg6 harg6 arg7 harg7 arg8 harg8 arg9 harg9 hc0 hc1 x0 x1 x2 x3 x4 xs0 xs1).2.2.1, y ∈ pc.1.set :=
  View.cover_of_tiledL (kernelRun0_C c i arg2 harg2 arg3 harg3 arg4 harg4 arg5 harg5 arg6 harg6 arg7 harg7 arg8 harg8 arg9 harg9 hc0 hc1 x0 x1 x2 x3 x4 xs0 xs1).2.2.1 S1024x256.size (by sl_kernel_rfl) y

/-- What case C leaves in the accumulator scratch. -/
def sout0_C_1 (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) : Vec F S1024x256 .f32 :=
  VS0_1.read (Elt F) (VS0_1.writes (Elt F) VS0_1.junk (kernelRun0_C c i arg2 harg2 arg3 harg3 arg4 harg4 arg5 harg5 arg6 harg6 arg7 harg7 arg8 harg8 arg9 harg9 hc0 hc1 x0 x1 x2 x3 x4 xs0 xs1).2.2.1)

end Cert.KernelIdeal.Fr

end
-- ==== Proof.KernelIdeal.Frame.lean ====
/-
  The frame of the idealized kernel program, at any float instance: the one launch of the graph-attention kernel on
  its 8 × 8 grid (row tile i, column tile j; point t = 8·i + j) leaves every argument array as the program was started.

  What the three buffers the body writes hold after each grid point is defined by recursion along the grid: the output
  window's staging buffer, the running row maximum (1024 × 1) and the accumulator (1024 × 256).  At a first column
  tile (t ≡ 0 mod 8) the body resets both scratch buffers and folds the tile in, whatever they held; at a middle tile
  it folds the tile into what the point before left; at a last tile (t ≡ 7 mod 8) it does the same and stores the
  quotient through the ELU into the output block.  The invariant carried from one point to the next is that the two
  scratch buffers hold exactly these contents; before the first point they hold anything, and after the last point
  their contents are forgotten again.  The output window is idle away from the last column tile: its buffer is
  handed back as it was found and is not written back there.  With the body's triple at each of the three cases this
  is the pipeline's body obligation at every point, and the launch theorem gives the run and the frame.
-/
import proofs.«429846_j4741643895566_3_alg».proof.Proof.KernelIdeal.Outs

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the three buffers hold after each point -/

/-- The output window's staging buffer, the running maximum and the accumulator after the body at position `n` of the
    grid: at the first point, and at every first column tile, the reset case at that point's blocks; elsewhere the
    middle or the finishing case at that point's blocks over the two scratch contents the point before left.  No point
    is both a first and a last column tile. -/
def outsAt0 (c : Dev nD) : (n : ℕ) → n < cfg0.N → Vec F S1024x128 .f32 × Vec F S1024x1 .f32 × Vec F S1024x256 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 8 = 0 then
      if h1 : (n + 1) % 8 = 7 then
        False.elim (by omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 8 = 7 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2)

/-- At a first column tile: the reset case's contents. -/
theorem outsAt0_A (c : Dev nD) (t : Fin cfg0.N) (h0 : t.val % 8 = 0) (h1 : ¬t.val % 8 = 7) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- At a middle column tile: the middle case's contents, over what the point before left in the two scratch buffers. -/
theorem outsAt0_B (c : Dev nD) (t : Fin cfg0.N) (h0 : ¬t.val % 8 = 0) (h1 : ¬t.val % 8 = 7) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- At a last column tile: the finishing case's contents, over what the point before left in the two scratch buffers. -/
theorem outsAt0_C (c : Dev nD) (t : Fin cfg0.N) (h0 : ¬t.val % 8 = 0) (h1 : t.val % 8 = 7) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start the two scratch buffers at anything; afterwards the running maximum and the
    accumulator at what the point before left in them; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n`: both scratch buffers at that point's contents. -/
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

/-- Before a point that is not the first: both scratch buffers at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

/-- On core `c`: the arrays as the grid finds them; after the body at point `t` each input window's buffer at its
    block and the output window's at `outsAt0`'s first component; the invariant `PhiS`; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q _ := fullShare
  owed _ := 0

/-- The proof data's arrays are the contents at the grid's entry. -/
theorem A_eq (c : Dev nD) (w : Fin cfg0.W) : (dats m 0 c).A w = V m c (Pipeline.arrRef spec0 w) := by
  dsimp only [dats]

/-- The invariant at a point's start, restated at the point's position. -/
theorem PhiS_castSucc (c : Dev nD) (t : Fin cfg0.N) :
    (dats m 0 c).Φ t.castSucc = PhiS m c t.val (Nat.le_of_lt t.isLt) := by
  dsimp only [dats]; simp only [Fin.coe_castSucc]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

/-- Each input window's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`: the invariant, the core's debt, and each window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point.  The inputs' buffers hold their blocks; the point is a first, a middle or a last column
    tile; the invariant hands the body the two scratch buffers (at anything before the first point, at what the
    point before left otherwise) and takes them back at this point's contents, the body's stores covering both; away
    from the last column tile the output buffer comes back as it was found, at the last it holds the one store that
    covers it; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · -- a first column tile: both scratch buffers are reset, whatever they held
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_A m c t h0 h1]
      unfold sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _)
            · unfold owns; iexists _; isplitr
              swap; · iexact HS1
              ipureintro; exact View.read_writes_of_cover _ _ _ _ _ (scover0_A_1 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 8 = 7
    · -- a last column tile: the output block is stored
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [show (dats m 0 c).leavesExact 5 t = owns (c : Thread nD τ) (ms0_5 t) fullShare ((dats m 0 c).after 5 t) from by
        unfold Dat.leavesExact; rw [liveAt0_5 t ((hcond0_1 t).mpr h1)], after0_5]
      rw [outsAt0_C m c t h0 h1]
      unfold out0_C_5 sout0_C_0 sout0_C_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _)
          · unfold owns; iexists _; isplitr
            swap; · iexact HS1
            ipureintro; exact View.read_writes_of_cover _ _ _ _ _ (scover0_C_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _ _ _ _)
    · -- a middle column tile
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t], after0_3]
      rw [show (dats m 0 c).leavesExact 4 t = owns (c : Thread nD τ) (ms0_4 t) fullShare ((dats m 0 c).after 4 t) from by
        unfold Dat.leavesExact; rw [liveAt0_4 t], after0_4]
      rw [Dat.leavesExact_idle (dats m 0 c) 5 t (idleAt0_5 t (fun h => h1 ((hcond0_1 t).mp h))) (noFlush0_5 t (fun h => h1 ((hcond0_1 t).mp h)))]
      rw [outsAt0_B m c t h0 h1]
      unfold sout0_B_0 sout0_B_1; (try dsimp only)
      have hz : t.val ≠ 0 := by omega
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _)
          · unfold owns; iexists _; isplitr
            swap; · iexact HS1
            ipureintro; exact View.read_writes_of_cover _ _ _ _ _ (scover0_B_1 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The pipeline's body obligation, at every point. -/
theorem body_obligation (c : Dev nD) : BodyObligation (dats (F := F) m 0 c) (defs₀ (F := F)) Variants.none () Set.univ := fun t => by
  rw [bigSep_W0, bigSep_W0]
  exact sound_body m c t

/-- What the launch hands the grid is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's own back: the contents of the two scratch buffers
    are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of the program on the TensorCores terminates, and
    every final state has each window's array at what the pipeline's bookkeeping computes from the proof data and every
    other buffer as the grid found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hin := hin m) (hout := hout m)

/-- THE FRAME: every execution terminates and leaves the six argument arrays as the program was started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Fr

end
-- ==== Proof.Spec.lean ====
/-
  The mathematics of the certificate, over the real numbers, with no program in sight.

  A graph-attention layer on 8192 nodes.  From the node features X (8192 × 512) and the weights W (512 × 128) the
  projection H = X·W; from H and the two attention vectors the columns s = H·a_self and n = H·a_neighs; the score of the
  pair (r, k) is leakyrelu((s r + n k)·M r k) where the adjacency A r k is positive and the constant −9·10¹⁵ elsewhere; row
  r of the result is the softmax of row r of the scores applied to H, through the ELU.

  The reference computes the softmax whole: it subtracts the row maximum, exponentiates, divides by the row sum and then
  multiplies by H.  The kernel streams a row's scores in 8 tiles of 1024 columns, keeping a running maximum and an
  accumulator 256 wide — H's 128 columns, a column of ones (which accumulates the denominator) and 127 columns of zeros —
  that it rescales by exp(old maximum − new maximum) before adding each tile's product; after the last tile it divides
  the first 128 columns by column 128.  Both are the same number because exp(e − μ) = exp(e)·exp(−μ) and the positive
  factor exp(−μ) cancels in the quotient, whatever shift μ was used; everything is finite, so this is arithmetic in ℝ.

  Arrays are functions ℕ → ℕ → ℝ read only inside their extents; `up2` places one in an array of extended reals.
-/
import Mathlib.Analysis.SpecialFunctions.Exp
import Mathlib.Algebra.BigOperators.Intervals
import Mathlib.Order.Interval.Finset.Nat
import Idealize.ShloMosaic.PureOps.Ideal
import Idealize.ShloMosaic.Lib.ValueIdx

noncomputable section

namespace Gat

open Finset Idealize.ShloMosaic

/-- A real matrix placed in an array of extended reals of literal extents. -/
def up2 {n0 n1 : Nat} (f : ℕ → ℕ → ℝ) : (⟨2, ![n0, n1]⟩ : Shape).Idx → EReal :=
  fun i => ((f (i 0).val (i 1).val : ℝ) : EReal)

theorem up2_ix2 {n0 n1 : Nat} (f : ℕ → ℕ → ℝ) (a : Fin n0) (b : Fin n1) :
    up2 f (ValueIdx.ix2 a b) = ((f a.val b.val : ℝ) : EReal) := rfl

/-- The value of the single-precision word 0x3E4CCCCD, the slope 0.2 as both programs carry it. -/
def slope : ℝ := 13421773 / 67108864
/-- The value of the single-precision word 0xD9FFCB9E, the score of a pair that is no edge. -/
def negBig : ℝ := -8999999815811072

/-- H = X·W. -/
def proj (X W : ℕ → ℕ → ℝ) (r c : ℕ) : ℝ := ∑ k ∈ range 512, X r k * W k c
/-- H·a for an attention vector a (128 × 1). -/
def attnCol (H a : ℕ → ℕ → ℝ) (r : ℕ) : ℝ := ∑ c ∈ range 128, H r c * a c 0
/-- The leaky rectifier in the kernel's spelling: the larger of x and slope·x. -/
def lrelu (x : ℝ) : ℝ := max x (slope * x)
/-- The masked score of the pair (r, k). -/
def score (sv nv : ℕ → ℝ) (A M : ℕ → ℕ → ℝ) (r k : ℕ) : ℝ :=
  if 0 < A r k then lrelu ((sv r + nv k) * M r k) else negBig
/-- H widened to 256 columns: H, a column of ones, zeros. -/
def wide (H : ℕ → ℕ → ℝ) (k c : ℕ) : ℝ := if c < 128 then H k c else if c = 128 then 1 else 0
def elu (y : ℝ) : ℝ := if 0 < y then y else Real.exp y - 1

/-- The largest score of row r inside column tile j. -/
def tileMax (E : ℕ → ℕ → ℝ) (r j : ℕ) : ℝ :=
  (range 1024).sup' ⟨0, by simp⟩ fun q => E r (j * 1024 + q)
/-- The running maximum of row r after tiles 0 … j. -/
def runMax (E : ℕ → ℕ → ℝ) (r : ℕ) : ℕ → ℝ
  | 0 => tileMax E r 0
  | j + 1 => max (runMax E r j) (tileMax E r (j + 1))
/-- The accumulator of row r, column c after tiles 0 … j: the first (j+1)·1024 terms, shifted by the running maximum. -/
def runAcc (E Hw : ℕ → ℕ → ℝ) (r c j : ℕ) : ℝ :=
  ∑ k ∈ range ((j + 1) * 1024), Real.exp (E r k - runMax E r j) * Hw k c

/-- Row r, column c of the attention output before the ELU: the exp-weighted mean of H's column. -/
def attn (E H : ℕ → ℕ → ℝ) (r c : ℕ) : ℝ :=
  (∑ k ∈ range 8192, Real.exp (E r k) * H k c) / (∑ k ∈ range 8192, Real.exp (E r k))

/-- The layer's result as a function of the six argument arrays. -/
def result (X A M W as an : ℕ → ℕ → ℝ) (r c : ℕ) : ℝ :=
  elu (attn (score (attnCol (proj X W) as) (attnCol (proj X W) an) A M) (proj X W) r c)

end Gat

end
-- ==== Proof.KernelIdeal.Fin.lean ====
/-
  From the precondition to real arrays.

  The certificate's precondition says of each of the six argument arrays that every entry x has |x| < +∞, the six
  statements joined by "and".  An extended real whose absolute value max x (−x) lies below +∞ is neither +∞ nor −∞,
  hence the image of a real number; an array of literal extents n0 × n1 all of whose entries are such is the image
  `Gat.up2 f` of a real matrix f (read only inside the extents).  So under the precondition the six arguments are
  the images of six real matrices X, A, M, W, a_self, a_neighs.
-/
import proofs.«429846_j4741643895566_3_alg».proof.Defs
import proofs.«429846_j4741643895566_3_alg».proof.Proof.Gen.Pre_finite_inputs
import proofs.«429846_j4741643895566_3_alg».proof.Proof.Gen.KernelIdeal
import proofs.«429846_j4741643895566_3_alg».proof.Proof.Spec
import Idealize.ShloMosaic.Lib.ReduceAll

noncomputable section

namespace Cert.KernelIdeal.Val

open Idealize.ShloMosaic Idealize.SL.Sem

/-- The one index of an array of rank 0 makes its index type a subsingleton. -/
instance : Subsingleton Cert.Pre_finite_inputs.S_.Idx := ⟨fun a b => funext fun d => d.elim0⟩

/-- An extended real whose absolute value max x (−x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- An array of extents n0 × n1 whose entries are all real numbers is the image of a real matrix. -/
theorem up2_of_real {n0 n1 : Nat} (v : (⟨2, ![n0, n1]⟩ : Shape).Idx → EReal)
    (h : ∀ i, ∃ r : ℝ, v i = (r : EReal)) : ∃ f : ℕ → ℕ → ℝ, v = Gat.up2 f := by
  refine ⟨fun a b => if hab : a < n0 ∧ b < n1 then (v (ValueIdx.ix2 ⟨a, hab.1⟩ ⟨b, hab.2⟩)).toReal else 0, ?_⟩
  funext j
  obtain ⟨p, q, rfl⟩ : ∃ (p : Fin n0) (q : Fin n1), j = ValueIdx.ix2 p q := ⟨j 0, j 1, ValueIdx.eq_ix2 j⟩
  rw [Gat.up2_ix2]
  obtain ⟨r, hr⟩ := h (ValueIdx.ix2 p q)
  simp only [p.isLt, q.isLt, and_self, dite_true, Fin.eta]
  rw [hr, EReal.toReal_coe]

/-- The entry test of the precondition, |x| < +∞ with +∞ the single-precision word 0x7F800000 spread over the array,
    read at one index: the entry is a real number. -/
theorem real_of_test {s : Shape} (hb : Cert.Pre_finite_inputs.S_.BroadcastsInDim s (![] : Fin 0 → Fin s.rank))
    (v : FVec Ideal s .f32) (i : s.Idx)
    (h : cmpf .olt (Host.absf v) (broadcastInDim s ![] hb (constant (F := Ideal) Cert.Pre_finite_inputs.S_ .f32 0x7F800000#32)) i = 1#1) :
    ∃ r : ℝ, v i = (r : EReal) := by
  refine real_of_abs_lt_top (v i) ?_
  have h' : Ideal.cmp .olt (max (v i) (-(v i))) (Ideal.ofBits .f32 0x7F800000#32) = 1#1 := h
  have ht : Ideal.ofBits .f32 0x7F800000#32 = ⊤ := by simp [Ideal.ofBits, Ideal.ieee]
  rw [ht] at h'
  by_contra hn
  simp [Ideal.cmp, hn] at h'

/-- A whole array passing the test "every entry has |x| < +∞" has only real entries. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (v : FVec Ideal s .f32) (init : IVec Cert.Pre_finite_inputs.S_ 1)
    (e : Host.reduce IntOp.andi
      (cmpf .olt (Host.absf v) (broadcastInDim s ![] hb (constant (F := Ideal) Cert.Pre_finite_inputs.S_ .f32 0x7F800000#32)))
      init hr hu ValueIdx.ix0 = 1#1) (i : s.Idx) : ∃ r : ℝ, v i = (r : EReal) :=
  real_of_test hb v i (Host.reduce_andi_all _ init hr hu ValueIdx.ix0 e i)

/-- Under the precondition each of the six argument arrays is the image of a real matrix. -/
theorem reals_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    ∃ X A M W as_ an : ℕ → ℕ → ℝ,
      m ((c.tc : Thread Cert.KernelIdeal.nD Cert.KernelIdeal.τ).loc Cert.KernelIdeal.main_arg0) = Gat.up2 X
      ∧ m ((c.tc : Thread Cert.KernelIdeal.nD Cert.KernelIdeal.τ).loc Cert.KernelIdeal.main_arg1) = Gat.up2 A
      ∧ m ((c.tc : Thread Cert.KernelIdeal.nD Cert.KernelIdeal.τ).loc Cert.KernelIdeal.main_arg2) = Gat.up2 M
      ∧ m ((c.tc : Thread Cert.KernelIdeal.nD Cert.KernelIdeal.τ).loc Cert.KernelIdeal.main_arg3) = Gat.up2 W
      ∧ m ((c.tc : Thread Cert.KernelIdeal.nD Cert.KernelIdeal.τ).loc Cert.KernelIdeal.main_arg4) = Gat.up2 as_
      ∧ m ((c.tc : Thread Cert.KernelIdeal.nD Cert.KernelIdeal.τ).loc Cert.KernelIdeal.main_arg5) = Gat.up2 an := by
  have h := congrFun (hpre c) ValueIdx.ix0
  dsimp only [Cert.Pre_finite_inputs.fn, Cert.Pre_finite_inputs.fn_part1] at h
  obtain ⟨h4, e5⟩ := IntOp.andi_eq_one.1 h
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  obtain ⟨X, hX⟩ := up2_of_real (n0 := 8192) (n1 := 512) _ (real_of_all _ _ _ _ _ e0)
  obtain ⟨A, hA⟩ := up2_of_real (n0 := 8192) (n1 := 8192) _ (real_of_all _ _ _ _ _ e1)
  obtain ⟨M, hM⟩ := up2_of_real (n0 := 8192) (n1 := 8192) _ (real_of_all _ _ _ _ _ e2)
  obtain ⟨W, hW⟩ := up2_of_real (n0 := 512) (n1 := 128) _ (real_of_all _ _ _ _ _ e3)
  obtain ⟨as_, has⟩ := up2_of_real (n0 := 128) (n1 := 1) _ (real_of_all _ _ _ _ _ e4)
  obtain ⟨an, han⟩ := up2_of_real (n0 := 128) (n1 := 1) _ (real_of_all _ _ _ _ _ e5)
  exact ⟨X, A, M, W, as_, an, hX, hA, hM, hW, has, han⟩

end Cert.KernelIdeal.Val

end
-- ==== Proof.KernelIdeal.Pieces.lean ====
/-
  The stores of the kernel body, named. Each case of the body (the first column tile, a middle one, the last one)
  leaves in the running-maximum column, in the 256-wide accumulator and, at the last tile, in the output block, one
  store that covers the whole buffer; this module says which pure term of the loaded blocks each of those stores
  writes. With m the running maximum found, acc the accumulator found, and s the masked leaky-ReLU scores of the tile:
  the new maximum is m' = max(m, rowmax s); the new accumulator is exp(m - m') * acc + exp(s - m') · v, v the tile's
  256-wide block of values;
  the output block is the ELU of the accumulator's first 128 columns divided by its column 128. At the first tile the
  buffers are first reset (m = -inf, acc = 0) and the update is computed from the reset values.
-/
import proofs.«429846_j4741643895566_3_alg».proof.Proof.KernelIdeal.Outs
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- The offsets of a whole-buffer rectangle are zero. -/
private theorem hz2 : (![0, 0] : Fin 2 → Nat) = fun _ => 0 := funext fun a => by fin_cases a <;> rfl

/-! ### A middle tile -/

/-- At a middle tile the running-maximum column ends as the larger of what it held and the row maxima of this tile's scores. -/
theorem sout0_B_0_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) :
    sout0_B_0 c i arg2 harg2 arg3 harg3 arg4 harg4 arg5 harg5 arg6 harg6 arg7 harg7 arg8 harg8 arg9 harg9 hc0 hc1 x0 x1 x2 x3 x4 xs0 xs1 = k0_pay2 (k0_pay7 x0 x1 x3 x2 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S1024x1) hz2]
  simp only [View.readAt_eq_ld, harg2.read_unread, harg3.read_unread, harg4.read_unread, harg5.read_unread, harg6.read_unread, harg8.read_unread, harg9.read_unread, View.ld_unit_zero (S := S1024x1) hz2, View.ld_unit_zero (S := S1x1024) hz2, View.ld_unit_zero (S := S1024x1024) hz2, View.ld_unit_zero (S := S1024x256) hz2]

/-- At a middle tile the accumulator ends as what it held, rescaled by the exponential of the maximum's change, plus this tile's exponentials times the widened values. -/
theorem sout0_B_1_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) :
    sout0_B_1 c i arg2 harg2 arg3 harg3 arg4 harg4 arg5 harg5 arg6 harg6 arg7 harg7 arg8 harg8 arg9 harg9 hc0 hc1 x0 x1 x2 x3 x4 xs0 xs1 = k0_pay1 (k0_pay8 x0 x1 x3 x2 xs0) (k0_pay9 x0 x1 x3 x2 xs0 xs0 xs1) x4 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 x4 xs0 xs1)]
  unfold kernelRun0_B
  dsimp only
  sl_unfold_words
  rw [View.canon_unit_zero (S := S1024x256) hz2]
  simp only [View.readAt_eq_ld, harg2.read_unread, harg3.read_unread, harg4.read_unread, harg5.read_unread, harg6.read_unread, harg8.read_unread, harg9.read_unread, View.ld_unit_zero (S := S1024x1) hz2, View.ld_unit_zero (S := S1x1024) hz2, View.ld_unit_zero (S := S1024x1024) hz2, View.ld_unit_zero (S := S1024x256) hz2]

/-! ### The last tile -/

/-- At the last tile the running-maximum column is updated as at a middle tile. -/
theorem sout0_C_0_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) :
    sout0_C_0 c i arg2 harg2 arg3 harg3 arg4 harg4 arg5 harg5 arg6 harg6 arg7 harg7 arg8 harg8 arg9 harg9 hc0 hc1 x0 x1 x2 x3 x4 xs0 xs1 = k0_pay2 (k0_pay7 x0 x1 x3 x2 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S1024x1) hz2]
  simp only [View.readAt_eq_ld, harg2.read_unread, harg3.read_unread, harg4.read_unread, harg5.read_unread, harg6.read_unread, harg8.read_unread, harg9.read_unread, View.ld_unit_zero (S := S1024x1) hz2, View.ld_unit_zero (S := S1x1024) hz2, View.ld_unit_zero (S := S1024x1024) hz2, View.ld_unit_zero (S := S1024x256) hz2]

/-- At the last tile the accumulator is updated as at a middle tile. -/
theorem sout0_C_1_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) :
    sout0_C_1 c i arg2 harg2 arg3 harg3 arg4 harg4 arg5 harg5 arg6 harg6 arg7 harg7 arg8 harg8 arg9 harg9 hc0 hc1 x0 x1 x2 x3 x4 xs0 xs1 = k0_pay1 (k0_pay8 x0 x1 x3 x2 xs0) (k0_pay9 x0 x1 x3 x2 xs0 xs0 xs1) x4 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S1024x256) hz2]
  simp only [View.readAt_eq_ld, harg2.read_unread, harg3.read_unread, harg4.read_unread, harg5.read_unread, harg6.read_unread, harg8.read_unread, harg9.read_unread, View.ld_unit_zero (S := S1024x1) hz2, View.ld_unit_zero (S := S1x1024) hz2, View.ld_unit_zero (S := S1024x1024) hz2, View.ld_unit_zero (S := S1024x256) hz2]

/-- At the last tile the output block is the quotient-and-ELU of the accumulator just updated. -/
theorem out0_C_5_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i)
    (x0 : Vec F S1024x1 .f32) (x1 : Vec F S1x1024 .f32) (x2 : Vec F S1024x1024 .f32) (x3 : Vec F S1024x1024 .f32) (x4 : Vec F S1024x256 .bf16) (xs0 : Vec F S1024x1 .f32) (xs1 : Vec F S1024x256 .f32) :
    out0_C_5 c i arg2 harg2 arg3 harg3 arg4 harg4 arg5 harg5 arg6 harg6 arg7 harg7 arg8 harg8 arg9 harg9 hc0 hc1 x0 x1 x2 x3 x4 xs0 xs1 = k0_pay3 (k0_pay1 (k0_pay8 x0 x1 x3 x2 xs0) (k0_pay9 x0 x1 x3 x2 xs0 xs0 xs1) x4) := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 x4 xs0 xs1)]
  unfold kernelRun0_C
  dsimp only
  sl_unfold_words
  rw [View.canon_unit_zero (S := S1024x128) hz2]
  simp only [View.readAt_eq_ld, harg2.read_unread, harg3.read_unread, harg4.read_unread, harg5.read_unread, harg6.read_unread, harg8.read_unread, harg9.read_unread, View.ld_unit_zero (S := S1024x1) hz2, View.ld_unit_zero (S := S1x1024) hz2, View.ld_unit_zero (S := S1024x1024) hz2, View.ld_unit_zero (S := S1024x256) hz2,
    View.readCov_unit_zero (S := S1024x256) _ hz2]

/-! ### The first tile -/

/-- At the first tile the running-maximum column is first reset to minus infinity; the update, the later of the two stores, reads the reset value back, so the column ends as the row maxima of this tile's scores against minus infinity. -/
theorem sout0_A_0_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) :
    sout0_A_0 c i arg2 harg2 arg3 harg3 arg4 harg4 arg5 harg5 arg6 harg6 arg7 harg7 arg8 harg8 arg9 harg9 hc0 hc1 x0 x1 x2 x3 x4 = k0_pay2 (k0_pay7 x0 x1 x3 x2 k0_pay4) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1) hz2]
  simp only [View.readAt_eq_ld, harg2.read_unread, harg3.read_unread, harg4.read_unread, harg5.read_unread, harg6.read_unread, View.ld_unit_zero (S := S1024x1) hz2, View.ld_unit_zero (S := S1x1024) hz2, View.ld_unit_zero (S := S1024x1024) hz2, View.ld_unit_zero (S := S1024x256) hz2,
    View.readCov_unit_zero (S := S1024x1) _ hz2, View.readCov_unit_zero (S := S1024x256) _ hz2]

/-- At the first tile the accumulator is first reset to zero; the update, the later of the two stores, reads the reset maximum and the reset accumulator back. -/
theorem sout0_A_1_eq (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1024x256 .bf16) (harg6 : arg6.IsWhole) (arg7 : Memref sig .tc .vmem S1024x128 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i)
    (x0 : Vec F S1024x1 .f32) (x1 : Vec F S1x1024 .f32) (x2 : Vec F S1024x1024 .f32) (x3 : Vec F S1024x1024 .f32) (x4 : Vec F S1024x256 .bf16) :
    sout0_A_1 c i arg2 harg2 arg3 harg3 arg4 harg4 arg5 harg5 arg6 harg6 arg7 harg7 arg8 harg8 arg9 harg9 hc0 hc1 x0 x1 x2 x3 x4 = k0_pay1 (k0_pay8 x0 x1 x3 x2 k0_pay4) (k0_pay9 x0 x1 x3 x2 k0_pay4 k0_pay4 k0_pay5) x4 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x256) hz2]
  simp only [View.readAt_eq_ld, harg2.read_unread, harg3.read_unread, harg4.read_unread, harg5.read_unread, harg6.read_unread, View.ld_unit_zero (S := S1024x1) hz2, View.ld_unit_zero (S := S1x1024) hz2, View.ld_unit_zero (S := S1024x1024) hz2, View.ld_unit_zero (S := S1024x256) hz2,
    View.readCov_unit_zero (S := S1024x1) _ hz2, View.readCov_unit_zero (S := S1024x256) _ hz2]

end Cert.KernelIdeal.Fr

end
-- ==== Proof.Coe.lean ====
/-
  The exact operations of the extended reals on finite values: each operation the two programs apply, read on
  (coercions of) real numbers, is the coercion of the real operation; and the values of the float words the programs
  spell (the slope, the large negative score, one, zero, minus infinity).
-/
import proofs.«429846_j4741643895566_3_alg».proof.Proof.Spec
import Idealize.ShloMosaic.PureOps.Ideal
import Mathlib.Data.EReal.Basic
import Mathlib.Data.EReal.Inv

noncomputable section

namespace Gat

open Finset Idealize.ShloMosaic

/-- The exponential of a finite value is the real exponential. -/
theorem exp_coe (x : ℝ) : Ideal.exp (x : EReal) = ((Real.exp x : ℝ) : EReal) := rfl
/-- The exponential of −∞ is zero. -/
theorem exp_bot : Ideal.exp (⊥ : EReal) = ((0 : ℝ) : EReal) := rfl
/-- The quotient of two finite values, the divisor not zero, is the real quotient. -/
theorem div_coe (x y : ℝ) (hy : y ≠ 0) : Ideal.div (x : EReal) (y : EReal) = ((x / y : ℝ) : EReal) := by
  rw [Ideal.div_coe hy, ← EReal.coe_mul, mul_one_div]
/-- A finite sum of finite values is the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- 0x3E4CCCCD: sign +, exponent 124, significand 2²³ + 5033165, that is 13421773 · 2⁻²⁶. -/
theorem ofBits_slope : Ideal.ofBits .f32 0x3E4CCCCD#32 = ((slope : ℝ) : EReal) := by
  simp [Ideal.ofBits, Ideal.ieee, slope, -EReal.coe_mul]; norm_num
/-- 0xD9FFCB9E: sign −, exponent 179, significand 2²³ + 8375198, that is −16763806 · 2²⁹. -/
theorem ofBits_negBig : Ideal.ofBits .f32 0xD9FFCB9E#32 = ((negBig : ℝ) : EReal) := by
  simp [Ideal.ofBits, Ideal.ieee, negBig, -EReal.coe_mul]; norm_num
theorem ofBits_one : Ideal.ofBits .f32 0x3F800000#32 = ((1 : ℝ) : EReal) := by
  simp [Ideal.ofBits, Ideal.ieee, -EReal.coe_mul]; norm_num
theorem ofBits_zero : Ideal.ofBits .f32 0x00000000#32 = ((0 : ℝ) : EReal) := by
  simp [Ideal.ofBits, Ideal.ieee]
theorem ofBits_ninf : Ideal.ofBits .f32 0xFF800000#32 = (⊥ : EReal) := by
  simp [Ideal.ofBits, Ideal.ieee]
theorem ofBits_bf16_one : Ideal.ofBits .bf16 0x3F80#16 = ((1 : ℝ) : EReal) := by
  simp [Ideal.ofBits, Ideal.ieee, -EReal.coe_mul]; norm_num
theorem ofBits_bf16_zero : Ideal.ofBits .bf16 0x0000#16 = ((0 : ℝ) : EReal) := by
  simp [Ideal.ofBits, Ideal.ieee]

/-- "greater than" on finite values, as the one-bit word the programs select on. -/
theorem cmpf_ogt_coe (x y : ℝ) :
    FloatOps.cmpf (F := Ideal) (φ := .f32) .ogt (x : EReal) (y : EReal) = if y < x then 1#1 else 0#1 := by
  show Ideal.cmp .ogt (x : EReal) (y : EReal) = _
  by_cases h : y < x
  · have h' : (y : EReal) < (x : EReal) := EReal.coe_lt_coe_iff.mpr h
    simp [Ideal.cmp, h, h']
  · have h' : ¬ (y : EReal) < (x : EReal) := fun c => h (EReal.coe_lt_coe_iff.mp c)
    simp [Ideal.cmp, h, h']
/-- "greater than or equal" on finite values, as a one-bit word. -/
theorem cmpf_oge_coe (x y : ℝ) :
    FloatOps.cmpf (F := Ideal) (φ := .f32) .oge (x : EReal) (y : EReal) = if y ≤ x then 1#1 else 0#1 := by
  show Ideal.cmp .oge (x : EReal) (y : EReal) = _
  by_cases h : y ≤ x
  · have h' : (y : EReal) ≤ (x : EReal) := EReal.coe_le_coe_iff.mpr h
    simp [Ideal.cmp, h, h']
  · have h' : ¬ (y : EReal) ≤ (x : EReal) := fun c => h (EReal.coe_le_coe_iff.mp c)
    simp [Ideal.cmp, h, h']

/-! Further forms of the same facts. -/

/-- exp x − 1 on a finite value. -/
theorem expm1_coe (x : ℝ) : Ideal.exp (x : EReal) - 1 = ((Real.exp x - 1 : ℝ) : EReal) := by
  rw [exp_coe, ← EReal.coe_one, ← EReal.coe_sub]
/-- The two comparisons, stated of the comparison function itself. -/
theorem cmp_ogt_coe (x y : ℝ) : Ideal.cmp .ogt (x : EReal) (y : EReal) = if y < x then 1#1 else 0#1 :=
  cmpf_ogt_coe x y
theorem cmp_oge_coe (x y : ℝ) : Ideal.cmp .oge (x : EReal) (y : EReal) = if y ≤ x then 1#1 else 0#1 :=
  cmpf_oge_coe x y
/-- Selecting on the one-bit word of a proposition is the choice by that proposition. -/
theorem select_ite {α : Type} (c : Prop) [Decidable c] (a b : α) :
    Scalar.select (if c then 1#1 else 0#1) a b = if c then a else b := by
  by_cases h : c
  · simp only [if_pos h]; exact if_pos rfl
  · simp only [if_neg h]; exact if_neg (by decide)
/-- The larger of two finite values is the larger of the real values. -/
theorem max_coe (x y : ℝ) : max (x : EReal) (y : EReal) = ((max x y : ℝ) : EReal) :=
  (EReal.coe_strictMono.monotone.map_max).symm
/-- The largest of finitely many finite values is the largest of the real values. -/
theorem sup'_coe {ι : Type*} (s : Finset ι) (h : s.Nonempty) (f : ι → ℝ) :
    (s.sup' h fun i => ((f i : ℝ) : EReal)) = ((s.sup' h f : ℝ) : EReal) :=
  (Finset.comp_sup'_eq_sup'_comp h (fun x : ℝ => (x : EReal)) (fun a b => (max_coe a b).symm)).symm
/-- −∞ is below every finite value, so the larger of the two is the finite one. -/
theorem max_bot_coe (x : ℝ) : max (⊥ : EReal) (x : EReal) = (x : EReal) := max_eq_right bot_le
theorem max_coe_bot (x : ℝ) : max (x : EReal) (⊥ : EReal) = (x : EReal) := max_eq_left bot_le

end Gat

end
-- ==== Proof.SpecLemmas.lean ====
/-
  The algebra that joins the streamed softmax to the whole one, in ℝ.

  The slope of the leaky rectifier lies strictly between 0 and 1, so the larger of x and slope·x is x for x ≥ 0 and
  slope·x for x < 0.  A sum of terms exp(e k − μ)·h k equals exp(−μ) times the sum of exp(e k)·h k; hence rescaling a
  partial sum from the shift μo to the shift μn multiplies it by exp(μo − μn), which gives the recurrence of the
  streamed accumulator, and in a quotient of two such sums the positive factor exp(−μ) cancels, which identifies both the
  final accumulator quotient and the whole softmax (at any shift) with the exp-weighted mean.
-/
import Mathlib.Analysis.SpecialFunctions.Exp
import Mathlib.Algebra.BigOperators.Intervals
import Mathlib.Algebra.BigOperators.Ring.Finset
import Mathlib.Algebra.BigOperators.Field
import Mathlib.Algebra.Order.BigOperators.Ring.Finset
import Mathlib.Tactic.Ring
import Mathlib.Tactic.NormNum
import proofs.«429846_j4741643895566_3_alg».proof.Proof.Spec

noncomputable section

namespace Gat

open Finset

theorem slope_pos : 0 < slope := by unfold slope; norm_num
theorem slope_lt_one : slope < 1 := by unfold slope; norm_num

/-- The rectifier as a selection on the sign is the larger of x and slope·x. -/
theorem lrelu_eq_ite (x : ℝ) : (if 0 ≤ x then x else slope * x) = lrelu x := by
  unfold lrelu
  split_ifs with h
  · -- for x ≥ 0, slope·x ≤ 1·x
    have hle : slope * x ≤ x := by
      have := mul_le_mul_of_nonneg_right slope_lt_one.le h
      rwa [one_mul] at this
    exact (max_eq_left hle).symm
  · -- for x < 0, 1·x ≤ slope·x
    have hx : x ≤ 0 := (not_le.mp h).le
    have hle : x ≤ slope * x := by
      have := mul_le_mul_of_nonpos_right slope_lt_one.le hx
      rwa [one_mul] at this
    exact (max_eq_right hle).symm

/-- The last column the kernel reads of the widened matrix is the column of ones. -/
theorem wide_ones (H : ℕ → ℕ → ℝ) (k : ℕ) : wide H k 128 = 1 := by
  unfold wide; norm_num

/-- The first 128 columns of the widened matrix are H's. -/
theorem wide_lt (H : ℕ → ℕ → ℝ) (k c : ℕ) (hc : c < 128) : wide H k c = H k c := by
  unfold wide; rw [if_pos hc]

/-- A sum at the shift μ is exp(−μ) times the unshifted sum. -/
theorem sum_shift (e h : ℕ → ℝ) (μ : ℝ) (s : Finset ℕ) :
    ∑ k ∈ s, Real.exp (e k - μ) * h k = (∑ k ∈ s, Real.exp (e k) * h k) * Real.exp (-μ) := by
  rw [Finset.sum_mul]
  refine Finset.sum_congr rfl fun k _ => ?_
  rw [sub_eq_add_neg, Real.exp_add]; ring

/-- The same with all weights one. -/
theorem sum_shift_one (e : ℕ → ℝ) (μ : ℝ) (s : Finset ℕ) :
    ∑ k ∈ s, Real.exp (e k - μ) = (∑ k ∈ s, Real.exp (e k)) * Real.exp (-μ) := by
  have := sum_shift e (fun _ => 1) μ s
  simpa only [mul_one] using this

/-- In the quotient of two sums at the same shift the factor exp(−μ) cancels. -/
theorem shifted_quot (e h : ℕ → ℝ) (μ : ℝ) (s : Finset ℕ) :
    (∑ k ∈ s, Real.exp (e k - μ) * h k) / (∑ k ∈ s, Real.exp (e k - μ))
      = (∑ k ∈ s, Real.exp (e k) * h k) / (∑ k ∈ s, Real.exp (e k)) := by
  rw [sum_shift e h μ s, sum_shift_one e μ s, mul_div_mul_right _ _ (Real.exp_pos (-μ)).ne']

/-- One step of the streamed sum: rescaling the first n terms from the shift μo to the shift μn and adding the next
    1024 terms at μn gives the first n + 1024 terms at μn. -/
theorem shift_step (e h : ℕ → ℝ) (μo μn : ℝ) (n : ℕ) :
    Real.exp (μo - μn) * (∑ k ∈ range n, Real.exp (e k - μo) * h k)
        + ∑ q ∈ range 1024, Real.exp (e (n + q) - μn) * h (n + q)
      = ∑ k ∈ range (n + 1024), Real.exp (e k - μn) * h k := by
  rw [Finset.sum_range_add, Finset.mul_sum]
  congr 1
  refine Finset.sum_congr rfl fun k _ => ?_
  -- exp(μo − μn)·exp(e k − μo) = exp(e k − μn)
  rw [← mul_assoc, ← Real.exp_add]
  congr 2
  ring

/-- The accumulator after the first tile. -/
theorem runAcc_zero (E Hw : ℕ → ℕ → ℝ) (r c : ℕ) :
    runAcc E Hw r c 0 = ∑ q ∈ range 1024, Real.exp (E r (0 * 1024 + q) - tileMax E r 0) * Hw (0 * 1024 + q) c := by
  unfold runAcc
  simp only [runMax, zero_add, one_mul, zero_mul]

/-- The accumulator after tile j + 1 from the one after tile j. -/
theorem runAcc_succ (E Hw : ℕ → ℕ → ℝ) (r c j : ℕ) :
    runAcc E Hw r c (j + 1)
      = Real.exp (runMax E r j - runMax E r (j + 1)) * runAcc E Hw r c j
        + ∑ q ∈ range 1024, Real.exp (E r ((j + 1) * 1024 + q) - runMax E r (j + 1)) * Hw ((j + 1) * 1024 + q) c := by
  unfold runAcc
  have hn : (j + 1 + 1) * 1024 = (j + 1) * 1024 + 1024 := by ring
  rw [hn]
  exact (shift_step (fun k => E r k) (fun k => Hw k c) (runMax E r j) (runMax E r (j + 1)) ((j + 1) * 1024)).symm

/-- The denominator the kernel divides by is positive. -/
theorem runAcc_den_pos (E H : ℕ → ℕ → ℝ) (r : ℕ) : 0 < runAcc E (wide H) r 128 7 := by
  unfold runAcc
  refine Finset.sum_pos (fun k _ => ?_) (Finset.nonempty_range_iff.mpr (by norm_num))
  rw [wide_ones, mul_one]
  exact Real.exp_pos _

/-- After the last tile, a column of the accumulator over the ones column is the attention output. -/
theorem attn_of_runAcc (E H : ℕ → ℕ → ℝ) (r c : ℕ) (hc : c < 128) :
    runAcc E (wide H) r c 7 / runAcc E (wide H) r 128 7 = attn E H r c := by
  unfold runAcc attn
  have h8 : (7 + 1) * 1024 = 8192 := by norm_num
  have hw : ∀ k, wide H k c = H k c := fun k => wide_lt H k c hc
  simp only [h8, hw, wide_ones, mul_one]
  exact shifted_quot (fun k => E r k) (fun k => H k c) (runMax E r 7) (range 8192)

/-- The whole softmax at any shift μ, applied to H, is the attention output. -/
theorem attn_of_softmax (E H : ℕ → ℕ → ℝ) (r c : ℕ) (μ : ℝ) :
    ∑ k ∈ range 8192, (Real.exp (E r k - μ) / ∑ k' ∈ range 8192, Real.exp (E r k' - μ)) * H k c = attn E H r c := by
  unfold attn
  simp only [div_mul_eq_mul_div]
  rw [← Finset.sum_div]
  exact shifted_quot (fun k => E r k) (fun k => H k c) μ (range 8192)

/-- The reference's ELU (exp(x) − 1 of the argument guarded to be nonpositive, times one) is the kernel's. -/
theorem elu_ref (y : ℝ) : (if 0 < y then y else 1 * (Real.exp (if 0 < y then 0 else y) - 1)) = elu y := by
  unfold elu
  by_cases h : 0 < y
  · rw [if_pos h, if_pos h]
  · rw [if_neg h, if_neg h, if_neg h, one_mul]

end Gat

end
-- ==== Proof.KernelIdeal.Payload.lean ====
/-
  The arithmetic of the streamed graph-attention body on ONE tile of 1024 columns, read as real functions.

  The tile's data are block-local real functions: the rows' self scores sb r and the columns' neighbour scores nb q,
  the adjacency and mask tiles ab r q and mb r q, the widened feature tile hb q c, the old running maximum μo r and the
  old accumulator ao r c.  The masked score of the pair (r, q) inside the tile is
      bscore r q = leakyrelu((sb r + nb q)·mb r q) where ab r q is positive, the large negative constant elsewhere,
  and bmax r is the largest of the 1024 scores of row r.  Then, index by index,
    • the new running maximum is max (μo r) (bmax r), and bmax r itself when the old maximum is −∞;
    • the new accumulator is exp(μo r − μn r)·ao r c + Σ_q exp(bscore r q − μn r)·hb q c with μn the new maximum, and
      Σ_q exp(bscore r q − bmax r)·hb q c when the old maximum is −∞ and the old accumulator zero (exp(−∞) = 0);
    • the final quotient through the ELU is elu(acc r c / acc r 128) wherever the denominator column is not zero.
  Everything stays finite, so each extended-real operation is the coercion of the real one.
-/
import proofs.«429846_j4741643895566_3_alg».proof.Proof.Gen.KernelIdeal.Skeleton
import proofs.«429846_j4741643895566_3_alg».proof.Proof.Coe
import proofs.«429846_j4741643895566_3_alg».proof.Proof.SpecLemmas
import Idealize.ShloMosaic.Lib.ValueIdx
import Idealize.ShloMosaic.Lib.ValueLayout
import Idealize.ShloMosaic.Lib.Pipeline.Value
import Idealize.ShloMosaic.PureOps.Ideal.Laws
import Mathlib.Data.EReal.Basic
import Mathlib.Data.EReal.Operations

noncomputable section

namespace Cert.KernelIdeal.Val

open Idealize.ShloMosaic Idealize.ShloMosaic.ValueIdx
open Cert.KernelIdeal Cert.KernelIdeal.Gen

/-! ## Layout: a column kept as a one-wide matrix -/

/-- A column [a, 1] spread over b columns reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [a] viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The largest of finitely many finite values -/

/-- Folding the larger-of-two from −∞ over n coerced reals, n positive, is the coercion of their largest. -/
theorem fold_max_coe (n : ℕ) (hn : (Finset.range n).Nonempty) (g : ℕ → ℝ) :
    (Finset.univ : Finset (Fin n)).fold max (⊥ : EReal) (fun k => ((g k.val : ℝ) : EReal))
      = (((Finset.range n).sup' hn g : ℝ) : EReal) := by
  have h1 : (Finset.univ : Finset (Fin n)).fold max (⊥ : EReal) (fun k => ((g k.val : ℝ) : EReal))
      = (Finset.univ : Finset (Fin n)).sup (fun k => ((g k.val : ℝ) : EReal)) := rfl
  have h2 : (Finset.univ : Finset (Fin n)).sup (fun k => ((g k.val : ℝ) : EReal))
      = (Finset.range n).sup (fun i => ((g i : ℝ) : EReal)) :=
    le_antisymm
      (Finset.sup_le fun k _ => Finset.le_sup (f := fun i => ((g i : ℝ) : EReal)) (Finset.mem_range.mpr k.isLt))
      (Finset.sup_le fun i hi =>
        Finset.le_sup (f := fun k : Fin n => ((g k.val : ℝ) : EReal)) (Finset.mem_univ ⟨i, Finset.mem_range.mp hi⟩))
  rw [h1, h2, ← Gat.sup'_coe (Finset.range n) hn g, Finset.sup'_eq_sup]

/-! ## The tile's scores -/

/-- The masked score of the pair (r, q) inside the tile. -/
def bscore (sb nb : ℕ → ℝ) (ab mb : ℕ → ℕ → ℝ) (r q : ℕ) : ℝ :=
  if 0 < ab r q then Gat.lrelu ((sb r + nb q) * mb r q) else Gat.negBig

/-- The largest of the tile's 1024 scores of row r. -/
def bmax (sb nb : ℕ → ℝ) (ab mb : ℕ → ℕ → ℝ) (r : ℕ) : ℝ :=
  (Finset.range 1024).sup' ⟨0, by simp⟩ fun q => bscore sb nb ab mb r q

/-- One element of the score tile from the elements it reads: the self score of its row plus the neighbour score of
    its column, times the mask, through the leaky rectifier, kept where the adjacency is positive. -/
theorem pay6_apply (v3 : FVec Ideal S1024x1 .f32) (v5 : FVec Ideal S1x1024 .f32) (v10 v15 : FVec Ideal S1024x1024 .f32)
    (p q : Fin 1024) :
    k0_pay6 (F := Ideal) v3 v5 v10 v15 (ix2 p q)
      = Scalar.select (FloatOps.cmpf (F := Ideal) (φ := .f32) .ogt (v15 (ix2 p q)) (Ideal.ofBits .f32 0x00000000#32))
          (max ((v3 (ix2 p (0 : Fin 1)) + v5 (ix2 (0 : Fin 1) q)) * v10 (ix2 p q))
            (Ideal.ofBits .f32 0x3E4CCCCD#32 * ((v3 (ix2 p (0 : Fin 1)) + v5 (ix2 (0 : Fin 1) q)) * v10 (ix2 p q))))
          (Ideal.ofBits .f32 0xD9FFCB9E#32) := by
  unfold k0_pay6
  simp only [select_apply, cmpf_apply, maximumf_apply, mulf_apply, addf_apply, broadcast_apply, shapeCast_self,
    broadcastTo_a1_ab_apply, broadcastTo_1b_ab_apply]
  rfl

/-- The largest of a row: the row maximum of a 1024 × 1024 tile at row p is the fold of the larger-of-two, from −∞,
    over the row's 1024 elements. -/
theorem rowMax_apply (src : FVec Ideal S1024x1024 .f32) (p : Fin 1024) :
    multiReduction .maximumf [1] S1024 src 0xFF800000#32 reduces_S1024x1024_S1024 (.inl rfl) rfl (ix1 p)
      = (Finset.univ : Finset (Fin 1024)).fold max (Ideal.ofBits .f32 0xFF800000#32) (fun k => src (ix2 p k)) := by
  refine (Ideal.multiReduction_maximumf_single src _ _ _ _ (ix1 p)).trans ?_
  have hl : ∀ k : Fin 1024, reduces_S1024x1024_S1024.lift (ix1 p) k = ix2 p k := fun k => funext fun a => by
    match a with
    | ⟨0, _⟩ => rfl
    | ⟨1, _⟩ => rfl
  exact Finset.fold_congr (fun k _ => congrArg src (hl k))

section Tile

variable (sb nb : ℕ → ℝ) (ab mb hb : ℕ → ℕ → ℝ) (μo : ℕ → ℝ) (ao : ℕ → ℕ → ℝ)

/-- The score tile of real data is the real score, element by element. -/
theorem pay6_up2 :
    k0_pay6 (F := Ideal) (Gat.up2 fun r _ => sb r) (Gat.up2 fun _ q => nb q) (Gat.up2 mb) (Gat.up2 ab)
      = Gat.up2 (bscore sb nb ab mb) := by
  funext j
  obtain ⟨p, q, rfl⟩ : ∃ (p : Fin 1024) (q : Fin 1024), j = ix2 p q := ⟨j 0, j 1, eq_ix2 j⟩
  rw [pay6_apply]
  simp only [Gat.up2_ix2]
  rw [Gat.ofBits_zero, Gat.ofBits_slope, Gat.ofBits_negBig, Gat.cmpf_ogt_coe, Gat.select_ite,
    ← EReal.coe_add, ← EReal.coe_mul, ← EReal.coe_mul, Gat.max_coe]
  unfold bscore Gat.lrelu
  split_ifs <;> rfl

/-- The new running maximum as one expression: the larger of the old maximum and the tile's row maximum kept as a column. -/
theorem pay7_def (v3 : FVec Ideal S1024x1 .f32) (v5 : FVec Ideal S1x1024 .f32) (v10 v15 : FVec Ideal S1024x1024 .f32)
    (v20 : FVec Ideal S1024x1 .f32) :
    k0_pay7 (F := Ideal) v3 v5 v10 v15 v20
      = maximumf v20 (shapeCast S1024x1 (multiReduction .maximumf [1] S1024 (k0_pay6 (F := Ideal) v3 v5 v10 v15)
          0xFF800000#32 reduces_S1024x1024_S1024 (.inl rfl) rfl) shapeCasts_S1024_S1024x1) := rfl

/-- One element of the new running maximum: the larger of the old one and the fold of the larger-of-two, from −∞,
    over the row's 1024 scores. -/
theorem pay7_apply (v3 : FVec Ideal S1024x1 .f32) (v5 : FVec Ideal S1x1024 .f32) (v10 v15 : FVec Ideal S1024x1024 .f32)
    (v20 : FVec Ideal S1024x1 .f32) (p : Fin 1024) (u : Fin 1) :
    k0_pay7 (F := Ideal) v3 v5 v10 v15 v20 (ix2 p u)
      = max (v20 (ix2 p u)) ((Finset.univ : Finset (Fin 1024)).fold max (Ideal.ofBits .f32 0xFF800000#32)
          (fun k => k0_pay6 (F := Ideal) v3 v5 v10 v15 (ix2 p k))) := by
  rw [pay7_def, maximumf_apply]
  refine congrArg (max (v20 (ix2 p u))) ?_
  refine (shapeCast_a_a1_apply _ _ p u).trans ?_
  exact rowMax_apply _ p

/-- The reset value of the running maximum is −∞ everywhere. -/
theorem pay4_apply (i : S1024x1.Idx) : k0_pay4 (F := Ideal) i = (⊥ : EReal) := by
  unfold k0_pay4
  rw [shapeCast_self, broadcast_apply]
  exact Gat.ofBits_ninf

/-- The row maximum of the tile's real scores, as the fold the body computes. -/
theorem fold_bscore (p : Fin 1024) :
    (Finset.univ : Finset (Fin 1024)).fold max (Ideal.ofBits .f32 0xFF800000#32)
        (fun k => Gat.up2 (n0 := 1024) (n1 := 1024) (bscore sb nb ab mb) (ix2 p k))
      = ((bmax sb nb ab mb p.val : ℝ) : EReal) := by
  rw [Gat.ofBits_ninf]
  exact fold_max_coe 1024 ⟨0, by simp⟩ (bscore sb nb ab mb p.val)

/-- Carrying an old finite running maximum μo: the new one is max (μo r) (bmax r). -/
theorem pay7_carry :
    k0_pay7 (F := Ideal) (Gat.up2 fun r _ => sb r) (Gat.up2 fun _ q => nb q) (Gat.up2 mb) (Gat.up2 ab)
        (Gat.up2 fun r _ => μo r)
      = Gat.up2 fun r _ => max (μo r) (bmax sb nb ab mb r) := by
  funext j
  obtain ⟨p, u, rfl⟩ : ∃ (p : Fin 1024) (u : Fin 1), j = ix2 p u := ⟨j 0, j 1, eq_ix2 j⟩
  rw [pay7_apply, pay6_up2, fold_bscore, Gat.up2_ix2, Gat.up2_ix2, Gat.max_coe]

/-- Starting from −∞: the new running maximum is bmax r. -/
theorem pay7_reset :
    k0_pay7 (F := Ideal) (Gat.up2 fun r _ => sb r) (Gat.up2 fun _ q => nb q) (Gat.up2 mb) (Gat.up2 ab)
        (k0_pay4 (F := Ideal))
      = Gat.up2 fun r _ => bmax sb nb ab mb r := by
  funext j
  obtain ⟨p, u, rfl⟩ : ∃ (p : Fin 1024) (u : Fin 1), j = ix2 p u := ⟨j 0, j 1, eq_ix2 j⟩
  rw [pay7_apply, pay6_up2, fold_bscore, pay4_apply, Gat.up2_ix2, Gat.max_bot_coe]

end Tile

/-- The stored running maximum is the computed one: a shape cast to the same shape changes nothing. -/
theorem pay2_id (v : FVec Ideal S1024x1 .f32) : k0_pay2 (F := Ideal) v = v := by
  unfold k0_pay2
  exact shapeCast_self _ _

end Cert.KernelIdeal.Val

end
-- ==== Proof.KernelIdeal.PayloadAcc.lean ====
/-
  The accumulator update and the final quotient of the streamed graph-attention body on ONE tile of 1024 columns, read as
  real functions.

  With the tile's masked scores bscore r q, their row maximum bmax r, the widened feature tile hb q c, the old running
  maximum μo r and the old accumulator ao r c, and μn r = max (μo r) (bmax r) the new maximum:
    • the weights of the tile are p r q = exp(bscore r q − μn r), the rescaling factor is exp(μo r − μn r), and the new
      accumulator is the old one rescaled plus the tile's product,
          exp(μo r − μn r)·ao r c + Σ_q exp(bscore r q − μn r)·hb q c;
    • on the first tile the old maximum is −∞ and the old accumulator is zero: −∞ − μn = −∞, exp(−∞) = 0, 0·0 = 0 and
      0 + s = s, so the new accumulator is Σ_q exp(bscore r q − bmax r)·hb q c;
    • after the last tile the first 128 columns are divided by column 128 and passed through the ELU,
          elu(acc r c / acc r 128), wherever the denominator column is not zero.
  A matrix product read at (r, c) is the sum over the contracted index q of left (r, q) times right (q, c).  Every value
  is finite (or an explicit −∞ whose exponential is 0), so each extended-real operation is the coercion of the real one.
-/
import proofs.«429846_j4741643895566_3_alg».proof.Proof.KernelIdeal.Payload
import proofs.«429846_j4741643895566_3_alg».proof.Proof.Coe
import proofs.«429846_j4741643895566_3_alg».proof.Proof.SpecLemmas
import Idealize.ShloMosaic.Lib.ValueIdx
import Idealize.ShloMosaic.Lib.ValueLayout
import Idealize.ShloMosaic.Lib.Pipeline.Value
import Idealize.ShloMosaic.PureOps.Ideal.Laws
import Mathlib.Order.Fin.Basic
import Mathlib.Algebra.BigOperators.Fin
import Mathlib.Data.EReal.Basic
import Mathlib.Data.EReal.Operations

noncomputable section

namespace Cert.KernelIdeal.Val

open Idealize.ShloMosaic Idealize.ShloMosaic.ValueIdx
open Cert.KernelIdeal Cert.KernelIdeal.Gen

/-! ## The matrix product at an index -/

/-- The left operand's row is the output's row … -/
theorem lhs_acc_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
/-- … its column is the contracted index … -/
theorem lhs_acc_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
/-- … the right operand's row is the contracted index … -/
theorem rhs_acc_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
/-- … and its column is the output's column. -/
theorem rhs_acc_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- The product of a 1024 × 1024 matrix and a 1024 × 256 matrix into a zero accumulator, read at (p, c): the sum over
    the contracted index k of left (p, k) times right (k, c). -/
theorem matmul_acc_apply (l : FVec Ideal S1024x1024 .bf16) (r : FVec Ideal S1024x256 .bf16) (p : Fin 1024) (c : Fin 256) :
    FloatOps.matmul dot_S1024x1024_S1024x256_S1024x256_1_0_0_1_n_n none l r
        (constant (F := Ideal) S1024x256 .f32 0x00000000#32) (ix2 p c)
      = ∑ k : Fin 1024, l (ix2 p k) * r (ix2 k c) := by
  rw [Ideal.matmul_constant_zero_apply,
    ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 p c)
      ((contrEquiv1 dot_S1024x1024_S1024x256_S1024x256_1_0_0_1_n_n 1024 rfl rfl).symm k) = ix2 p k :=
    funext fun a => Fin.ext (by
      match a with
      | ⟨0, _⟩ => exact lhs_acc_0 _ _
      | ⟨1, _⟩ => exact (lhs_acc_1 _ _).trans hk)
  have er : dot_S1024x1024_S1024x256_S1024x256_1_0_0_1_n_n.rhsIdx (ix2 p c)
      ((contrEquiv1 dot_S1024x1024_S1024x256_S1024x256_1_0_0_1_n_n 1024 rfl rfl).symm k) = ix2 k c :=
    funext fun a => Fin.ext (by
      match a with
      | ⟨0, _⟩ => exact (rhs_acc_0 _ _).trans hk
      | ⟨1, _⟩ => exact rhs_acc_1 _ _)
  rw [el, er]

/-- The exponential of an array is taken element by element. -/
theorem vexp_apply {s : Shape} {φ : FTy} (a : FVec Ideal s φ) (i : s.Idx) : exp a i = Ideal.exp (a i) := rfl

/-! ## The three payloads of the accumulator update at an index -/

/-- The new accumulator as one expression: the rescaled old accumulator plus the tile's product. -/
theorem pay1_def (v30 : FVec Ideal S1024x1024 .bf16) (v33 : FVec Ideal S1024x256 .f32) (v34 : FVec Ideal S1024x256 .bf16) :
    k0_pay1 (F := Ideal) v30 v33 v34
      = shapeCast S1024x256 (addf v33 (matmul dot_S1024x1024_S1024x256_S1024x256_1_0_0_1_n_n none v30
          (shapeCast S1024x256 v34 shapeCasts_S1024x256_S1024x256) (constant (F := Ideal) S1024x256 .f32 0x00000000#32)))
          shapeCasts_S1024x256_S1024x256 := rfl

/-- One element of the new accumulator: the rescaled old one there plus the sum, over the tile's 1024 columns, of the
    weight times the feature. -/
theorem pay1_apply (v30 : FVec Ideal S1024x1024 .bf16) (v33 : FVec Ideal S1024x256 .f32) (v34 : FVec Ideal S1024x256 .bf16)
    (p : Fin 1024) (c : Fin 256) :
    k0_pay1 (F := Ideal) v30 v33 v34 (ix2 p c) = v33 (ix2 p c) + ∑ k : Fin 1024, v30 (ix2 p k) * v34 (ix2 k c) := by
  rw [pay1_def, shapeCast_self, shapeCast_self, addf_apply]
  exact congrArg (v33 (ix2 p c) + ·) (matmul_acc_apply v30 v34 p c)

/-- The weights as one expression: the exponential of the scores less the new maximum of their row. -/
theorem pay8_def (v3 : FVec Ideal S1024x1 .f32) (v5 : FVec Ideal S1x1024 .f32) (v10 v15 : FVec Ideal S1024x1024 .f32)
    (v20 : FVec Ideal S1024x1 .f32) :
    k0_pay8 (F := Ideal) v3 v5 v10 v15 v20
      = truncf .bf16 (exp (subf (k0_pay6 (F := Ideal) v3 v5 v10 v15)
          (broadcastTo S1024x1024 (k0_pay7 (F := Ideal) v3 v5 v10 v15 v20) broadcasts_S1024x1_S1024x1024)))
          bitsLt_bf16_f32 := rfl

/-- One weight: exp(score − new maximum of the row). -/
theorem pay8_apply (v3 : FVec Ideal S1024x1 .f32) (v5 : FVec Ideal S1x1024 .f32) (v10 v15 : FVec Ideal S1024x1024 .f32)
    (v20 : FVec Ideal S1024x1 .f32) (p k : Fin 1024) :
    k0_pay8 (F := Ideal) v3 v5 v10 v15 v20 (ix2 p k)
      = Ideal.exp (k0_pay6 (F := Ideal) v3 v5 v10 v15 (ix2 p k)
          - k0_pay7 (F := Ideal) v3 v5 v10 v15 v20 (ix2 p (0 : Fin 1))) := by
  rw [pay8_def, truncf_apply, vexp_apply, subf_apply, broadcastTo_a1_ab_apply]

/-- The rescaled old accumulator as one expression. -/
theorem pay9_def (v3 : FVec Ideal S1024x1 .f32) (v5 : FVec Ideal S1x1024 .f32) (v10 v15 : FVec Ideal S1024x1024 .f32)
    (v20 v24 : FVec Ideal S1024x1 .f32) (v31 : FVec Ideal S1024x256 .f32) :
    k0_pay9 (F := Ideal) v3 v5 v10 v15 v20 v24 v31
      = mulf (broadcastTo S1024x256 (exp (subf v24 (k0_pay7 (F := Ideal) v3 v5 v10 v15 v20)))
          broadcasts_S1024x1_S1024x256) v31 := rfl

/-- One element of the rescaled old accumulator: exp(old maximum − new maximum) of the row times the old element. -/
theorem pay9_apply (v3 : FVec Ideal S1024x1 .f32) (v5 : FVec Ideal S1x1024 .f32) (v10 v15 : FVec Ideal S1024x1024 .f32)
    (v20 v24 : FVec Ideal S1024x1 .f32) (v31 : FVec Ideal S1024x256 .f32) (p : Fin 1024) (c : Fin 256) :
    k0_pay9 (F := Ideal) v3 v5 v10 v15 v20 v24 v31 (ix2 p c)
      = Ideal.exp (v24 (ix2 p (0 : Fin 1)) - k0_pay7 (F := Ideal) v3 v5 v10 v15 v20 (ix2 p (0 : Fin 1)))
          * v31 (ix2 p c) := by
  rw [pay9_def, mulf_apply, broadcastTo_a1_ab_apply, vexp_apply, subf_apply]

/-- The reset value of the accumulator is zero everywhere. -/
theorem pay5_apply (i : S1024x256.Idx) : k0_pay5 (F := Ideal) i = ((0 : ℝ) : EReal) := by
  unfold k0_pay5
  rw [shapeCast_self, broadcast_apply]
  exact Gat.ofBits_zero

/-! ## The accumulator update on real data -/

/-- The update applied to real weights w, a real summand a and real features hb: element (r, c) is
    a r c + Σ_q w r q · hb q c, the sum over the tile's 1024 columns. -/
theorem pay1_up2 (w a hb : ℕ → ℕ → ℝ) :
    k0_pay1 (F := Ideal) (Gat.up2 w) (Gat.up2 a) (Gat.up2 hb)
      = Gat.up2 fun r c => a r c + ∑ q ∈ Finset.range 1024, w r q * hb q c := by
  funext j
  obtain ⟨p, c, rfl⟩ : ∃ (p : Fin 1024) (c : Fin 256), j = ix2 p c := ⟨j 0, j 1, eq_ix2 j⟩
  rw [pay1_apply]
  simp only [Gat.up2_ix2]
  have hs : (∑ k : Fin 1024, ((w p.val k.val : ℝ) : EReal) * ((hb k.val c.val : ℝ) : EReal))
      = ((∑ q ∈ Finset.range 1024, w p.val q * hb q c.val : ℝ) : EReal) := by
    rw [← Fin.sum_univ_eq_sum_range (fun q => w p.val q * hb q c.val) 1024, ← Gat.sum_coe]
    exact Finset.sum_congr rfl fun k _ => (EReal.coe_mul _ _).symm
  rw [hs, ← EReal.coe_add]

section Acc

variable (sb nb : ℕ → ℝ) (ab mb hb : ℕ → ℕ → ℝ) (μo : ℕ → ℝ) (ao : ℕ → ℕ → ℝ)

/-- The weights when an old finite maximum μo is carried: exp(bscore r q − max (μo r) (bmax r)). -/
theorem pay8_carry :
    k0_pay8 (F := Ideal) (Gat.up2 fun r _ => sb r) (Gat.up2 fun _ q => nb q) (Gat.up2 mb) (Gat.up2 ab)
        (Gat.up2 fun r _ => μo r)
      = Gat.up2 fun r q => Real.exp (bscore sb nb ab mb r q - max (μo r) (bmax sb nb ab mb r)) := by
  funext j
  obtain ⟨p, k, rfl⟩ : ∃ (p : Fin 1024) (k : Fin 1024), j = ix2 p k := ⟨j 0, j 1, eq_ix2 j⟩
  rw [pay8_apply, pay6_up2, pay7_carry, Gat.up2_ix2, Gat.up2_ix2, Gat.up2_ix2, ← EReal.coe_sub, Gat.exp_coe]

/-- The weights on the first tile, the old maximum being −∞: exp(bscore r q − bmax r). -/
theorem pay8_reset :
    k0_pay8 (F := Ideal) (Gat.up2 fun r _ => sb r) (Gat.up2 fun _ q => nb q) (Gat.up2 mb) (Gat.up2 ab)
        (k0_pay4 (F := Ideal))
      = Gat.up2 fun r q => Real.exp (bscore sb nb ab mb r q - bmax sb nb ab mb r) := by
  funext j
  obtain ⟨p, k, rfl⟩ : ∃ (p : Fin 1024) (k : Fin 1024), j = ix2 p k := ⟨j 0, j 1, eq_ix2 j⟩
  rw [pay8_apply, pay6_up2, pay7_reset, Gat.up2_ix2, Gat.up2_ix2, Gat.up2_ix2, ← EReal.coe_sub, Gat.exp_coe]

/-- The rescaled old accumulator when μo is carried: exp(μo r − max (μo r) (bmax r)) · ao r c. -/
theorem pay9_carry :
    k0_pay9 (F := Ideal) (Gat.up2 fun r _ => sb r) (Gat.up2 fun _ q => nb q) (Gat.up2 mb) (Gat.up2 ab)
        (Gat.up2 fun r _ => μo r) (Gat.up2 fun r _ => μo r) (Gat.up2 ao)
      = Gat.up2 fun r c => Real.exp (μo r - max (μo r) (bmax sb nb ab mb r)) * ao r c := by
  funext j
  obtain ⟨p, c, rfl⟩ : ∃ (p : Fin 1024) (c : Fin 256), j = ix2 p c := ⟨j 0, j 1, eq_ix2 j⟩
  rw [pay9_apply, pay7_carry, Gat.up2_ix2, Gat.up2_ix2, Gat.up2_ix2, Gat.up2_ix2, ← EReal.coe_sub, Gat.exp_coe,
    ← EReal.coe_mul]

/-- On the first tile the rescaled old accumulator is zero: −∞ − μ = −∞, exp(−∞) = 0 and 0 · 0 = 0. -/
theorem pay9_reset :
    k0_pay9 (F := Ideal) (Gat.up2 fun r _ => sb r) (Gat.up2 fun _ q => nb q) (Gat.up2 mb) (Gat.up2 ab)
        (k0_pay4 (F := Ideal)) (k0_pay4 (F := Ideal)) (k0_pay5 (F := Ideal))
      = Gat.up2 fun _ _ => (0 : ℝ) := by
  funext j
  obtain ⟨p, c, rfl⟩ : ∃ (p : Fin 1024) (c : Fin 256), j = ix2 p c := ⟨j 0, j 1, eq_ix2 j⟩
  rw [pay9_apply, pay7_reset, pay4_apply, pay5_apply, Gat.up2_ix2, Gat.up2_ix2, EReal.bot_sub, Gat.exp_bot,
    ← EReal.coe_mul, zero_mul]

/-- The new accumulator when an old finite maximum μo and an old accumulator ao are carried. -/
theorem acc_carry :
    k0_pay1 (F := Ideal)
        (k0_pay8 (F := Ideal) (Gat.up2 fun r _ => sb r) (Gat.up2 fun _ q => nb q) (Gat.up2 mb) (Gat.up2 ab)
          (Gat.up2 fun r _ => μo r))
        (k0_pay9 (F := Ideal) (Gat.up2 fun r _ => sb r) (Gat.up2 fun _ q => nb q) (Gat.up2 mb) (Gat.up2 ab)
          (Gat.up2 fun r _ => μo r) (Gat.up2 fun r _ => μo r) (Gat.up2 ao))
        (Gat.up2 hb)
      = Gat.up2 fun r c => Real.exp (μo r - max (μo r) (bmax sb nb ab mb r)) * ao r c
          + ∑ q ∈ Finset.range 1024, Real.exp (bscore sb nb ab mb r q - max (μo r) (bmax sb nb ab mb r)) * hb q c := by
  rw [pay8_carry, pay9_carry, pay1_up2]

/-- The new accumulator on the first tile: the old maximum is −∞ and the old accumulator zero, so only the tile's
    product is left (0 + s = s). -/
theorem acc_reset :
    k0_pay1 (F := Ideal)
        (k0_pay8 (F := Ideal) (Gat.up2 fun r _ => sb r) (Gat.up2 fun _ q => nb q) (Gat.up2 mb) (Gat.up2 ab)
          (k0_pay4 (F := Ideal)))
        (k0_pay9 (F := Ideal) (Gat.up2 fun r _ => sb r) (Gat.up2 fun _ q => nb q) (Gat.up2 mb) (Gat.up2 ab)
          (k0_pay4 (F := Ideal)) (k0_pay4 (F := Ideal)) (k0_pay5 (F := Ideal)))
        (Gat.up2 hb)
      = Gat.up2 fun r c => ∑ q ∈ Finset.range 1024, Real.exp (bscore sb nb ab mb r q - bmax sb nb ab mb r) * hb q c := by
  rw [pay8_reset, pay9_reset, pay1_up2]
  simp only [zero_add]

end Acc

/-! ## The final quotient -/

/-- Column 128 of the accumulator, cut out as a column. -/
theorem slice_den_apply (v : FVec Ideal S1024x256 .f32) (p : Fin 1024) (u : Fin 1) :
    extractStridedSlice S1024x1 ![0, 128] v slices_S1024x256_o0_128_S1024x1 (ix2 p u)
      = v (ix2 p (⟨128, by norm_num⟩ : Fin 256)) := by
  refine extractStridedSlice_apply _ v _ (ix2 p u) (ix2 p (⟨128, by norm_num⟩ : Fin 256)) fun a => ?_
  match a with
  | ⟨0, _⟩ =>
    show p.val = 0 + p.val
    omega
  | ⟨1, _⟩ =>
    show 128 = 128 + u.val
    omega

/-- Columns 0 … 127 of the accumulator. -/
theorem slice_num_apply (v : FVec Ideal S1024x256 .f32) (p : Fin 1024) (c : Fin 128) :
    extractStridedSlice S1024x128 ![0, 0] v slices_S1024x256_o0_0_S1024x128 (ix2 p c)
      = v (ix2 p (⟨c.val, by have := c.isLt; omega⟩ : Fin 256)) := by
  refine extractStridedSlice_apply _ v _ (ix2 p c) (ix2 p (⟨c.val, by have := c.isLt; omega⟩ : Fin 256)) fun a => ?_
  match a with
  | ⟨0, _⟩ =>
    show p.val = 0 + p.val
    omega
  | ⟨1, _⟩ =>
    show c.val = 0 + c.val
    omega

/-- One element of the result: the quotient y of the accumulator's element by its row's column 128, kept where
    y > 0 and replaced by exp y − 1 elsewhere. -/
theorem pay3_apply (v : FVec Ideal S1024x256 .f32) (p : Fin 1024) (c : Fin 128) :
    k0_pay3 (F := Ideal) v (ix2 p c)
      = Scalar.select
          (FloatOps.cmpf (F := Ideal) (φ := .f32) .ogt
            (Ideal.div (v (ix2 p (⟨c.val, by have := c.isLt; omega⟩ : Fin 256))) (v (ix2 p (⟨128, by norm_num⟩ : Fin 256))))
            (Ideal.ofBits .f32 0x00000000#32))
          (Ideal.div (v (ix2 p (⟨c.val, by have := c.isLt; omega⟩ : Fin 256))) (v (ix2 p (⟨128, by norm_num⟩ : Fin 256))))
          (Ideal.exp (Ideal.div (v (ix2 p (⟨c.val, by have := c.isLt; omega⟩ : Fin 256)))
              (v (ix2 p (⟨128, by norm_num⟩ : Fin 256))))
            - Ideal.ofBits .f32 0x3F800000#32) := by
  unfold k0_pay3
  simp only [select_apply, cmpf_apply, divf_apply, subf_apply, vexp_apply, broadcast_apply, broadcastTo_a1_ab_apply,
    slice_den_apply, slice_num_apply]
  rfl

/-- The final quotient of a real accumulator whose column 128 is nowhere zero: elu(acc r c / acc r 128). -/
theorem pay3_up2 (acc : ℕ → ℕ → ℝ) (hden : ∀ r, acc r 128 ≠ 0) :
    k0_pay3 (F := Ideal) (Gat.up2 acc) = Gat.up2 fun r c => Gat.elu (acc r c / acc r 128) := by
  funext j
  obtain ⟨p, c, rfl⟩ : ∃ (p : Fin 1024) (c : Fin 128), j = ix2 p c := ⟨j 0, j 1, eq_ix2 j⟩
  rw [pay3_apply]
  simp only [Gat.up2_ix2]
  rw [Gat.div_coe _ _ (hden p.val), Gat.ofBits_zero, Gat.ofBits_one, Gat.cmpf_ogt_coe, Gat.select_ite, EReal.coe_one,
    Gat.expm1_coe]
  unfold Gat.elu
  split_ifs <;> rfl

end Cert.KernelIdeal.Val

end
-- ==== Proof.KernelIdeal.Prefix.lean ====
/-
  What the ten array operations before the launch leave in the three computed arrays the kernel reads, when the
  argument arrays hold real numbers.

  From the node features X (8192 × 512) and the weights W (512 × 128) the operations form H = X·W, a contraction over
  512 positions; from H and each attention vector (128 × 1) a column of 8192 entries, a contraction over 128 positions;
  the second column is re-laid as a row of 8192 entries, entry k of the row being entry k of the column; and H, carried
  to the narrow float format (on extended reals a change of format is the identity), is laid beside a column filled
  with the word of one and 127 columns filled with the word of zero, an array of 256 columns.  A contraction of
  extended reals that are images of reals is the image of the real sum of products, because a finite sum and a product
  of finite values are finite.  Hence, with the four arguments the images of real arrays X, W, a_self, a_neighs:
    the first column holds (H·a_self) r in row r                                   (`V_v1`),
    the row holds (H·a_neighs) k in column k                                       (`V_v3`),
    the wide array holds H r q for q < 128, one at q = 128 and zero beyond         (`V_v7`),
  each as the image `Gat.up2` of a real array.
-/
import proofs.«429846_j4741643895566_3_alg».proof.Proof.KernelIdeal.Kit
import proofs.«429846_j4741643895566_3_alg».proof.Proof.Coe
import proofs.«429846_j4741643895566_3_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Val

open Idealize.ShloMosaic Idealize.ShloMosaic.TcCoe Idealize.ShloMosaic.Tactic Idealize.ShloMosaic.ValueIdx
open Idealize.ShloMosaic.StableHlo
open Idealize.SL.Sem
open Cert.KernelIdeal Cert.KernelIdeal.Gen
open Finset

variable (m : (ℓ : Loc nD τ sig) → Buf (Elt Ideal) ℓ)

/-! ## The contraction X·W at an index

Each coordinate of the two operand indices at result index `i` and contraction position `q`: a free axis reads the
result index, the contracted axis reads the contraction position. -/

theorem lhs_proj_0 (i : S8192x128.Idx) (q : dot_S8192x512_S512x128_S8192x128_1_0_0_1_n_n.contr.Idx) :
    (dot_S8192x512_S512x128_S8192x128_1_0_0_1_n_n.lhsIdx i q 0).val = (i 0).val := by
  unfold DotDims.lhsIdx
  rw [dif_neg (show ¬(0 : Fin S8192x512.rank) ∈ dot_S8192x512_S512x128_S8192x128_1_0_0_1_n_n.lhsBatch by decide),
    dif_pos (show (0 : Fin S8192x512.rank) ∈ dot_S8192x512_S512x128_S8192x128_1_0_0_1_n_n.lhsNonContracting by decide)]
  rfl
theorem lhs_proj_1 (i : S8192x128.Idx) (q : dot_S8192x512_S512x128_S8192x128_1_0_0_1_n_n.contr.Idx) :
    (dot_S8192x512_S512x128_S8192x128_1_0_0_1_n_n.lhsIdx i q 1).val = (q ⟨0, by decide⟩).val :=
  dot_S8192x512_S512x128_S8192x128_1_0_0_1_n_n.lhsIdx_val_of_single rfl i q
theorem rhs_proj_0 (i : S8192x128.Idx) (q : dot_S8192x512_S512x128_S8192x128_1_0_0_1_n_n.contr.Idx) :
    (dot_S8192x512_S512x128_S8192x128_1_0_0_1_n_n.rhsIdx i q 0).val = (q ⟨0, by decide⟩).val :=
  dot_S8192x512_S512x128_S8192x128_1_0_0_1_n_n.rhsIdx_val_of_single rfl i q
theorem rhs_proj_1 (i : S8192x128.Idx) (q : dot_S8192x512_S512x128_S8192x128_1_0_0_1_n_n.contr.Idx) :
    (dot_S8192x512_S512x128_S8192x128_1_0_0_1_n_n.rhsIdx i q 1).val = (i 1).val := by
  unfold DotDims.rhsIdx
  rw [dif_neg (show ¬(1 : Fin S512x128.rank) ∈ dot_S8192x512_S512x128_S8192x128_1_0_0_1_n_n.rhsBatch by decide),
    dif_pos (show (1 : Fin S512x128.rank) ∈ dot_S8192x512_S512x128_S8192x128_1_0_0_1_n_n.rhsNonContracting by decide)]
  rfl

/-- Entry (r, c) of the product of an 8192 × 512 by a 512 × 128 array is the sum over the 512 contracted positions. -/
theorem proj_apply (x : FVec Ideal S8192x512 .f32) (w : FVec Ideal S512x128 .f32) (r : Fin 8192) (cc : Fin 128) :
    Host.dotGeneral (F := Ideal) (φ₁ := .f32) (φ₂ := .f32) dot_S8192x512_S512x128_S8192x128_1_0_0_1_n_n none x w (ix2 r cc)
      = ∑ k : Fin 512, x (ix2 r k) * w (ix2 k cc) := by
  show FloatOps.dotGeneral dot_S8192x512_S512x128_S8192x128_1_0_0_1_n_n none _ x w (ix2 r cc) = _
  rw [Ideal.dotGeneral_apply, ← Equiv.sum_comp (contrEquiv1 dot_S8192x512_S512x128_S8192x128_1_0_0_1_n_n 512 rfl rfl).symm]
  refine Finset.sum_congr rfl fun k _ => ?_
  have hk := contrEquiv1_symm_val dot_S8192x512_S512x128_S8192x128_1_0_0_1_n_n 512 rfl rfl k
  have el : dot_S8192x512_S512x128_S8192x128_1_0_0_1_n_n.lhsIdx (ix2 r cc) ((contrEquiv1 dot_S8192x512_S512x128_S8192x128_1_0_0_1_n_n 512 rfl rfl).symm k) = ix2 r k :=
    funext fun a => Fin.ext (by
      match a with
      | ⟨0, _⟩ => exact lhs_proj_0 _ _
      | ⟨1, _⟩ => exact (lhs_proj_1 _ _).trans hk)
  have er : dot_S8192x512_S512x128_S8192x128_1_0_0_1_n_n.rhsIdx (ix2 r cc) ((contrEquiv1 dot_S8192x512_S512x128_S8192x128_1_0_0_1_n_n 512 rfl rfl).symm k) = ix2 k cc :=
    funext fun a => Fin.ext (by
      match a with
      | ⟨0, _⟩ => exact (rhs_proj_0 _ _).trans hk
      | ⟨1, _⟩ => exact rhs_proj_1 _ _)
  rw [el, er]

/-! ## The contraction H·a at an index -/

theorem lhs_attn_0 (i : S8192x1.Idx) (q : dot_S8192x128_S128x1_S8192x1_1_0_0_1_n_n.contr.Idx) :
    (dot_S8192x128_S128x1_S8192x1_1_0_0_1_n_n.lhsIdx i q 0).val = (i 0).val := by
  unfold DotDims.lhsIdx
  rw [dif_neg (show ¬(0 : Fin S8192x128.rank) ∈ dot_S8192x128_S128x1_S8192x1_1_0_0_1_n_n.lhsBatch by decide),
    dif_pos (show (0 : Fin S8192x128.rank) ∈ dot_S8192x128_S128x1_S8192x1_1_0_0_1_n_n.lhsNonContracting by decide)]
  rfl
theorem lhs_attn_1 (i : S8192x1.Idx) (q : dot_S8192x128_S128x1_S8192x1_1_0_0_1_n_n.contr.Idx) :
    (dot_S8192x128_S128x1_S8192x1_1_0_0_1_n_n.lhsIdx i q 1).val = (q ⟨0, by decide⟩).val :=
  dot_S8192x128_S128x1_S8192x1_1_0_0_1_n_n.lhsIdx_val_of_single rfl i q
theorem rhs_attn_0 (i : S8192x1.Idx) (q : dot_S8192x128_S128x1_S8192x1_1_0_0_1_n_n.contr.Idx) :
    (dot_S8192x128_S128x1_S8192x1_1_0_0_1_n_n.rhsIdx i q 0).val = (q ⟨0, by decide⟩).val :=
  dot_S8192x128_S128x1_S8192x1_1_0_0_1_n_n.rhsIdx_val_of_single rfl i q
theorem rhs_attn_1 (i : S8192x1.Idx) (q : dot_S8192x128_S128x1_S8192x1_1_0_0_1_n_n.contr.Idx) :
    (dot_S8192x128_S128x1_S8192x1_1_0_0_1_n_n.rhsIdx i q 1).val = (i 1).val := by
  unfold DotDims.rhsIdx
  rw [dif_neg (show ¬(1 : Fin S128x1.rank) ∈ dot_S8192x128_S128x1_S8192x1_1_0_0_1_n_n.rhsBatch by decide),
    dif_pos (show (1 : Fin S128x1.rank) ∈ dot_S8192x128_S128x1_S8192x1_1_0_0_1_n_n.rhsNonContracting by decide)]
  rfl

/-- Entry (r, 0) of the product of an 8192 × 128 array by a 128 × 1 column is the sum over the 128 contracted positions. -/
theorem attn_apply (h : FVec Ideal S8192x128 .f32) (a : FVec Ideal S128x1 .f32) (r : Fin 8192) (z : Fin 1) :
    Host.dotGeneral (F := Ideal) (φ₁ := .f32) (φ₂ := .f32) dot_S8192x128_S128x1_S8192x1_1_0_0_1_n_n none h a (ix2 r z)
      = ∑ k : Fin 128, h (ix2 r k) * a (ix2 k z) := by
  show FloatOps.dotGeneral dot_S8192x128_S128x1_S8192x1_1_0_0_1_n_n none _ h a (ix2 r z) = _
  rw [Ideal.dotGeneral_apply, ← Equiv.sum_comp (contrEquiv1 dot_S8192x128_S128x1_S8192x1_1_0_0_1_n_n 128 rfl rfl).symm]
  refine Finset.sum_congr rfl fun k _ => ?_
  have hk := contrEquiv1_symm_val dot_S8192x128_S128x1_S8192x1_1_0_0_1_n_n 128 rfl rfl k
  have el : dot_S8192x128_S128x1_S8192x1_1_0_0_1_n_n.lhsIdx (ix2 r z) ((contrEquiv1 dot_S8192x128_S128x1_S8192x1_1_0_0_1_n_n 128 rfl rfl).symm k) = ix2 r k :=
    funext fun a => Fin.ext (by
      match a with
      | ⟨0, _⟩ => exact lhs_attn_0 _ _
      | ⟨1, _⟩ => exact (lhs_attn_1 _ _).trans hk)
  have er : dot_S8192x128_S128x1_S8192x1_1_0_0_1_n_n.rhsIdx (ix2 r z) ((contrEquiv1 dot_S8192x128_S128x1_S8192x1_1_0_0_1_n_n 128 rfl rfl).symm k) = ix2 k z :=
    funext fun a => Fin.ext (by
      match a with
      | ⟨0, _⟩ => exact (rhs_attn_0 _ _).trans hk
      | ⟨1, _⟩ => exact rhs_attn_1 _ _)
  rw [el, er]

/-! ## The column re-laid as a row, and the three pieces laid side by side -/

/-- The 8192 × 1 column re-laid as a 1 × 8192 row: entry (0, k) of the row is entry (k, 0) of the column, the two
    having the same position k in row-major order. -/
theorem row_of_col_apply (v : FVec Ideal S8192x1 .f32) (z : Fin 1) (k : Fin 8192) :
    shapeCast S1x8192 v shapeCasts_S8192x1_S1x8192 (ix2 z k) = v (ix2 k (0 : Fin 1)) := by
  refine shapeCast_apply v shapeCasts_S8192x1_S1x8192 (ix2 z k) (ix2 k (0 : Fin 1)) ?_
  rw [Shape.rowMajor_val_two, Shape.rowMajor_val_two]
  show k.val * 1 + 0 = z.val * 8192 + k.val
  have := z.isLt
  omega

/-- Three arrays of 128, 1 and 127 columns laid side by side along the column axis, read at (r, q): the first where
    q < 128, the second at q = 128, the third, at column q − 129, beyond. -/
theorem beside_apply (h : FVec Ideal S8192x128 .bf16) (o : FVec Ideal S8192x1 .bf16) (zr : FVec Ideal S8192x127 .bf16)
    (r : Fin 8192) (q : Fin 256) :
    concatenate S8192x256 1 [⟨S8192x128, h⟩, ⟨S8192x1, o⟩, ⟨S8192x127, zr⟩] concatenates_S8192x128_S8192x1_S8192x127_S8192x256_d1 (ix2 r q)
      = if hq : q.val < 128 then h (ix2 r ⟨q.val, hq⟩)
        else if hq' : q.val = 128 then o (ix2 r (0 : Fin 1))
        else zr (ix2 r ⟨q.val - 129, by have := q.isLt; omega⟩) := by
  by_cases hq : q.val < 128
  · rw [dif_pos hq]
    refine concatenate_apply_piece (1 : Fin S8192x256.rank) [⟨S8192x128, h⟩, ⟨S8192x1, o⟩, ⟨S8192x127, zr⟩] concatenates_S8192x128_S8192x1_S8192x127_S8192x256_d1 (ix2 r q) 0 (by show (0 : ℕ) < 3; omega) S8192x128 h rfl rfl 0 rfl
      (ix2 r ⟨q.val, hq⟩) ?_ ?_
    · intro b hb
      match b with
      | ⟨0, _⟩ => rfl
      | ⟨1, _⟩ => exact absurd (Fin.ext rfl) hb
    · show 0 + q.val = q.val
      omega
  · rw [dif_neg hq]
    by_cases hq' : q.val = 128
    · rw [dif_pos hq']
      refine concatenate_apply_piece (1 : Fin S8192x256.rank) [⟨S8192x128, h⟩, ⟨S8192x1, o⟩, ⟨S8192x127, zr⟩] concatenates_S8192x128_S8192x1_S8192x127_S8192x256_d1 (ix2 r q) 1 (by show (1 : ℕ) < 3; omega) S8192x1 o rfl rfl 128 rfl
        (ix2 r (0 : Fin 1)) ?_ ?_
      · intro b hb
        match b with
        | ⟨0, _⟩ => rfl
        | ⟨1, _⟩ => exact absurd (Fin.ext rfl) hb
      · show 128 + 0 = q.val
        omega
    · rw [dif_neg hq']
      refine concatenate_apply_piece (1 : Fin S8192x256.rank) [⟨S8192x128, h⟩, ⟨S8192x1, o⟩, ⟨S8192x127, zr⟩] concatenates_S8192x128_S8192x1_S8192x127_S8192x256_d1 (ix2 r q) 2 (by show (2 : ℕ) < 3; omega) S8192x127 zr rfl rfl 129 rfl
        (ix2 r ⟨q.val - 129, by have := q.isLt; omega⟩) ?_ ?_
      · intro b hb
        match b with
        | ⟨0, _⟩ => rfl
        | ⟨1, _⟩ => exact absurd (Fin.ext rfl) hb
      · show 129 + (q.val - 129) = q.val
        omega

/-! ## The contractions of real arrays -/

/-- The product of the images of two real arrays is the image of H = X·W. -/
theorem proj_up2 (X W : ℕ → ℕ → ℝ) :
    Host.dotGeneral (F := Ideal) (φ₁ := .f32) (φ₂ := .f32) dot_S8192x512_S512x128_S8192x128_1_0_0_1_n_n none (Gat.up2 X) (Gat.up2 W) = (Gat.up2 (Gat.proj X W) : S8192x128.Idx → EReal) := by
  funext j
  obtain ⟨r, cc, rfl⟩ : ∃ (r : Fin 8192) (cc : Fin 128), j = ix2 r cc := ⟨j 0, j 1, eq_ix2 j⟩
  rw [proj_apply, Gat.up2_ix2]
  simp only [Gat.up2_ix2, ← EReal.coe_mul]
  rw [Gat.sum_coe]
  exact congrArg _ (Fin.sum_univ_eq_sum_range (fun k => X r.val k * W k cc.val) 512)

/-- The product of the image of a real array H by the image of a real column a is the image of the column H·a. -/
theorem attn_up2 (H a : ℕ → ℕ → ℝ) :
    Host.dotGeneral (F := Ideal) (φ₁ := .f32) (φ₂ := .f32) dot_S8192x128_S128x1_S8192x1_1_0_0_1_n_n none (Gat.up2 H) (Gat.up2 a) = (Gat.up2 (fun r _ => Gat.attnCol H a r) : S8192x1.Idx → EReal) := by
  funext j
  obtain ⟨r, z, rfl⟩ : ∃ (r : Fin 8192) (z : Fin 1), j = ix2 r z := ⟨j 0, j 1, eq_ix2 j⟩
  obtain rfl : z = 0 := Subsingleton.elim _ _
  rw [attn_apply, Gat.up2_ix2]
  simp only [Gat.up2_ix2, ← EReal.coe_mul]
  rw [Gat.sum_coe]
  exact congrArg _ (Fin.sum_univ_eq_sum_range (fun k => H r.val k * a k 0) 128)

/-! ## What the operations before the launch compute -/

/-- The first attention column as the operations compute it from the argument arrays. -/
theorem e_v1 (c : Dev nD) :
    (Fr.V m c main_v1 : FVec Ideal S8192x1 .f32)
      = Host.dotGeneral (F := Ideal) (φ₁ := .f32) (φ₂ := .f32) dot_S8192x128_S128x1_S8192x1_1_0_0_1_n_n none (Host.dotGeneral (F := Ideal) (φ₁ := .f32) (φ₂ := .f32) dot_S8192x512_S512x128_S8192x128_1_0_0_1_n_n none (Fr.V m c main_arg0) (Fr.V m c main_arg3)) (Fr.V m c main_arg4) := by
  dsimp only [Fr.V, Gen.hostOps0]
  after_results

/-- The second attention column, re-laid as a row. -/
theorem e_v3 (c : Dev nD) :
    (Fr.V m c main_v3 : FVec Ideal S1x8192 .f32)
      = shapeCast S1x8192 (Host.dotGeneral (F := Ideal) (φ₁ := .f32) (φ₂ := .f32) dot_S8192x128_S128x1_S8192x1_1_0_0_1_n_n none (Host.dotGeneral (F := Ideal) (φ₁ := .f32) (φ₂ := .f32) dot_S8192x512_S512x128_S8192x128_1_0_0_1_n_n none (Fr.V m c main_arg0) (Fr.V m c main_arg3)) (Fr.V m c main_arg5))
          shapeCasts_S8192x1_S1x8192 := by
  dsimp only [Fr.V, Gen.hostOps0]
  after_results
  rfl

/-- The projection in the narrow format beside a column of the word of one and 127 columns of the word of zero. -/
theorem e_v7 (c : Dev nD) :
    (Fr.V m c main_v7 : FVec Ideal S8192x256 .bf16)
      = concatenate S8192x256 1
          [⟨S8192x128, (truncf (F := Ideal) (φ := .f32) .bf16 (Host.dotGeneral (F := Ideal) (φ₁ := .f32) (φ₂ := .f32) dot_S8192x512_S512x128_S8192x128_1_0_0_1_n_n none (Fr.V m c main_arg0) (Fr.V m c main_arg3)) bitsLt_bf16_f32 : FVec Ideal S8192x128 .bf16)⟩,
           ⟨S8192x1, (broadcastInDim S8192x1 ![] bcast_S_S8192x1 (constant (F := Ideal) S_ .bf16 0x3F80#16) : FVec Ideal S8192x1 .bf16)⟩,
           ⟨S8192x127, (broadcastInDim S8192x127 ![] bcast_S_S8192x127 (constant (F := Ideal) S_ .bf16 0x0000#16) : FVec Ideal S8192x127 .bf16)⟩]
          concatenates_S8192x128_S8192x1_S8192x127_S8192x256_d1 := by
  dsimp only [Fr.V, Gen.hostOps0]
  after_results
  rfl

/-! ## The three arrays the kernel reads -/

/-- The first attention column: row r holds (H·a_self) r. -/
theorem V_v1 (c : Dev nD) (X W as_ : ℕ → ℕ → ℝ)
    (h0 : m ((c.tc : Thread nD τ).loc main_arg0) = Gat.up2 X)
    (h3 : m ((c.tc : Thread nD τ).loc main_arg3) = Gat.up2 W)
    (h4 : m ((c.tc : Thread nD τ).loc main_arg4) = Gat.up2 as_) :
    Fr.V m c main_v1 = Gat.up2 fun r _ => Gat.attnCol (Gat.proj X W) as_ r := by
  have a0 : Fr.V m c main_arg0 = Gat.up2 X := (Fr.V_main_arg0 m c).trans h0
  have a3 : Fr.V m c main_arg3 = Gat.up2 W := (Fr.V_main_arg3 m c).trans h3
  have a4 : Fr.V m c main_arg4 = Gat.up2 as_ := (Fr.V_main_arg4 m c).trans h4
  refine (e_v1 m c).trans ?_
  rw [a0, a3, a4, proj_up2, attn_up2]

/-- The second attention column as a row: column k holds (H·a_neighs) k. -/
theorem V_v3 (c : Dev nD) (X W an : ℕ → ℕ → ℝ)
    (h0 : m ((c.tc : Thread nD τ).loc main_arg0) = Gat.up2 X)
    (h3 : m ((c.tc : Thread nD τ).loc main_arg3) = Gat.up2 W)
    (h5 : m ((c.tc : Thread nD τ).loc main_arg5) = Gat.up2 an) :
    Fr.V m c main_v3 = Gat.up2 fun _ k => Gat.attnCol (Gat.proj X W) an k := by
  have a0 : Fr.V m c main_arg0 = Gat.up2 X := (Fr.V_main_arg0 m c).trans h0
  have a3 : Fr.V m c main_arg3 = Gat.up2 W := (Fr.V_main_arg3 m c).trans h3
  have a5 : Fr.V m c main_arg5 = Gat.up2 an := (Fr.V_main_arg5 m c).trans h5
  refine (e_v3 m c).trans ?_
  rw [a0, a3, a5, proj_up2, attn_up2]
  funext j
  obtain ⟨z, k, rfl⟩ : ∃ (z : Fin 1) (k : Fin 8192), j = ix2 z k := ⟨j 0, j 1, eq_ix2 j⟩
  rw [row_of_col_apply, Gat.up2_ix2, Gat.up2_ix2]

/-- The widened projection: H in the first 128 columns, one in column 128, zero beyond. -/
theorem V_v7 (c : Dev nD) (X W : ℕ → ℕ → ℝ)
    (h0 : m ((c.tc : Thread nD τ).loc main_arg0) = Gat.up2 X)
    (h3 : m ((c.tc : Thread nD τ).loc main_arg3) = Gat.up2 W) :
    Fr.V m c main_v7 = Gat.up2 (Gat.wide (Gat.proj X W)) := by
  have a0 : Fr.V m c main_arg0 = Gat.up2 X := (Fr.V_main_arg0 m c).trans h0
  have a3 : Fr.V m c main_arg3 = Gat.up2 W := (Fr.V_main_arg3 m c).trans h3
  refine (e_v7 m c).trans ?_
  rw [a0, a3, proj_up2]
  funext j
  obtain ⟨r, q, rfl⟩ : ∃ (r : Fin 8192) (q : Fin 256), j = ix2 r q := ⟨j 0, j 1, eq_ix2 j⟩
  rw [beside_apply, Gat.up2_ix2]
  unfold Gat.wide
  by_cases hq : q.val < 128
  · rw [dif_pos hq, if_pos hq]
    rfl
  · rw [dif_neg hq, if_neg hq]
    by_cases hq' : q.val = 128
    · rw [dif_pos hq', if_pos hq']
      exact Gat.ofBits_bf16_one
    · rw [dif_neg hq', if_neg hq']
      exact Gat.ofBits_bf16_zero

end Cert.KernelIdeal.Val

end
-- ==== Proof.KernelIdeal.Blocks.lean ====
/-
  The geometry of the windows of the graph-attention kernel on its 8 × 8 grid.

  A grid point t (0 ≤ t < 64) is row tile i = t / 8 and column tile j = t mod 8.  Each window's block at t is a
  rectangle of its array: an entry of the block sits, on each axis, at block index × block extent + its own
  coordinate.  Hence the block of the column s = H·a_self holds rows 1024·i …, the block of the row n = H·a_neighs
  holds columns 1024·j …, the blocks of the adjacency and of the mask hold the 1024 × 1024 tile (i, j), and the block
  of the widened H holds rows 1024·j … .  The result's blocks (1024 × 128, block (i, 0)) are written back at the
  last column tiles t = 8·i + 7; those eight blocks tile the 8192 × 128 result array, so if each of them holds the
  corresponding rows of a matrix G the array ends holding G.
-/
import proofs.«429846_j4741643895566_3_alg».proof.Proof.KernelIdeal.Frame
import proofs.«429846_j4741643895566_3_alg».proof.Proof.Spec
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The block indices of the six windows at grid point t, in closed form: row tile t / 8, column tile t mod 8. -/
theorem win_index_eq : ∀ t : Fin cfg0.N,
    win0_0.index t (0 : Fin 2) = t.val / 8 ∧ win0_0.index t (1 : Fin 2) = 0
    ∧ win0_1.index t (0 : Fin 2) = 0 ∧ win0_1.index t (1 : Fin 2) = t.val % 8
    ∧ win0_2.index t (0 : Fin 2) = t.val / 8 ∧ win0_2.index t (1 : Fin 2) = t.val % 8
    ∧ win0_3.index t (0 : Fin 2) = t.val / 8 ∧ win0_3.index t (1 : Fin 2) = t.val % 8
    ∧ win0_4.index t (0 : Fin 2) = t.val % 8 ∧ win0_4.index t (1 : Fin 2) = 0
    ∧ win0_5.index t (0 : Fin 2) = t.val / 8 ∧ win0_5.index t (1 : Fin 2) = 0 :=
  (by decide +kernel : ∀ t : Fin grid0.N, _)

/-- The block of the column s at point t holds its rows 1024·(t / 8) … . -/
theorem iblk0_eq (sv : ℕ → ℝ) (hv1 : Fr.V m c main_v1 = Gat.up2 fun r _ => sv r) (t : Fin cfg0.N) :
    (Fr.iblk m c 0 t : Vec Ideal S1024x1 .f32) = Gat.up2 fun r _ => sv (t.val / 8 * 1024 + r) := by
  obtain ⟨e0, -⟩ := win_index_eq t
  funext j
  unfold Fr.iblk
  rw [View.read_apply]
  show Fr.V m c main_v1 _ = _
  rw [hv1]
  have h0 : ((((cfg0.win 0).blk t).view.emb j) 0 : Nat) = t.val / 8 * 1024 + (j 0).val := by
    show win0_0.index t 0 * 1024 + 1 * (j 0).val = _
    rw [e0]; omega
  exact congrArg (fun n => ((sv n : ℝ) : EReal)) h0

/-- The block of the row n at point t holds its columns 1024·(t mod 8) … . -/
theorem iblk1_eq (nv : ℕ → ℝ) (hv3 : Fr.V m c main_v3 = Gat.up2 fun _ k => nv k) (t : Fin cfg0.N) :
    (Fr.iblk m c 1 t : Vec Ideal S1x1024 .f32) = Gat.up2 fun _ q => nv (t.val % 8 * 1024 + q) := by
  obtain ⟨-, -, -, e1, -⟩ := win_index_eq t
  funext j
  unfold Fr.iblk
  rw [View.read_apply]
  show Fr.V m c main_v3 _ = _
  rw [hv3]
  have h1 : ((((cfg0.win 1).blk t).view.emb j) 1 : Nat) = t.val % 8 * 1024 + (j 1).val := by
    show win0_1.index t 1 * 1024 + 1 * (j 1).val = _
    rw [e1]; omega
  exact congrArg (fun n => ((nv n : ℝ) : EReal)) h1

/-- The block of the adjacency at point t is its 1024 × 1024 tile (t / 8, t mod 8). -/
theorem iblk2_eq (A : ℕ → ℕ → ℝ) (h1 : m ((c.tc : Thread nD τ).loc main_arg1) = Gat.up2 A) (t : Fin cfg0.N) :
    (Fr.iblk m c 2 t : Vec Ideal S1024x1024 .f32) = Gat.up2 fun r q => A (t.val / 8 * 1024 + r) (t.val % 8 * 1024 + q) := by
  obtain ⟨-, -, -, -, e0, e1, -⟩ := win_index_eq t
  funext j
  unfold Fr.iblk
  rw [View.read_apply]
  show Fr.V m c main_arg1 _ = _
  rw [Fr.V_main_arg1, h1]
  have h0 : ((((cfg0.win 2).blk t).view.emb j) 0 : Nat) = t.val / 8 * 1024 + (j 0).val := by
    show win0_2.index t 0 * 1024 + 1 * (j 0).val = _
    rw [e0]; omega
  have h1' : ((((cfg0.win 2).blk t).view.emb j) 1 : Nat) = t.val % 8 * 1024 + (j 1).val := by
    show win0_2.index t 1 * 1024 + 1 * (j 1).val = _
    rw [e1]; omega
  exact congrArg₂ (fun n k => ((A n k : ℝ) : EReal)) h0 h1'

/-- The block of the mask at point t is its 1024 × 1024 tile (t / 8, t mod 8). -/
theorem iblk3_eq (M : ℕ → ℕ → ℝ) (h2 : m ((c.tc : Thread nD τ).loc main_arg2) = Gat.up2 M) (t : Fin cfg0.N) :
    (Fr.iblk m c 3 t : Vec Ideal S1024x1024 .f32) = Gat.up2 fun r q => M (t.val / 8 * 1024 + r) (t.val % 8 * 1024 + q) := by
  obtain ⟨-, -, -, -, -, -, e0, e1, -⟩ := win_index_eq t
  funext j
  unfold Fr.iblk
  rw [View.read_apply]
  show Fr.V m c main_arg2 _ = _
  rw [Fr.V_main_arg2, h2]
  have h0 : ((((cfg0.win 3).blk t).view.emb j) 0 : Nat) = t.val / 8 * 1024 + (j 0).val := by
    show win0_3.index t 0 * 1024 + 1 * (j 0).val = _
    rw [e0]; omega
  have h1' : ((((cfg0.win 3).blk t).view.emb j) 1 : Nat) = t.val % 8 * 1024 + (j 1).val := by
    show win0_3.index t 1 * 1024 + 1 * (j 1).val = _
    rw [e1]; omega
  exact congrArg₂ (fun n k => ((M n k : ℝ) : EReal)) h0 h1'

/-- The block of the widened H at point t holds its rows 1024·(t mod 8) …, all 256 columns. -/
theorem iblk4_eq (Hw : ℕ → ℕ → ℝ) (hv7 : Fr.V m c main_v7 = Gat.up2 Hw) (t : Fin cfg0.N) :
    (Fr.iblk m c 4 t : Vec Ideal S1024x256 .bf16) = Gat.up2 fun q cc => Hw (t.val % 8 * 1024 + q) cc := by
  obtain ⟨-, -, -, -, -, -, -, -, e0, e1, -⟩ := win_index_eq t
  funext j
  unfold Fr.iblk
  rw [View.read_apply]
  show Fr.V m c main_v7 _ = _
  rw [hv7]
  have h0 : ((((cfg0.win 4).blk t).view.emb j) 0 : Nat) = t.val % 8 * 1024 + (j 0).val := by
    show win0_4.index t 0 * 1024 + 1 * (j 0).val = _
    rw [e0]; omega
  have h1' : ((((cfg0.win 4).blk t).view.emb j) 1 : Nat) = (j 1).val := by
    show win0_4.index t 1 * 256 + 1 * (j 1).val = _
    rw [e1]; omega
  exact congrArg₂ (fun n k => ((Hw n k : ℝ) : EReal)) h0 h1'

/-- An entry of the result array lies in the block written back at point t iff on each axis its coordinate lies in
    the block's range. -/
theorem mem_blk5 (t : Fin cfg0.N) (i : S8192x128.Idx) :
    i ∈ ((cfg0.win 5).blk t).view.set ↔ ∀ a : Fin 2, win0_5.index t a * S1024x128.size a ≤ (i a).val ∧ (i a).val < win0_5.index t a * S1024x128.size a + S1024x128.size a := by
  show i ∈ ((View.whole main_v8).slice (win0_5.rect t)).set ↔ _
  rw [View.set_slice_whole, Rect.mem_set_unit]
  exact Iff.rfl

/-- What a last column tile t = 8·i + 7 writes back, when its block holds rows 1024·i … of G, is G read through the
    block. -/
theorem flushed5_eq (G : ℕ → ℕ → ℝ)
    (hfl : ∀ t : Fin cfg0.N, t.val % 8 = 7 → (Fr.outsAt0 m c t.val t.isLt).1 = Gat.up2 fun r cc => G (t.val / 8 * 1024 + r) cc)
    (t : Fin cfg0.N) (hf : (cfg0.win 5).flush t = true) :
    (Fr.dats m 0 c).flushed 5 t = ((cfg0.win 5).blk t).view.read (Elt Ideal) (Gat.up2 G) := by
  have h7 := (flush0_5 t).mp hf
  obtain ⟨-, -, -, -, -, -, -, -, -, -, e0, e1⟩ := win_index_eq t
  show (cfg0.win 5).cut (grid0.coords t) ((Fr.dats m 0 c).after 5 t) = _
  rw [Fr.after0_5, hfl t h7]
  funext y
  rw [View.read_apply]
  have h0 : ((((cfg0.win 5).blk t).view.emb y) 0 : Nat) = t.val / 8 * 1024 + (y 0).val := by
    show win0_5.index t 0 * 1024 + 1 * (y 0).val = _
    rw [e0]; omega
  have h1' : ((((cfg0.win 5).blk t).view.emb y) 1 : Nat) = (y 1).val := by
    show win0_5.index t 1 * 128 + 1 * (y 1).val = _
    rw [e1]; omega
  exact (congrArg₂ (fun n k => ((G n k : ℝ) : EReal)) h0 h1').symm

/-- The eight blocks written back at the last column tiles tile the result array: it ends holding G. -/
theorem final5 (G : ℕ → ℕ → ℝ)
    (hfl : ∀ t : Fin cfg0.N, t.val % 8 = 7 → (Fr.outsAt0 m c t.val t.isLt).1 = Gat.up2 fun r cc => G (t.val / 8 * 1024 + r) cc) :
    (Fr.dats m 0 c).arrAt 5 cfg0.N = Gat.up2 G := by
  refine (Fr.dats m 0 c).arrAt_eq_of_cover 5 (Gat.up2 G) (flushed5_eq m c G hfl) fun i => ?_
  have hi0 : (i 0 : Nat) < 8192 := (i 0).isLt
  have hi1 : (i 1 : Nat) < 128 := (i 1).isLt
  have hN : cfg0.N = 64 := N_0
  obtain ⟨t, ht⟩ : ∃ t : Fin cfg0.N, t.val = 8 * ((i 0 : Nat) / 1024) + 7 := ⟨⟨8 * ((i 0 : Nat) / 1024) + 7, by rw [hN]; omega⟩, rfl⟩
  obtain ⟨-, -, -, -, -, -, -, -, -, -, e0, e1⟩ := win_index_eq t
  refine ⟨t, (flush0_5 t).mpr (by omega), ?_⟩
  rw [mem_blk5]
  intro a
  match a with
  | ⟨0, _⟩ => show win0_5.index t 0 * 1024 ≤ (i 0 : Nat) ∧ (i 0 : Nat) < win0_5.index t 0 * 1024 + 1024
              rw [e0]; omega
  | ⟨1, _⟩ => show win0_5.index t 1 * 128 ≤ (i 1 : Nat) ∧ (i 1 : Nat) < win0_5.index t 1 * 128 + 128
              rw [e1]; omega

end Cert.KernelIdeal.Val

end
-- ==== Proof.KernelIdeal.Invariant.lean ====
/-
  What the kernel's two scratch buffers and its output block hold after each grid point, and from it the value of the
  whole run.

  The grid is 8 × 8: point n is row tile n / 8 and column tile n % 8; a row tile is 1024 rows of the 8192, a column tile
  1024 of the 8192 columns of the score matrix E r k = leakyrelu((s r + n k)·M r k) where A r k > 0 and −9·10¹⁵ elsewhere.
  Write μ_j(r) for the largest score of row r in column tiles 0 … j (`Gat.runMax`) and
  acc_j(r, c) = Σ_{k < 1024 (j+1)} exp(E r k − μ_j(r)) · Hw k c for the streamed accumulator (`Gat.runAcc`), Hw being
  H = X·W widened by a column of ones and 127 columns of zeros.

  The invariant, by induction on the point: after point n the running-maximum column holds μ_{n % 8} of the rows of row
  tile n / 8, and the accumulator holds acc_{n % 8} of those rows.  At a first column tile both buffers are reset, so
  the column ends as the tile maximum μ_0 and the accumulator as the tile's terms shifted by μ_0, which is acc_0.  At a
  later tile the column ends as max(μ_{j−1}, tile maximum) = μ_j, and the accumulator as
  exp(μ_{j−1} − μ_j) · acc_{j−1} + (the tile's terms shifted by μ_j), which is acc_j because rescaling a sum of
  exponentials from one shift to another multiplies it by the exponential of the difference of the shifts.  The point
  before a later tile is in the same row tile, one column tile to the left.

  At a last column tile the output block is ELU(acc_7(r, c) / acc_7(r, 128)) for c < 128; column 128 of Hw is all ones,
  so acc_7(r, 128) is the positive sum of the shifted exponentials, the common factor exp(−μ_7) cancels in the quotient,
  and the quotient is the exp-weighted mean of H's column c, whose ELU is the layer's result.  The last column tiles'
  blocks tile the result array, so after the whole grid the result array is the layer's result, and the six argument
  arrays are as the program was started.
-/
import proofs.«429846_j4741643895566_3_alg».proof.Proof.KernelIdeal.Frame
import proofs.«429846_j4741643895566_3_alg».proof.Proof.KernelIdeal.Pieces
import proofs.«429846_j4741643895566_3_alg».proof.Proof.KernelIdeal.Payload
import proofs.«429846_j4741643895566_3_alg».proof.Proof.KernelIdeal.PayloadAcc
import proofs.«429846_j4741643895566_3_alg».proof.Proof.KernelIdeal.Prefix
import proofs.«429846_j4741643895566_3_alg».proof.Proof.KernelIdeal.Blocks
import proofs.«429846_j4741643895566_3_alg».proof.Proof.SpecLemmas
import proofs.«429846_j4741643895566_3_alg».proof.Proof.Coe
import Idealize.ShloMosaic.Lib.Pipeline.Value

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

/-! ## One tile's scores and their row maximum, read at the global indices -/

/-- The masked score of a pair inside tile (i, j), computed from the tile's four blocks, is the score of the pair
    at its place in the whole matrix. -/
theorem bscore_tile (sv nv : ℕ → ℝ) (A M : ℕ → ℕ → ℝ) (i j r q : ℕ) :
    bscore (fun r => sv (i * 1024 + r)) (fun q => nv (j * 1024 + q))
        (fun r q => A (i * 1024 + r) (j * 1024 + q)) (fun r q => M (i * 1024 + r) (j * 1024 + q)) r q
      = Gat.score sv nv A M (i * 1024 + r) (j * 1024 + q) := rfl

/-- The largest score of a row inside tile (i, j), computed from the tile's blocks, is the tile maximum of that row. -/
theorem bmax_tile (sv nv : ℕ → ℝ) (A M : ℕ → ℕ → ℝ) (i j r : ℕ) :
    bmax (fun r => sv (i * 1024 + r)) (fun q => nv (j * 1024 + q))
        (fun r q => A (i * 1024 + r) (j * 1024 + q)) (fun r q => M (i * 1024 + r) (j * 1024 + q)) r
      = Gat.tileMax (Gat.score sv nv A M) (i * 1024 + r) j := rfl

/-! ## The four updates of a point, over the tile's blocks at the global indices -/

/-- At a first column tile the running-maximum column ends as the tile maximum. -/
theorem max_reset (sv nv : ℕ → ℝ) (A M : ℕ → ℕ → ℝ) (i j : ℕ) :
    k0_pay2 (F := Ideal) (k0_pay7 (F := Ideal) (Gat.up2 (fun r _ => sv (i * 1024 + r))) (Gat.up2 (fun _ q => nv (j * 1024 + q)))
        (Gat.up2 (fun r q => M (i * 1024 + r) (j * 1024 + q))) (Gat.up2 (fun r q => A (i * 1024 + r) (j * 1024 + q))) (k0_pay4 (F := Ideal)))
      = Gat.up2 fun r _ => Gat.tileMax (Gat.score sv nv A M) (i * 1024 + r) j := by
  rw [pay2_id]
  exact pay7_reset (fun r => sv (i * 1024 + r)) (fun q => nv (j * 1024 + q))
    (fun r q => A (i * 1024 + r) (j * 1024 + q)) (fun r q => M (i * 1024 + r) (j * 1024 + q))

/-- At a later column tile it ends as the larger of what it held and the tile maximum. -/
theorem max_carry (sv nv : ℕ → ℝ) (A M : ℕ → ℕ → ℝ) (i j : ℕ) (μo : ℕ → ℝ) :
    k0_pay2 (F := Ideal) (k0_pay7 (F := Ideal) (Gat.up2 (fun r _ => sv (i * 1024 + r))) (Gat.up2 (fun _ q => nv (j * 1024 + q)))
        (Gat.up2 (fun r q => M (i * 1024 + r) (j * 1024 + q))) (Gat.up2 (fun r q => A (i * 1024 + r) (j * 1024 + q))) (Gat.up2 (fun r _ => μo r)))
      = Gat.up2 fun r _ => max (μo r) (Gat.tileMax (Gat.score sv nv A M) (i * 1024 + r) j) := by
  rw [pay2_id]
  exact pay7_carry (fun r => sv (i * 1024 + r)) (fun q => nv (j * 1024 + q))
    (fun r q => A (i * 1024 + r) (j * 1024 + q)) (fun r q => M (i * 1024 + r) (j * 1024 + q)) μo

/-- At a first column tile the accumulator ends as the tile's exponentials, shifted by the tile maximum, times the
    widened values. -/
theorem acc_reset_tile (sv nv : ℕ → ℝ) (A M Hw : ℕ → ℕ → ℝ) (i j : ℕ) :
    k0_pay1 (F := Ideal)
        (k0_pay8 (Gat.up2 (fun r _ => sv (i * 1024 + r))) (Gat.up2 (fun _ q => nv (j * 1024 + q)))
          (Gat.up2 (fun r q => M (i * 1024 + r) (j * 1024 + q))) (Gat.up2 (fun r q => A (i * 1024 + r) (j * 1024 + q))) (k0_pay4 (F := Ideal)))
        (k0_pay9 (Gat.up2 (fun r _ => sv (i * 1024 + r))) (Gat.up2 (fun _ q => nv (j * 1024 + q)))
          (Gat.up2 (fun r q => M (i * 1024 + r) (j * 1024 + q))) (Gat.up2 (fun r q => A (i * 1024 + r) (j * 1024 + q))) (k0_pay4 (F := Ideal)) (k0_pay4 (F := Ideal)) (k0_pay5 (F := Ideal)))
        (Gat.up2 (fun q cc => Hw (j * 1024 + q) cc))
      = Gat.up2 fun r cc => ∑ q ∈ Finset.range 1024,
          Real.exp (Gat.score sv nv A M (i * 1024 + r) (j * 1024 + q) - Gat.tileMax (Gat.score sv nv A M) (i * 1024 + r) j)
            * Hw (j * 1024 + q) cc :=
  acc_reset (fun r => sv (i * 1024 + r)) (fun q => nv (j * 1024 + q))
    (fun r q => A (i * 1024 + r) (j * 1024 + q)) (fun r q => M (i * 1024 + r) (j * 1024 + q)) (fun q cc => Hw (j * 1024 + q) cc)

/-- At a later column tile it ends as what it held, rescaled by the exponential of the maximum's change, plus the
    tile's exponentials, shifted by the new maximum, times the widened values. -/
theorem acc_carry_tile (sv nv : ℕ → ℝ) (A M Hw : ℕ → ℕ → ℝ) (i j : ℕ) (μo : ℕ → ℝ) (ao : ℕ → ℕ → ℝ) :
    k0_pay1 (F := Ideal)
        (k0_pay8 (Gat.up2 (fun r _ => sv (i * 1024 + r))) (Gat.up2 (fun _ q => nv (j * 1024 + q)))
          (Gat.up2 (fun r q => M (i * 1024 + r) (j * 1024 + q))) (Gat.up2 (fun r q => A (i * 1024 + r) (j * 1024 + q))) (Gat.up2 (fun r _ => μo r)))
        (k0_pay9 (Gat.up2 (fun r _ => sv (i * 1024 + r))) (Gat.up2 (fun _ q => nv (j * 1024 + q)))
          (Gat.up2 (fun r q => M (i * 1024 + r) (j * 1024 + q))) (Gat.up2 (fun r q => A (i * 1024 + r) (j * 1024 + q))) (Gat.up2 (fun r _ => μo r)) (Gat.up2 (fun r _ => μo r)) (Gat.up2 ao))
        (Gat.up2 (fun q cc => Hw (j * 1024 + q) cc))
      = Gat.up2 fun r cc =>
          Real.exp (μo r - max (μo r) (Gat.tileMax (Gat.score sv nv A M) (i * 1024 + r) j)) * ao r cc
          + ∑ q ∈ Finset.range 1024,
              Real.exp (Gat.score sv nv A M (i * 1024 + r) (j * 1024 + q) - max (μo r) (Gat.tileMax (Gat.score sv nv A M) (i * 1024 + r) j))
                * Hw (j * 1024 + q) cc :=
  acc_carry (fun r => sv (i * 1024 + r)) (fun q => nv (j * 1024 + q))
    (fun r q => A (i * 1024 + r) (j * 1024 + q)) (fun r q => M (i * 1024 + r) (j * 1024 + q)) (fun q cc => Hw (j * 1024 + q) cc) μo ao

/-! ## The same over blocks known only by what they equal -/

theorem max_reset_of (sv nv : ℕ → ℝ) (A M : ℕ → ℕ → ℝ) (i j : ℕ)
    (x0 : Vec Ideal S1024x1 .f32) (x1 : Vec Ideal S1x1024 .f32) (xA xM : Vec Ideal S1024x1024 .f32)
    (e0 : x0 = Gat.up2 (fun r _ => sv (i * 1024 + r))) (e1 : x1 = Gat.up2 (fun _ q => nv (j * 1024 + q)))
    (eA : xA = Gat.up2 (fun r q => A (i * 1024 + r) (j * 1024 + q))) (eM : xM = Gat.up2 (fun r q => M (i * 1024 + r) (j * 1024 + q))) :
    k0_pay2 (F := Ideal) (k0_pay7 (F := Ideal) x0 x1 xM xA (k0_pay4 (F := Ideal)))
      = Gat.up2 fun r _ => Gat.tileMax (Gat.score sv nv A M) (i * 1024 + r) j := by
  subst e0 e1 eA eM; exact max_reset sv nv A M i j

theorem max_carry_of (sv nv : ℕ → ℝ) (A M : ℕ → ℕ → ℝ) (i j : ℕ) (μo : ℕ → ℝ)
    (x0 : Vec Ideal S1024x1 .f32) (x1 : Vec Ideal S1x1024 .f32) (xA xM : Vec Ideal S1024x1024 .f32) (xs0 : Vec Ideal S1024x1 .f32)
    (e0 : x0 = Gat.up2 (fun r _ => sv (i * 1024 + r))) (e1 : x1 = Gat.up2 (fun _ q => nv (j * 1024 + q)))
    (eA : xA = Gat.up2 (fun r q => A (i * 1024 + r) (j * 1024 + q))) (eM : xM = Gat.up2 (fun r q => M (i * 1024 + r) (j * 1024 + q)))
    (es : xs0 = Gat.up2 (fun r _ => μo r)) :
    k0_pay2 (F := Ideal) (k0_pay7 (F := Ideal) x0 x1 xM xA xs0)
      = Gat.up2 fun r _ => max (μo r) (Gat.tileMax (Gat.score sv nv A M) (i * 1024 + r) j) := by
  subst e0 e1 eA eM es; exact max_carry sv nv A M i j μo

theorem acc_reset_of (sv nv : ℕ → ℝ) (A M Hw : ℕ → ℕ → ℝ) (i j : ℕ)
    (x0 : Vec Ideal S1024x1 .f32) (x1 : Vec Ideal S1x1024 .f32) (xA xM : Vec Ideal S1024x1024 .f32) (x4 : Vec Ideal S1024x256 .bf16)
    (e0 : x0 = Gat.up2 (fun r _ => sv (i * 1024 + r))) (e1 : x1 = Gat.up2 (fun _ q => nv (j * 1024 + q)))
    (eA : xA = Gat.up2 (fun r q => A (i * 1024 + r) (j * 1024 + q))) (eM : xM = Gat.up2 (fun r q => M (i * 1024 + r) (j * 1024 + q)))
    (e4 : x4 = Gat.up2 (fun q cc => Hw (j * 1024 + q) cc)) :
    k0_pay1 (F := Ideal) (k0_pay8 x0 x1 xM xA (k0_pay4 (F := Ideal))) (k0_pay9 x0 x1 xM xA (k0_pay4 (F := Ideal)) (k0_pay4 (F := Ideal)) (k0_pay5 (F := Ideal))) x4
      = Gat.up2 fun r cc => ∑ q ∈ Finset.range 1024,
          Real.exp (Gat.score sv nv A M (i * 1024 + r) (j * 1024 + q) - Gat.tileMax (Gat.score sv nv A M) (i * 1024 + r) j)
            * Hw (j * 1024 + q) cc := by
  subst e0 e1 eA eM e4; exact acc_reset_tile sv nv A M Hw i j

theorem acc_carry_of (sv nv : ℕ → ℝ) (A M Hw : ℕ → ℕ → ℝ) (i j : ℕ) (μo : ℕ → ℝ) (ao : ℕ → ℕ → ℝ)
    (x0 : Vec Ideal S1024x1 .f32) (x1 : Vec Ideal S1x1024 .f32) (xA xM : Vec Ideal S1024x1024 .f32) (x4 : Vec Ideal S1024x256 .bf16)
    (xs0 : Vec Ideal S1024x1 .f32) (xs1 : Vec Ideal S1024x256 .f32)
    (e0 : x0 = Gat.up2 (fun r _ => sv (i * 1024 + r))) (e1 : x1 = Gat.up2 (fun _ q => nv (j * 1024 + q)))
    (eA : xA = Gat.up2 (fun r q => A (i * 1024 + r) (j * 1024 + q))) (eM : xM = Gat.up2 (fun r q => M (i * 1024 + r) (j * 1024 + q)))
    (e4 : x4 = Gat.up2 (fun q cc => Hw (j * 1024 + q) cc)) (es0 : xs0 = Gat.up2 (fun r _ => μo r)) (es1 : xs1 = Gat.up2 ao) :
    k0_pay1 (F := Ideal) (k0_pay8 x0 x1 xM xA xs0) (k0_pay9 x0 x1 xM xA xs0 xs0 xs1) x4
      = Gat.up2 fun r cc =>
          Real.exp (μo r - max (μo r) (Gat.tileMax (Gat.score sv nv A M) (i * 1024 + r) j)) * ao r cc
          + ∑ q ∈ Finset.range 1024,
              Real.exp (Gat.score sv nv A M (i * 1024 + r) (j * 1024 + q) - max (μo r) (Gat.tileMax (Gat.score sv nv A M) (i * 1024 + r) j))
                * Hw (j * 1024 + q) cc := by
  subst e0 e1 eA eM e4 es0 es1; exact acc_carry_tile sv nv A M Hw i j μo ao

/-! ## The recurrences of the specification along a row of tiles -/

theorem runMax_step (E : ℕ → ℕ → ℝ) (n : ℕ) (hn : ¬n % 8 = 0) (r : ℕ) :
    max (Gat.runMax E ((n - 1) / 8 * 1024 + r) ((n - 1) % 8)) (Gat.tileMax E (n / 8 * 1024 + r) (n % 8))
      = Gat.runMax E (n / 8 * 1024 + r) (n % 8) := by
  have e1 : (n - 1) / 8 = n / 8 := by omega
  have e2 : n % 8 = (n - 1) % 8 + 1 := by omega
  rw [e1, e2]; rfl

theorem runAcc_step (E Hw : ℕ → ℕ → ℝ) (n : ℕ) (hn : ¬n % 8 = 0) (r cc : ℕ) :
    Real.exp (Gat.runMax E ((n - 1) / 8 * 1024 + r) ((n - 1) % 8)
        - max (Gat.runMax E ((n - 1) / 8 * 1024 + r) ((n - 1) % 8)) (Gat.tileMax E (n / 8 * 1024 + r) (n % 8)))
        * Gat.runAcc E Hw ((n - 1) / 8 * 1024 + r) cc ((n - 1) % 8)
      + ∑ q ∈ Finset.range 1024,
          Real.exp (E (n / 8 * 1024 + r) (n % 8 * 1024 + q)
            - max (Gat.runMax E ((n - 1) / 8 * 1024 + r) ((n - 1) % 8)) (Gat.tileMax E (n / 8 * 1024 + r) (n % 8)))
            * Hw (n % 8 * 1024 + q) cc
      = Gat.runAcc E Hw (n / 8 * 1024 + r) cc (n % 8) := by
  have e1 : (n - 1) / 8 = n / 8 := by omega
  have e2 : n % 8 = (n - 1) % 8 + 1 := by omega
  rw [e1, e2]
  exact (Gat.runAcc_succ E Hw (n / 8 * 1024 + r) cc ((n - 1) % 8)).symm

/-! ## The invariant along the grid -/

/-- The self-attention column, the neighbour-attention column, the masked scores and the widened projection of the
    six argument arrays. -/
abbrev svOf (X W as_ : ℕ → ℕ → ℝ) : ℕ → ℝ := Gat.attnCol (Gat.proj X W) as_
abbrev nvOf (X W an : ℕ → ℕ → ℝ) : ℕ → ℝ := Gat.attnCol (Gat.proj X W) an
abbrev scoreOf (X A M W as_ an : ℕ → ℕ → ℝ) : ℕ → ℕ → ℝ := Gat.score (svOf X W as_) (nvOf X W an) A M
abbrev wideOf (X W : ℕ → ℕ → ℝ) : ℕ → ℕ → ℝ := Gat.wide (Gat.proj X W)

theorem runMax_first (E : ℕ → ℕ → ℝ) (n : ℕ) (hn : n % 8 = 0) (r : ℕ) :
    Gat.tileMax E (n / 8 * 1024 + r) (n % 8) = Gat.runMax E (n / 8 * 1024 + r) (n % 8) := by
  rw [hn]; rfl

theorem runAcc_first (E Hw : ℕ → ℕ → ℝ) (n : ℕ) (hn : n % 8 = 0) (r cc : ℕ) :
    ∑ q ∈ Finset.range 1024, Real.exp (E (n / 8 * 1024 + r) (n % 8 * 1024 + q) - Gat.tileMax E (n / 8 * 1024 + r) (n % 8)) * Hw (n % 8 * 1024 + q) cc
      = Gat.runAcc E Hw (n / 8 * 1024 + r) cc (n % 8) := by
  rw [hn]; exact (Gat.runAcc_zero E Hw (n / 8 * 1024 + r) cc).symm

section
variable (m : (ℓ : Loc nD τ sig) → Buf (Elt Ideal) ℓ) (c : Dev nD) {X A M W as_ an : ℕ → ℕ → ℝ}
variable (h0 : m ((c.tc : Thread nD τ).loc main_arg0) = Gat.up2 X) (h1 : m ((c.tc : Thread nD τ).loc main_arg1) = Gat.up2 A)
  (h2 : m ((c.tc : Thread nD τ).loc main_arg2) = Gat.up2 M) (h3 : m ((c.tc : Thread nD τ).loc main_arg3) = Gat.up2 W)
  (h4 : m ((c.tc : Thread nD τ).loc main_arg4) = Gat.up2 as_) (h5 : m ((c.tc : Thread nD τ).loc main_arg5) = Gat.up2 an)
include h0 h1 h2 h3 h4 h5

/-- After a first column tile the running-maximum column holds the tile maximum and the accumulator the tile's
    shifted exponentials times the widened values, whatever both held before. -/
theorem first_tile (t : Fin cfg0.N) (ht0 : t.val % 8 = 0) :
    (Fr.outsAt0 m c t.val t.isLt).2.1
        = Gat.up2 (fun r _ => Gat.tileMax (scoreOf X A M W as_ an) (t.val / 8 * 1024 + r) (t.val % 8))
    ∧ (Fr.outsAt0 m c t.val t.isLt).2.2
        = Gat.up2 (fun r cc => ∑ q ∈ Finset.range 1024,
            Real.exp (scoreOf X A M W as_ an (t.val / 8 * 1024 + r) (t.val % 8 * 1024 + q)
              - Gat.tileMax (scoreOf X A M W as_ an) (t.val / 8 * 1024 + r) (t.val % 8)) * wideOf X W (t.val % 8 * 1024 + q) cc) := by
  have ht7 : ¬t.val % 8 = 7 := by omega
  have hv1 := V_v1 m c X W as_ h0 h3 h4
  have hv3 := V_v3 m c X W an h0 h3 h5
  have hv7 := V_v7 m c X W h0 h3
  rw [Fr.outsAt0_A m c t ht0 ht7]
  dsimp only
  constructor
  · refine (Fr.sout0_A_0_eq (F := Ideal) c (grid0.coords t) (Fr.ms0_0 t) (Fr.hs0_0 t) (Fr.ms0_1 t) (Fr.hs0_1 t) (Fr.ms0_2 t) (Fr.hs0_2 t) (Fr.ms0_3 t) (Fr.hs0_3 t) (Fr.ms0_4 t) (Fr.hs0_4 t) (Fr.ms0_5 t) (Fr.hs0_5 t) Fr.scM0_0 (Memref.isWhole_whole _) Fr.scM0_1 (Memref.isWhole_whole _) ((Fr.hcond0_0 t).mpr ht0) (fun h => ht7 ((Fr.hcond0_1 t).mp h)) (Fr.iblk m c 0 t) (Fr.iblk m c 1 t) (Fr.iblk m c 2 t) (Fr.iblk m c 3 t) (Fr.iblk m c 4 t)).trans ?_
    exact max_reset_of (svOf X W as_) (nvOf X W an) A M (t.val / 8) (t.val % 8) (Fr.iblk m c 0 t) (Fr.iblk m c 1 t) (Fr.iblk m c 2 t) (Fr.iblk m c 3 t) (iblk0_eq m c (svOf X W as_) hv1 t) (iblk1_eq m c (nvOf X W an) hv3 t) (iblk2_eq m c A h1 t) (iblk3_eq m c M h2 t)
  · refine (Fr.sout0_A_1_eq (F := Ideal) c (grid0.coords t) (Fr.ms0_0 t) (Fr.hs0_0 t) (Fr.ms0_1 t) (Fr.hs0_1 t) (Fr.ms0_2 t) (Fr.hs0_2 t) (Fr.ms0_3 t) (Fr.hs0_3 t) (Fr.ms0_4 t) (Fr.hs0_4 t) (Fr.ms0_5 t) (Fr.hs0_5 t) Fr.scM0_0 (Memref.isWhole_whole _) Fr.scM0_1 (Memref.isWhole_whole _) ((Fr.hcond0_0 t).mpr ht0) (fun h => ht7 ((Fr.hcond0_1 t).mp h)) (Fr.iblk m c 0 t) (Fr.iblk m c 1 t) (Fr.iblk m c 2 t) (Fr.iblk m c 3 t) (Fr.iblk m c 4 t)).trans ?_
    exact acc_reset_of (svOf X W as_) (nvOf X W an) A M (wideOf X W) (t.val / 8) (t.val % 8) (Fr.iblk m c 0 t) (Fr.iblk m c 1 t) (Fr.iblk m c 2 t) (Fr.iblk m c 3 t) (Fr.iblk m c 4 t) (iblk0_eq m c (svOf X W as_) hv1 t) (iblk1_eq m c (nvOf X W an) hv3 t) (iblk2_eq m c A h1 t) (iblk3_eq m c M h2 t) (iblk4_eq m c (wideOf X W) hv7 t)

/-- After a later column tile, over what the point before left. -/
theorem later_tile (t : Fin cfg0.N) (ht0 : ¬t.val % 8 = 0) (μo : ℕ → ℝ) (ao : ℕ → ℕ → ℝ)
    (hμ : (Fr.outsAt0 m c (t.val - 1) (Nat.lt_of_le_of_lt (Nat.sub_le _ _) t.isLt)).2.1 = Gat.up2 (fun r _ => μo r))
    (ha : (Fr.outsAt0 m c (t.val - 1) (Nat.lt_of_le_of_lt (Nat.sub_le _ _) t.isLt)).2.2 = Gat.up2 ao) :
    (Fr.outsAt0 m c t.val t.isLt).2.1
        = Gat.up2 (fun r _ => max (μo r) (Gat.tileMax (scoreOf X A M W as_ an) (t.val / 8 * 1024 + r) (t.val % 8)))
    ∧ (Fr.outsAt0 m c t.val t.isLt).2.2
        = Gat.up2 (fun r cc =>
            Real.exp (μo r - max (μo r) (Gat.tileMax (scoreOf X A M W as_ an) (t.val / 8 * 1024 + r) (t.val % 8))) * ao r cc
            + ∑ q ∈ Finset.range 1024,
                Real.exp (scoreOf X A M W as_ an (t.val / 8 * 1024 + r) (t.val % 8 * 1024 + q)
                  - max (μo r) (Gat.tileMax (scoreOf X A M W as_ an) (t.val / 8 * 1024 + r) (t.val % 8)))
                  * wideOf X W (t.val % 8 * 1024 + q) cc) := by
  have hv1 := V_v1 m c X W as_ h0 h3 h4
  have hv3 := V_v3 m c X W an h0 h3 h5
  have hv7 := V_v7 m c X W h0 h3
  by_cases ht7 : t.val % 8 = 7
  · rw [Fr.outsAt0_C m c t ht0 ht7]
    dsimp only
    constructor
    · refine (Fr.sout0_C_0_eq (F := Ideal) c (grid0.coords t) (Fr.ms0_0 t) (Fr.hs0_0 t) (Fr.ms0_1 t) (Fr.hs0_1 t) (Fr.ms0_2 t) (Fr.hs0_2 t) (Fr.ms0_3 t) (Fr.hs0_3 t) (Fr.ms0_4 t) (Fr.hs0_4 t) (Fr.ms0_5 t) (Fr.hs0_5 t) Fr.scM0_0 (Memref.isWhole_whole _) Fr.scM0_1 (Memref.isWhole_whole _) (fun h => ht0 ((Fr.hcond0_0 t).mp h)) ((Fr.hcond0_1 t).mpr ht7) (Fr.iblk m c 0 t) (Fr.iblk m c 1 t) (Fr.iblk m c 2 t) (Fr.iblk m c 3 t) (Fr.iblk m c 4 t) (Fr.outsAt0 m c (t.val - 1) (Nat.lt_of_le_of_lt (Nat.sub_le _ _) t.isLt)).2.1 (Fr.outsAt0 m c (t.val - 1) (Nat.lt_of_le_of_lt (Nat.sub_le _ _) t.isLt)).2.2).trans ?_
      exact max_carry_of (svOf X W as_) (nvOf X W an) A M (t.val / 8) (t.val % 8) μo (Fr.iblk m c 0 t) (Fr.iblk m c 1 t) (Fr.iblk m c 2 t) (Fr.iblk m c 3 t) (Fr.outsAt0 m c (t.val - 1) (Nat.lt_of_le_of_lt (Nat.sub_le _ _) t.isLt)).2.1 (iblk0_eq m c (svOf X W as_) hv1 t) (iblk1_eq m c (nvOf X W an) hv3 t) (iblk2_eq m c A h1 t) (iblk3_eq m c M h2 t) hμ
    · refine (Fr.sout0_C_1_eq (F := Ideal) c (grid0.coords t) (Fr.ms0_0 t) (Fr.hs0_0 t) (Fr.ms0_1 t) (Fr.hs0_1 t) (Fr.ms0_2 t) (Fr.hs0_2 t) (Fr.ms0_3 t) (Fr.hs0_3 t) (Fr.ms0_4 t) (Fr.hs0_4 t) (Fr.ms0_5 t) (Fr.hs0_5 t) Fr.scM0_0 (Memref.isWhole_whole _) Fr.scM0_1 (Memref.isWhole_whole _) (fun h => ht0 ((Fr.hcond0_0 t).mp h)) ((Fr.hcond0_1 t).mpr ht7) (Fr.iblk m c 0 t) (Fr.iblk m c 1 t) (Fr.iblk m c 2 t) (Fr.iblk m c 3 t) (Fr.iblk m c 4 t) (Fr.outsAt0 m c (t.val - 1) (Nat.lt_of_le_of_lt (Nat.sub_le _ _) t.isLt)).2.1 (Fr.outsAt0 m c (t.val - 1) (Nat.lt_of_le_of_lt (Nat.sub_le _ _) t.isLt)).2.2).trans ?_
      exact acc_carry_of (svOf X W as_) (nvOf X W an) A M (wideOf X W) (t.val / 8) (t.val % 8) μo ao (Fr.iblk m c 0 t) (Fr.iblk m c 1 t) (Fr.iblk m c 2 t) (Fr.iblk m c 3 t) (Fr.iblk m c 4 t) (Fr.outsAt0 m c (t.val - 1) (Nat.lt_of_le_of_lt (Nat.sub_le _ _) t.isLt)).2.1 (Fr.outsAt0 m c (t.val - 1) (Nat.lt_of_le_of_lt (Nat.sub_le _ _) t.isLt)).2.2 (iblk0_eq m c (svOf X W as_) hv1 t) (iblk1_eq m c (nvOf X W an) hv3 t) (iblk2_eq m c A h1 t) (iblk3_eq m c M h2 t) (iblk4_eq m c (wideOf X W) hv7 t) hμ ha
  · rw [Fr.outsAt0_B m c t ht0 ht7]
    dsimp only
    constructor
    · refine (Fr.sout0_B_0_eq (F := Ideal) c (grid0.coords t) (Fr.ms0_0 t) (Fr.hs0_0 t) (Fr.ms0_1 t) (Fr.hs0_1 t) (Fr.ms0_2 t) (Fr.hs0_2 t) (Fr.ms0_3 t) (Fr.hs0_3 t) (Fr.ms0_4 t) (Fr.hs0_4 t) (Fr.ms0_5 t) (Fr.hs0_5 t) Fr.scM0_0 (Memref.isWhole_whole _) Fr.scM0_1 (Memref.isWhole_whole _) (fun h => ht0 ((Fr.hcond0_0 t).mp h)) (fun h => ht7 ((Fr.hcond0_1 t).mp h)) (Fr.iblk m c 0 t) (Fr.iblk m c 1 t) (Fr.iblk m c 2 t) (Fr.iblk m c 3 t) (Fr.iblk m c 4 t) (Fr.outsAt0 m c (t.val - 1) (Nat.lt_of_le_of_lt (Nat.sub_le _ _) t.isLt)).2.1 (Fr.outsAt0 m c (t.val - 1) (Nat.lt_of_le_of_lt (Nat.sub_le _ _) t.isLt)).2.2).trans ?_
      exact max_carry_of (svOf X W as_) (nvOf X W an) A M (t.val / 8) (t.val % 8) μo (Fr.iblk m c 0 t) (Fr.iblk m c 1 t) (Fr.iblk m c 2 t) (Fr.iblk m c 3 t) (Fr.outsAt0 m c (t.val - 1) (Nat.lt_of_le_of_lt (Nat.sub_le _ _) t.isLt)).2.1 (iblk0_eq m c (svOf X W as_) hv1 t) (iblk1_eq m c (nvOf X W an) hv3 t) (iblk2_eq m c A h1 t) (iblk3_eq m c M h2 t) hμ
    · refine (Fr.sout0_B_1_eq (F := Ideal) c (grid0.coords t) (Fr.ms0_0 t) (Fr.hs0_0 t) (Fr.ms0_1 t) (Fr.hs0_1 t) (Fr.ms0_2 t) (Fr.hs0_2 t) (Fr.ms0_3 t) (Fr.hs0_3 t) (Fr.ms0_4 t) (Fr.hs0_4 t) (Fr.ms0_5 t) (Fr.hs0_5 t) Fr.scM0_0 (Memref.isWhole_whole _) Fr.scM0_1 (Memref.isWhole_whole _) (fun h => ht0 ((Fr.hcond0_0 t).mp h)) (fun h => ht7 ((Fr.hcond0_1 t).mp h)) (Fr.iblk m c 0 t) (Fr.iblk m c 1 t) (Fr.iblk m c 2 t) (Fr.iblk m c 3 t) (Fr.iblk m c 4 t) (Fr.outsAt0 m c (t.val - 1) (Nat.lt_of_le_of_lt (Nat.sub_le _ _) t.isLt)).2.1 (Fr.outsAt0 m c (t.val - 1) (Nat.lt_of_le_of_lt (Nat.sub_le _ _) t.isLt)).2.2).trans ?_
      exact acc_carry_of (svOf X W as_) (nvOf X W an) A M (wideOf X W) (t.val / 8) (t.val % 8) μo ao (Fr.iblk m c 0 t) (Fr.iblk m c 1 t) (Fr.iblk m c 2 t) (Fr.iblk m c 3 t) (Fr.iblk m c 4 t) (Fr.outsAt0 m c (t.val - 1) (Nat.lt_of_le_of_lt (Nat.sub_le _ _) t.isLt)).2.1 (Fr.outsAt0 m c (t.val - 1) (Nat.lt_of_le_of_lt (Nat.sub_le _ _) t.isLt)).2.2 (iblk0_eq m c (svOf X W as_) hv1 t) (iblk1_eq m c (nvOf X W an) hv3 t) (iblk2_eq m c A h1 t) (iblk3_eq m c M h2 t) (iblk4_eq m c (wideOf X W) hv7 t) hμ ha

/-- THE INVARIANT: after grid point n (row tile n / 8, column tile n % 8) the running-maximum scratch holds the
    specification's running maximum of the row tile's rows after column tiles 0 … n % 8, and the accumulator scratch
    the specification's streamed accumulator. -/
theorem scratch_inv : ∀ (n : ℕ) (h : n < cfg0.N),
    (Fr.outsAt0 m c n h).2.1 = Gat.up2 (fun r _ => Gat.runMax (scoreOf X A M W as_ an) (n / 8 * 1024 + r) (n % 8))
    ∧ (Fr.outsAt0 m c n h).2.2 = Gat.up2 (fun r cc => Gat.runAcc (scoreOf X A M W as_ an) (wideOf X W) (n / 8 * 1024 + r) cc (n % 8)) := by
  intro n
  induction n using Nat.strong_induction_on with
  | _ n ih =>
    intro h
    by_cases hn : n % 8 = 0
    · obtain ⟨e1, e2⟩ := first_tile m c h0 h1 h2 h3 h4 h5 ⟨n, h⟩ hn
      exact ⟨e1.trans (congrArg (Gat.up2 (n0 := 1024) (n1 := 1)) (funext fun r => funext fun _ => runMax_first _ n hn r)),
        e2.trans (congrArg (Gat.up2 (n0 := 1024) (n1 := 256)) (funext fun r => funext fun cc => runAcc_first _ _ n hn r cc))⟩
    · obtain ⟨i1, i2⟩ := ih (n - 1) (by omega) (Nat.lt_of_le_of_lt (Nat.sub_le _ _) h)
      obtain ⟨e1, e2⟩ := later_tile m c h0 h1 h2 h3 h4 h5 ⟨n, h⟩ hn
        (fun r => Gat.runMax (scoreOf X A M W as_ an) ((n - 1) / 8 * 1024 + r) ((n - 1) % 8))
        (fun r cc => Gat.runAcc (scoreOf X A M W as_ an) (wideOf X W) ((n - 1) / 8 * 1024 + r) cc ((n - 1) % 8)) i1 i2
      exact ⟨e1.trans (congrArg (Gat.up2 (n0 := 1024) (n1 := 1)) (funext fun r => funext fun _ => runMax_step _ n hn r)),
        e2.trans (congrArg (Gat.up2 (n0 := 1024) (n1 := 256)) (funext fun r => funext fun cc => runAcc_step _ _ n hn r cc))⟩

/-- At a last column tile the output block holds the layer's result on the row tile's rows: the quotient of the
    accumulator's first 128 columns by its column 128 (the positive sum of the shifted exponentials) is the
    exp-weighted mean, whatever the shift, and the ELU of it is the result. -/
theorem out_last (t : Fin cfg0.N) (h7 : t.val % 8 = 7) :
    (Fr.outsAt0 m c t.val t.isLt).1 = Gat.up2 fun r cc => Gat.result X A M W as_ an (t.val / 8 * 1024 + r) cc := by
  have ht0 : ¬t.val % 8 = 0 := by omega
  have ht7 : t.val % 8 = 7 := h7
  have hv1 := V_v1 m c X W as_ h0 h3 h4
  have hv3 := V_v3 m c X W an h0 h3 h5
  have hv7 := V_v7 m c X W h0 h3
  obtain ⟨i1, i2⟩ := scratch_inv m c h0 h1 h2 h3 h4 h5 (t.val - 1) (Nat.lt_of_le_of_lt (Nat.sub_le _ _) t.isLt)
  -- the accumulator this point leaves is the specification's after the last tile
  have hacc : k0_pay1 (F := Ideal) (k0_pay8 (Fr.iblk m c 0 t) (Fr.iblk m c 1 t) (Fr.iblk m c 3 t) (Fr.iblk m c 2 t) (Fr.outsAt0 m c (t.val - 1) (Nat.lt_of_le_of_lt (Nat.sub_le _ _) t.isLt)).2.1)
        (k0_pay9 (Fr.iblk m c 0 t) (Fr.iblk m c 1 t) (Fr.iblk m c 3 t) (Fr.iblk m c 2 t) (Fr.outsAt0 m c (t.val - 1) (Nat.lt_of_le_of_lt (Nat.sub_le _ _) t.isLt)).2.1 (Fr.outsAt0 m c (t.val - 1) (Nat.lt_of_le_of_lt (Nat.sub_le _ _) t.isLt)).2.1 (Fr.outsAt0 m c (t.val - 1) (Nat.lt_of_le_of_lt (Nat.sub_le _ _) t.isLt)).2.2) (Fr.iblk m c 4 t)
      = Gat.up2 (fun r cc => Gat.runAcc (scoreOf X A M W as_ an) (wideOf X W) (t.val / 8 * 1024 + r) cc 7) :=
    (acc_carry_of (svOf X W as_) (nvOf X W an) A M (wideOf X W) (t.val / 8) (t.val % 8)
      (fun r => Gat.runMax (scoreOf X A M W as_ an) ((t.val - 1) / 8 * 1024 + r) ((t.val - 1) % 8))
      (fun r cc => Gat.runAcc (scoreOf X A M W as_ an) (wideOf X W) ((t.val - 1) / 8 * 1024 + r) cc ((t.val - 1) % 8))
      (Fr.iblk m c 0 t) (Fr.iblk m c 1 t) (Fr.iblk m c 2 t) (Fr.iblk m c 3 t) (Fr.iblk m c 4 t) (Fr.outsAt0 m c (t.val - 1) (Nat.lt_of_le_of_lt (Nat.sub_le _ _) t.isLt)).2.1 (Fr.outsAt0 m c (t.val - 1) (Nat.lt_of_le_of_lt (Nat.sub_le _ _) t.isLt)).2.2 (iblk0_eq m c (svOf X W as_) hv1 t) (iblk1_eq m c (nvOf X W an) hv3 t) (iblk2_eq m c A h1 t) (iblk3_eq m c M h2 t) (iblk4_eq m c (wideOf X W) hv7 t) i1 i2).trans
      (congrArg (Gat.up2 (n0 := 1024) (n1 := 256)) (funext fun r => funext fun cc =>
        (runAcc_step (scoreOf X A M W as_ an) (wideOf X W) t.val ht0 r cc).trans (by rw [h7])))
  rw [Fr.outsAt0_C m c t ht0 ht7]
  dsimp only
  refine (Fr.out0_C_5_eq (F := Ideal) c (grid0.coords t) (Fr.ms0_0 t) (Fr.hs0_0 t) (Fr.ms0_1 t) (Fr.hs0_1 t) (Fr.ms0_2 t) (Fr.hs0_2 t) (Fr.ms0_3 t) (Fr.hs0_3 t) (Fr.ms0_4 t) (Fr.hs0_4 t) (Fr.ms0_5 t) (Fr.hs0_5 t) Fr.scM0_0 (Memref.isWhole_whole _) Fr.scM0_1 (Memref.isWhole_whole _) (fun h => ht0 ((Fr.hcond0_0 t).mp h)) ((Fr.hcond0_1 t).mpr ht7) (Fr.iblk m c 0 t) (Fr.iblk m c 1 t) (Fr.iblk m c 2 t) (Fr.iblk m c 3 t) (Fr.iblk m c 4 t) (Fr.outsAt0 m c (t.val - 1) (Nat.lt_of_le_of_lt (Nat.sub_le _ _) t.isLt)).2.1 (Fr.outsAt0 m c (t.val - 1) (Nat.lt_of_le_of_lt (Nat.sub_le _ _) t.isLt)).2.2).trans ?_
  refine (congrArg (k0_pay3 (F := Ideal)) hacc).trans ?_
  refine (pay3_up2 (fun r cc => Gat.runAcc (scoreOf X A M W as_ an) (wideOf X W) (t.val / 8 * 1024 + r) cc 7)
    (fun r => (Gat.runAcc_den_pos (scoreOf X A M W as_ an) (Gat.proj X W) (t.val / 8 * 1024 + r)).ne')).trans ?_
  funext j
  obtain ⟨p, q, rfl⟩ : ∃ (p : Fin 1024) (q : Fin 128), j = ValueIdx.ix2 p q := ⟨j 0, j 1, ValueIdx.eq_ix2 j⟩
  rw [Gat.up2_ix2, Gat.up2_ix2]
  exact congrArg (fun y : ℝ => ((Gat.elu y : ℝ) : EReal))
    (Gat.attn_of_runAcc (scoreOf X A M W as_ an) (Gat.proj X W) (t.val / 8 * 1024 + p.val) q.val q.isLt)

/-- The result array after the whole grid is the layer's result. -/
theorem final_v8 : (Fr.dats m 0 c).arrAt 5 cfg0.N = Gat.up2 (Gat.result X A M W as_ an) :=
  final5 m c (Gat.result X A M W as_ an) (out_last m c h0 h1 h2 h3 h4 h5)

end

/-- THE RUN: from any memory whose six argument arrays are (the images of) real matrices, with zero counters, every
    weakly fair execution of the program on the TensorCores terminates; every final state has the result array at the
    layer's result of those matrices and the six argument arrays as the program was started. -/
theorem run (m : (ℓ : Loc nD τ sig) → Buf (Elt Ideal) ℓ) (ρ : Dev nD → PrngReg) (X A M W as_ an : Dev nD → ℕ → ℕ → ℝ)
    (h0 : ∀ c : Dev nD, m ((c.tc : Thread nD τ).loc main_arg0) = Gat.up2 (X c))
    (h1 : ∀ c : Dev nD, m ((c.tc : Thread nD τ).loc main_arg1) = Gat.up2 (A c))
    (h2 : ∀ c : Dev nD, m ((c.tc : Thread nD τ).loc main_arg2) = Gat.up2 (M c))
    (h3 : ∀ c : Dev nD, m ((c.tc : Thread nD τ).loc main_arg3) = Gat.up2 (W c))
    (h4 : ∀ c : Dev nD, m ((c.tc : Thread nD τ).loc main_arg4) = Gat.up2 (as_ c))
    (h5 : ∀ c : Dev nD, m ((c.tc : Thread nD τ).loc main_arg5) = Gat.up2 (an c)) :
    θ_run defs (onTc (τ := τ) (main (F := Ideal))) ⟨m, fun _ => 0, ρ⟩ (fun r => ∀ c : Dev nD,
      r.2.mem ((c.tc : Thread nD τ).loc main_v8) = Gat.up2 (Gat.result (X c) (A c) (M c) (W c) (as_ c) (an c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 5).trans (final_v8 m c (h0 c) (h1 c) (h2 c) (h3 c) (h4 c) (h5 c)),
      ((h c).2 main_arg0 (Pipeline.mem_restRefs_of main_arg0 (by decide) (by decide))).trans (Fr.V_main_arg0 m c),
      ((h c).1 2).trans (((Fr.dats m 0 c).arrAt_in 2 rfl _).trans ((Fr.A_eq m c 2).trans (Fr.V_main_arg1 m c))),
      ((h c).1 3).trans (((Fr.dats m 0 c).arrAt_in 3 rfl _).trans ((Fr.A_eq m c 3).trans (Fr.V_main_arg2 m c))),
      ((h c).2 main_arg3 (Pipeline.mem_restRefs_of main_arg3 (by decide) (by decide))).trans (Fr.V_main_arg3 m c),
      ((h c).2 main_arg4 (Pipeline.mem_restRefs_of main_arg4 (by decide) (by decide))).trans (Fr.V_main_arg4 m c),
      ((h c).2 main_arg5 (Pipeline.mem_restRefs_of main_arg5 (by decide) (by decide))).trans (Fr.V_main_arg5 m c)⟩)
    (Fr.run_main m ρ)

end Cert.KernelIdeal.Val
end
-- ==== Proof.RefOut.lean ====
/-
  The reference program's result as ONE term of its six argument arrays, at any float instance: its host operations
  composed in program order (the calls to the rectifier, the two selections and the ELU opened at their call sites).
  H = X·W; the two attention columns; the scores (s r + n k)·M through the rectifier written as a selection on x ≥ 0,
  masked by the adjacency with the large negative constant; the row maximum subtracted, exponentiated, divided by the
  row sum; the product with H; the ELU written with exp(x) − 1 of a guarded argument, times one, under a selection.
-/
import proofs.«429846_j4741643895566_3_alg».proof.ReferenceIdeal
import proofs.«429846_j4741643895566_3_alg».proof.Proof.Gen.ReferenceIdeal

noncomputable section

namespace Cert.ReferenceIdeal.Hand

open Idealize.ShloMosaic Idealize.SL.Sem
open Cert.ReferenceIdeal Cert.ReferenceIdeal.Gen

variable {F : FTy → Type} [FloatOps F]

/-- The masked scores: one 8192 × 8192 array. -/
def refScores (x0 : FVec F S8192x512 .f32) (x1 x2 : FVec F S8192x8192 .f32) (x3 : FVec F S512x128 .f32) (x4 x5 : FVec F S128x1 .f32) :
    FVec F S8192x8192 .f32 :=
  let v0 : FVec F S8192x128 .f32 := Host.dotGeneral dot_S8192x512_S512x128_S8192x128_1_0_0_1_n_n none x0 x3
  let v1 : FVec F S8192x1 .f32 := Host.dotGeneral dot_S8192x128_S128x1_S8192x1_1_0_0_1_n_n none v0 x4
  let v2 : FVec F S8192x1 .f32 := Host.dotGeneral dot_S8192x128_S128x1_S8192x1_1_0_0_1_n_n none v0 x5
  let v3 : FVec F S1x8192 .f32 := transpose S1x8192 [1, 0] v2 transposes_S8192x1_S1x8192_1_0
  let v4 : FVec F S8192x8192 .f32 := broadcastInDim S8192x8192 ![0, 1] bcast_S8192x1_S8192x8192_0_1 v1
  let v5 : FVec F S8192x8192 .f32 := broadcastInDim S8192x8192 ![0, 1] bcast_S1x8192_S8192x8192_0_1 v3
  let v6 : FVec F S8192x8192 .f32 := addf v4 v5
  let v7 : FVec F S8192x8192 .f32 := mulf v6 x2
  let cst : FVec F S_ .f32 := constant S_ .f32 0x3E4CCCCD#32
  let c0v0 : FVec F S8192x8192 .f32 := broadcastInDim S8192x8192 ![] bcast_S_S8192x8192 (constant S_ .f32 0x00000000#32)
  let c0v1 : IVec S8192x8192 1 := cmpf .oge v7 c0v0
  let c0v3 : FVec F S8192x8192 .f32 := broadcastInDim S8192x8192 ![] bcast_S_S8192x8192 (id cst)
  let c0v4 : FVec F S8192x8192 .f32 := mulf c0v3 v7
  let v8 : FVec F S8192x8192 .f32 := select c0v1 v7 c0v4
  let v9 : FVec F S8192x8192 .f32 := broadcastInDim S8192x8192 ![] bcast_S_S8192x8192 (constant S_ .f32 0x00000000#32)
  let v10 : IVec S8192x8192 1 := cmpf .ogt x1 v9
  let c1v0 : FVec F S8192x8192 .f32 := broadcastInDim S8192x8192 ![] bcast_S_S8192x8192 (constant S_ .f32 0xD9FFCB9E#32)
  select v10 v8 c1v0

/-- The reference's result. -/
def refOut (x0 : FVec F S8192x512 .f32) (x1 x2 : FVec F S8192x8192 .f32) (x3 : FVec F S512x128 .f32) (x4 x5 : FVec F S128x1 .f32) :
    FVec F S8192x128 .f32 :=
  let v0 : FVec F S8192x128 .f32 := Host.dotGeneral dot_S8192x512_S512x128_S8192x128_1_0_0_1_n_n none x0 x3
  let v11 : FVec F S8192x8192 .f32 := refScores x0 x1 x2 x3 x4 x5
  let v12 : FVec F S8192 .f32 := Host.reduce FloatOps.maximumf v11 (constant S_ .f32 0xFF800000#32) reducesTo_S8192x8192_S8192_d1 h_S_
  let v13 : FVec F S8192 .f32 := broadcastInDim S8192 ![] bcast_S_S8192 (constant S_ .f32 0xFF800000#32)
  let v14 : FVec F S8192 .f32 := maximumf v13 v12
  let v15 : FVec F S8192x1 .f32 := broadcastInDim S8192x1 ![0] bcast_S8192_S8192x1_0 v14
  let v16 : FVec F S8192x8192 .f32 := broadcastInDim S8192x8192 ![0, 1] bcast_S8192x1_S8192x8192_0_1 v15
  let v17 : FVec F S8192x8192 .f32 := subf v11 v16
  let v18 : FVec F S8192x8192 .f32 := Host.exp v17
  let v19 : FVec F S8192 .f32 := Host.reduceAdd v18 (constant S_ .f32 0x00000000#32) reducesTo_S8192x8192_S8192_d1 h_S_
  let v20 : FVec F S8192x1 .f32 := broadcastInDim S8192x1 ![0] bcast_S8192_S8192x1_0 v19
  let v21 : FVec F S8192x8192 .f32 := broadcastInDim S8192x8192 ![0, 1] bcast_S8192x1_S8192x8192_0_1 v20
  let v22 : FVec F S8192x8192 .f32 := Host.divf v18 v21
  let v23 : FVec F S8192x128 .f32 := Host.dotGeneral dot_S8192x8192_S8192x128_S8192x128_1_0_0_1_n_n none v22 v0
  let zero : FVec F S8192x128 .f32 := broadcastInDim S8192x128 ![] bcast_S_S8192x128 (constant S_ .f32 0x00000000#32)
  let c2v1 : IVec S8192x128 1 := cmpf .ogt v23 zero
  let c2v3 : IVec S8192x128 1 := cmpf .ogt v23 zero
  let c2c0v1 : FVec F S8192x128 .f32 := broadcastInDim S8192x128 ![] bcast_S_S8192x128 (id (constant S_ .f32 0x00000000#32))
  let c2v4 : FVec F S8192x128 .f32 := select c2v3 c2c0v1 v23
  let c2v5 : FVec F S8192x128 .f32 := Host.expm1 c2v4
  let c2v6 : FVec F S8192x128 .f32 := broadcastInDim S8192x128 ![] bcast_S_S8192x128 (constant S_ .f32 0x3F800000#32)
  let c2v7 : FVec F S8192x128 .f32 := mulf c2v6 c2v5
  select c2v1 v23 c2v7

end Cert.ReferenceIdeal.Hand

end
-- ==== Proof.RefRun.lean ====
/-
  The reference program's run.  Its entry function is a straight line of 52 array operations once the calls it makes
  are opened where they stand: the leaky rectifier (a comparison with zero, the slope times the argument, and a
  selection, itself a call), the masking selection against the large negative constant, and the ELU (two comparisons
  with zero, a guarded argument chosen by a selection, exp(x) − 1, the product with one, and the final selection).
  Listed in program order the operations compose to one function of the six argument arrays — the projection H = X·W,
  the two attention columns, the masked scores, their row-wise softmax applied to H, the ELU — and that function is
  `refOut`.  Proved here: the entry function equals the line; the line's fold at the result buffer is `refOut` of the
  argument buffers' contents and at each argument buffer is what was there; hence every weakly fair execution from a
  memory with zero counters terminates with the result `refOut` of the launch contents and the six arguments unchanged.
  The statement is over any float values: nothing is evaluated, the contractions and the row reductions stay folded.
-/
import proofs.«429846_j4741643895566_3_alg».proof.Proof.RefOut
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The entry function's 52 operations in program order, each call replaced by its callee's operations over that call's
    own buffers: nine of the entry function's own (three contractions, a transposition, two broadcasts, a sum, a product,
    the slope), the rectifier's seven (the last its selection), the adjacency's comparison with zero (three) and the
    large negative constant, the masking selection's two, the softmax's fifteen (row maximum, subtraction, exponential,
    row sum, quotient, the contraction with H), the ELU's fifteen (of which the guarded argument's three and the final
    selection are calls). -/
abbrev ops : List (HloOp τ sig (Elt F)) :=
  [ binary main_arg0 main_arg3 main_v0 ((fun l r => Host.dotGeneral dot_S8192x512_S512x128_S8192x128_1_0_0_1_n_n none l r) : (⟨S8192x512, .f32⟩ : BufTy).Contents (Elt F) → (⟨S512x128, .f32⟩ : BufTy).Contents (Elt F) → (⟨S8192x128, .f32⟩ : BufTy).Contents (Elt F)),
    binary main_v0 main_arg4 main_v1 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    binary main_v0 main_arg5 main_v2 ((fun l r => Host.dotGeneral dot_S8192x128_S128x1_S8192x1_1_0_0_1_n_n none l r) : (⟨S8192x128, .f32⟩ : BufTy).Contents (Elt F) → (⟨S128x1, .f32⟩ : BufTy).Contents (Elt F) → (⟨S8192x1, .f32⟩ : BufTy).Contents (Elt F)),
    unary main_v2 main_v3 ((transpose S1x8192 [1, 0] · transposes_S8192x1_S1x8192_1_0) : (⟨S8192x1, .f32⟩ : BufTy).Contents (Elt F) → (⟨S1x8192, .f32⟩ : BufTy).Contents (Elt F)),
    unary main_v1 main_v4 (broadcastInDim S8192x8192 ![0, 1] bcast_S8192x1_S8192x8192_0_1 : (⟨S8192x1, .f32⟩ : BufTy).Contents (Elt F) → (⟨S8192x8192, .f32⟩ : BufTy).Contents (Elt F)),
    unary main_v3 main_v5 (broadcastInDim S8192x8192 ![0, 1] bcast_S1x8192_S8192x8192_0_1 : (⟨S1x8192, .f32⟩ : BufTy).Contents (Elt F) → (⟨S8192x8192, .f32⟩ : BufTy).Contents (Elt F)),
    binary main_v4 main_v5 main_v6 (addf : (⟨S8192x8192, .f32⟩ : BufTy).Contents (Elt F) → (⟨S8192x8192, .f32⟩ : BufTy).Contents (Elt F) → (⟨S8192x8192, .f32⟩ : BufTy).Contents (Elt F)),
    binary main_v6 main_arg2 main_v7 (mulf : (⟨S8192x8192, .f32⟩ : BufTy).Contents (Elt F) → (⟨S8192x8192, .f32⟩ : BufTy).Contents (Elt F) → (⟨S8192x8192, .f32⟩ : BufTy).Contents (Elt F)),
    nullary main_cst (constant S_ .f32 0x3E4CCCCD#32),
    TRef.nullary main_call0.cst (constant S_ .f32 0x00000000#32 : (⟨S_, .f32⟩ : BufTy).Contents (Elt F)),
    TRef.unary main_call0.cst main_call0.v0 (broadcastInDim S8192x8192 ![] bcast_S_S8192x8192 : (⟨S_, .f32⟩ : BufTy).Contents (Elt F) → (⟨S8192x8192, .f32⟩ : BufTy).Contents (Elt F)),
    TRef.binary (.of main_v7 : TRef sig ⟨S8192x8192, .f32⟩) main_call0.v0 main_call0.v1 (cmpf .oge : (⟨S8192x8192, .f32⟩ : BufTy).Contents (Elt F) → (⟨S8192x8192, .f32⟩ : BufTy).Contents (Elt F) → (⟨S8192x8192, .i1⟩ : BufTy).Contents (Elt F)),
    TRef.unary (.of main_cst : TRef sig ⟨S_, .f32⟩) main_call0.v2 (id : (⟨S_, .f32⟩ : BufTy).Contents (Elt F) → (⟨S_, .f32⟩ : BufTy).Contents (Elt F)),
    TRef.unary main_call0.v2 main_call0.v3 (broadcastInDim S8192x8192 ![] bcast_S_S8192x8192 : (⟨S_, .f32⟩ : BufTy).Contents (Elt F) → (⟨S8192x8192, .f32⟩ : BufTy).Contents (Elt F)),
    TRef.binary main_call0.v3 (.of main_v7 : TRef sig ⟨S8192x8192, .f32⟩) main_call0.v4 (mulf : (⟨S8192x8192, .f32⟩ : BufTy).Contents (Elt F) → (⟨S8192x8192, .f32⟩ : BufTy).Contents (Elt F) → (⟨S8192x8192, .f32⟩ : BufTy).Contents (Elt F)),
    TRef.ternary main_call0.v1 (.of main_v7 : TRef sig ⟨S8192x8192, .f32⟩) main_call0.v4 main_call0_call0.v0 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_0 (constant S_ .f32 0x00000000#32),
    unary main_cst_0 main_v9 (broadcastInDim S8192x8192 ![] bcast_S_S8192x8192 : (⟨S_, .f32⟩ : BufTy).Contents (Elt F) → (⟨S8192x8192, .f32⟩ : BufTy).Contents (Elt F)),
    binary main_arg1 main_v9 main_v10 (cmpf .ogt : (⟨S8192x8192, .f32⟩ : BufTy).Contents (Elt F) → (⟨S8192x8192, .f32⟩ : BufTy).Contents (Elt F) → (⟨S8192x8192, .i1⟩ : BufTy).Contents (Elt F)),
    nullary main_cst_1 (constant S_ .f32 0xD9FFCB9E#32),
    TRef.unary (.of main_cst_1 : TRef sig ⟨S_, .f32⟩) main_call1.v0 (broadcastInDim S8192x8192 ![] bcast_S_S8192x8192 : (⟨S_, .f32⟩ : BufTy).Contents (Elt F) → (⟨S8192x8192, .f32⟩ : BufTy).Contents (Elt F)),
    TRef.ternary (.of main_v10 : TRef sig ⟨S8192x8192, .i1⟩) (.of main_v8 : TRef sig ⟨S8192x8192, .f32⟩) main_call1.v0 main_call1.v1 (select : (⟨S8192x8192, .i1⟩ : BufTy).Contents (Elt F) → (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0xFF800000#32),
    binary main_v11 main_cst_2 main_v12 ((fun x v => Host.reduce FloatOps.maximumf x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    nullary main_cst_3 (constant S_ .f32 0xFF800000#32),
    unary main_cst_3 main_v13 (broadcastInDim S8192 ![] bcast_S_S8192 : (⟨S_, .f32⟩ : BufTy).Contents (Elt F) → (⟨S8192, .f32⟩ : BufTy).Contents (Elt F)),
    binary main_v13 main_v12 main_v14 (maximumf : (⟨S8192, .f32⟩ : BufTy).Contents (Elt F) → (⟨S8192, .f32⟩ : BufTy).Contents (Elt F) → (⟨S8192, .f32⟩ : BufTy).Contents (Elt F)),
    unary main_v14 main_v15 (broadcastInDim S8192x1 ![0] bcast_S8192_S8192x1_0 : (⟨S8192, .f32⟩ : BufTy).Contents (Elt F) → (⟨S8192x1, .f32⟩ : BufTy).Contents (Elt F)),
    unary main_v15 main_v16 (broadcastInDim S8192x8192 ![0, 1] bcast_S8192x1_S8192x8192_0_1 : (⟨S8192x1, .f32⟩ : BufTy).Contents (Elt F) → (⟨S8192x8192, .f32⟩ : BufTy).Contents (Elt F)),
    binary main_v11 main_v16 main_v17 (subf : (⟨S8192x8192, .f32⟩ : BufTy).Contents (Elt F) → (⟨S8192x8192, .f32⟩ : BufTy).Contents (Elt F) → (⟨S8192x8192, .f32⟩ : BufTy).Contents (Elt F)),
    unary main_v17 main_v18 (Host.exp : (⟨S8192x8192, .f32⟩ : BufTy).Contents (Elt F) → (⟨S8192x8192, .f32⟩ : BufTy).Contents (Elt F)),
    nullary main_cst_4 (constant S_ .f32 0x00000000#32),
    binary main_v18 main_cst_4 main_v19 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    unary main_v19 main_v20 (broadcastInDim S8192x1 ![0] bcast_S8192_S8192x1_0 : (⟨S8192, .f32⟩ : BufTy).Contents (Elt F) → (⟨S8192x1, .f32⟩ : BufTy).Contents (Elt F)),
    unary main_v20 main_v21 (broadcastInDim S8192x8192 ![0, 1] bcast_S8192x1_S8192x8192_0_1 : (⟨S8192x1, .f32⟩ : BufTy).Contents (Elt F) → (⟨S8192x8192, .f32⟩ : BufTy).Contents (Elt F)),
    binary main_v18 main_v21 main_v22 (Host.divf : (⟨S8192x8192, .f32⟩ : BufTy).Contents (Elt F) → (⟨S8192x8192, .f32⟩ : BufTy).Contents (Elt F) → (⟨S8192x8192, .f32⟩ : BufTy).Contents (Elt F)),
    binary main_v22 main_v0 main_v23 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    TRef.nullary main_call2.cst (constant S_ .f32 0x00000000#32 : (⟨S_, .f32⟩ : BufTy).Contents (Elt F)),
    TRef.unary main_call2.cst main_call2.v0 (broadcastInDim S8192x128 ![] bcast_S_S8192x128 : (⟨S_, .f32⟩ : BufTy).Contents (Elt F) → (⟨S8192x128, .f32⟩ : BufTy).Contents (Elt F)),
    TRef.binary (.of main_v23 : TRef sig ⟨S8192x128, .f32⟩) main_call2.v0 main_call2.v1 (cmpf .ogt : (⟨S8192x128, .f32⟩ : BufTy).Contents (Elt F) → (⟨S8192x128, .f32⟩ : BufTy).Contents (Elt F) → (⟨S8192x128, .i1⟩ : BufTy).Contents (Elt F)),
    TRef.nullary main_call2.cst_0 (constant S_ .f32 0x00000000#32 : (⟨S_, .f32⟩ : BufTy).Contents (Elt F)),
    TRef.unary main_call2.cst_0 main_call2.v2 (broadcastInDim S8192x128 ![] bcast_S_S8192x128 : (⟨S_, .f32⟩ : BufTy).Contents (Elt F) → (⟨S8192x128, .f32⟩ : BufTy).Contents (Elt F)),
    TRef.binary (.of main_v23 : TRef sig ⟨S8192x128, .f32⟩) main_call2.v2 main_call2.v3 (cmpf .ogt : (⟨S8192x128, .f32⟩ : BufTy).Contents (Elt F) → (⟨S8192x128, .f32⟩ : BufTy).Contents (Elt F) → (⟨S8192x128, .i1⟩ : BufTy).Contents (Elt F)),
    TRef.nullary main_call2.cst_1 (constant S_ .f32 0x00000000#32 : (⟨S_, .f32⟩ : BufTy).Contents (Elt F)),
    TRef.unary main_call2.cst_1 main_call2_call0.v0 (id : (⟨S_, .f32⟩ : BufTy).Contents (Elt F) → (⟨S_, .f32⟩ : BufTy).Contents (Elt F)),
    TRef.unary main_call2_call0.v0 main_call2_call0.v1 (broadcastInDim S8192x128 ![] bcast_S_S8192x128 : (⟨S_, .f32⟩ : BufTy).Contents (Elt F) → (⟨S8192x128, .f32⟩ : BufTy).Contents (Elt F)),
    TRef.ternary main_call2.v3 main_call2_call0.v1 (.of main_v23 : TRef sig ⟨S8192x128, .f32⟩) main_call2_call0.v2 (select : (⟨S8192x128, .i1⟩ : BufTy).Contents (Elt F) → (⟨S8192x128, .f32⟩ : BufTy).Contents (Elt F) → (⟨S8192x128, .f32⟩ : BufTy).Contents (Elt F) → (⟨S8192x128, .f32⟩ : BufTy).Contents (Elt F)),
    TRef.unary main_call2_call0.v2 main_call2.v5 (Host.expm1 : (⟨S8192x128, .f32⟩ : BufTy).Contents (Elt F) → (⟨S8192x128, .f32⟩ : BufTy).Contents (Elt F)),
    TRef.nullary main_call2.cst_2 (constant S_ .f32 0x3F800000#32 : (⟨S_, .f32⟩ : BufTy).Contents (Elt F)),
    TRef.unary main_call2.cst_2 main_call2.v6 (broadcastInDim S8192x128 ![] bcast_S_S8192x128 : (⟨S_, .f32⟩ : BufTy).Contents (Elt F) → (⟨S8192x128, .f32⟩ : BufTy).Contents (Elt F)),
    TRef.binary main_call2.v6 main_call2.v5 main_call2.v7 (mulf : (⟨S8192x128, .f32⟩ : BufTy).Contents (Elt F) → (⟨S8192x128, .f32⟩ : BufTy).Contents (Elt F) → (⟨S8192x128, .f32⟩ : BufTy).Contents (Elt F)),
    TRef.ternary main_call2.v1 (.of main_v23 : TRef sig ⟨S8192x128, .f32⟩) main_call2.v7 main_call2_call1.v0 (select : (⟨S8192x128, .i1⟩ : BufTy).Contents (Elt F) → (⟨S8192x128, .f32⟩ : BufTy).Contents (Elt F) → (⟨S8192x128, .f32⟩ : BufTy).Contents (Elt F) → (⟨S8192x128, .f32⟩ : BufTy).Contents (Elt F)) ]

set_option maxRecDepth 2048 in
/-- The entry function is that line: the callees' definitions substituted at their calls, both sides are one chain of
    operation steps once sequencing is reassociated. -/
theorem main_eq (c : Dev nD) : main (F := F) c = seq ops := by
  simp only [main, fn_leaky_relu.body, fn_where.body, fn_where_0.body, fn_elu.body, fn_where_1.body, fn_where_2.body,
    seq, bind_assoc, pure_bind]

attribute [local irreducible] Host.reduce Host.reduceAdd in
set_option maxRecDepth 8192 in
/-- The line's fold at the result buffer is `refOut` of the arguments' contents: each operation rewrites its own
    result buffer to its function of its operands' contents and leaves every other buffer, so reading the last
    selection's buffer walks the operations back to the six arguments.  The contractions and the two row reductions are
    kept folded: the equation never looks inside them. -/
theorem out_eq (V : Valuation τ sig (Elt F)) :
    after ops V (main_v24 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-! No operation writes an argument buffer: after the line each holds what it held. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches buffers of the one core only. -/
theorem ops_sub : (ops : List (HloOp τ sig (Elt F))).Forall fun op => op.bufs ⊆ tcRefs τ sig :=
  ⟨binary_bufs_sub .., binary_bufs_sub .., binary_bufs_sub .., unary_bufs_sub .., unary_bufs_sub .., unary_bufs_sub ..,
    binary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    binary_bufs_sub .., nullary_bufs_sub .., unary_bufs_sub .., ternary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub ..⟩

/-- For any float values, from any memory with zero counters: every weakly fair execution of the entry function
    terminates, the result buffer holds `refOut` of the six argument arrays' launch contents, and the six argument
    arrays are unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v24)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v24).trans (out_eq (launchContents m c)),
      (h c main_arg0).trans (arg0_eq (launchContents m c)), (h c main_arg1).trans (arg1_eq (launchContents m c)),
      (h c main_arg2).trans (arg2_eq (launchContents m c)), (h c main_arg3).trans (arg3_eq (launchContents m c)),
      (h c main_arg4).trans (arg4_eq (launchContents m c)), (h c main_arg5).trans (arg5_eq (launchContents m c))⟩)
    (run_seq scopedRefs_eq scopedSems_eq defs main (fun _ => ops) main_eq (fun _ => ops_sub) m ρ)

end Cert.ReferenceIdeal.Hand

end
-- ==== Proof.RefValue.lean ====
/-
  The reference's result on real arrays is the specification.

  Every argument array is a matrix of real numbers placed in the extended reals.  Then each operation of the reference,
  in program order, yields again a matrix (or vector) of finite values, namely the coercion of the corresponding real
  quantity:  the three plain matrix products are the real sums of products (H = X·W, and the two columns H·a);  the score
  (s r + n k)·M r k passes through the rectifier written as a selection on x ≥ 0, which is the larger of x and slope·x
  because 0 < slope < 1, and is masked by the adjacency with the large negative constant;  the row maximum, a fold of
  "the larger of" over 8192 finite values starting from −∞, is SOME finite value μ r (only its existence matters);
  subtracting it, exponentiating, summing the row (a positive sum, hence not zero) and dividing give the matrix
  exp(E r k − μ r) / Σ_k' exp(E r k' − μ r);  its product with H is the exp-weighted mean of H's columns, whatever the
  shift μ r, because the factor exp(−μ r) cancels in the quotient;  and the last selection, exp(x) − 1 of the argument
  guarded to be nonpositive, times one, is the ELU.
-/
import proofs.«429846_j4741643895566_3_alg».proof.Proof.RefOut
import proofs.«429846_j4741643895566_3_alg».proof.Proof.Coe
import proofs.«429846_j4741643895566_3_alg».proof.Proof.SpecLemmas
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws
import Mathlib.Algebra.BigOperators.Fin

noncomputable section

namespace Cert.ReferenceIdeal.Hand

open Idealize.ShloMosaic Idealize.SL.Sem Idealize.ShloMosaic.ValueIdx
open Cert.ReferenceIdeal Cert.ReferenceIdeal.Gen
open Finset

/-- The product of an m×k by a k×n matrix of finite values is the matrix of the real sums of products. -/
theorem dot_plain_up2 (m k n : Nat) (f g : ℕ → ℕ → ℝ) :
    Host.dotGeneral (F := Ideal) (φ₁ := .f32) (φ₂ := .f32) (DotDims.plain m k n) none (Gat.up2 f) (Gat.up2 g)
      = Gat.up2 (fun r c => ∑ q ∈ range k, f r q * g q c) := by
  funext j
  obtain ⟨a, b, rfl⟩ : ∃ (a : Fin m) (b : Fin n), j = ix2 a b := ⟨j 0, j 1, eq_ix2 j⟩
  rw [StackMember.dotGeneral_plain_apply, Gat.up2_ix2, ← Fin.sum_univ_eq_sum_range (fun q => f a.val q * g q b.val) k,
    ← Gat.sum_coe]
  refine Finset.sum_congr rfl fun c _ => ?_
  rw [Gat.up2_ix2, Gat.up2_ix2, EReal.coe_mul]

theorem dotA_eq : dot_S8192x512_S512x128_S8192x128_1_0_0_1_n_n = DotDims.plain 8192 512 128 := rfl
theorem dotB_eq : dot_S8192x128_S128x1_S8192x1_1_0_0_1_n_n = DotDims.plain 8192 128 1 := rfl
theorem dotC_eq : dot_S8192x8192_S8192x128_S8192x128_1_0_0_1_n_n = DotDims.plain 8192 8192 128 := rfl

/-- H = X·W on finite values. -/
theorem dot_proj (X W : ℕ → ℕ → ℝ) :
    Host.dotGeneral (F := Ideal) (φ₁ := .f32) (φ₂ := .f32) dot_S8192x512_S512x128_S8192x128_1_0_0_1_n_n none
      (Gat.up2 X) (Gat.up2 W) = Gat.up2 (Gat.proj X W) := by
  rw [dotA_eq, dot_plain_up2]; rfl

/-- H·a on finite values, a column. -/
theorem dot_attnCol (H a : ℕ → ℕ → ℝ) :
    Host.dotGeneral (F := Ideal) (φ₁ := .f32) (φ₂ := .f32) dot_S8192x128_S128x1_S8192x1_1_0_0_1_n_n none
      (Gat.up2 H) (Gat.up2 a) = Gat.up2 (fun r _ => Gat.attnCol H a r) := by
  rw [dotB_eq, dot_plain_up2]
  funext j
  obtain ⟨p, q, rfl⟩ : ∃ (p : Fin 8192) (q : Fin 1), j = ix2 p q := ⟨j 0, j 1, eq_ix2 j⟩
  obtain rfl : q = 0 := Subsingleton.elim _ _
  rfl

section Reads
variable {α : Type}

/-- A scalar broadcast to any shape reads the scalar everywhere. -/
theorem bc_scalar {t : Shape} (h : S_.BroadcastsInDim t (![] : Fin 0 → Fin t.rank)) (x : S_.Idx → α) (j : t.Idx) :
    broadcastInDim t ![] h x j = x ix0 :=
  broadcastInDim_apply _ h x j ix0 fun a => a.elim0

/-- A column broadcast along the rows reads, at (p, q), the column at p. -/
theorem bc_col (v : S8192x1.Idx → α) (p q : Fin 8192) :
    broadcastInDim S8192x8192 ![0, 1] bcast_S8192x1_S8192x8192_0_1 v (ix2 p q) = v (ix2 p 0) :=
  broadcastInDim_apply _ _ v _ (ix2 p 0) fun a => match a with | ⟨0, _⟩ => rfl | ⟨1, _⟩ => rfl

/-- A row broadcast down the columns reads, at (p, q), the row at q. -/
theorem bc_row (v : S1x8192.Idx → α) (p q : Fin 8192) :
    broadcastInDim S8192x8192 ![0, 1] bcast_S1x8192_S8192x8192_0_1 v (ix2 p q) = v (ix2 0 q) :=
  broadcastInDim_apply _ _ v _ (ix2 0 q) fun a => match a with | ⟨0, _⟩ => rfl | ⟨1, _⟩ => rfl

/-- A column transposed to a row reads, at (0, q), the column at q. -/
theorem tr_col (v : S8192x1.Idx → α) (q : Fin 8192) :
    transpose S1x8192 [1, 0] v transposes_S8192x1_S1x8192_1_0 (ix2 0 q) = v (ix2 q 0) :=
  transpose_ix2_apply v _ 0 q

/-- A vector made a column reads, at (p, 0), the vector at p. -/
theorem bc_vec (v : S8192.Idx → α) (p : Fin 8192) (z : Fin 1) :
    broadcastInDim S8192x1 ![0] bcast_S8192_S8192x1_0 v (ix2 p z) = v (ix1 p) :=
  broadcastInDim_apply _ _ v _ (ix1 p) fun a => match a with | ⟨0, _⟩ => rfl

end Reads

/-- The masked scores on finite values: the score of the specification at every pair. -/
theorem refScores_up2 (X A M W as_ an : ℕ → ℕ → ℝ) :
    refScores (F := Ideal) (Gat.up2 X) (Gat.up2 A) (Gat.up2 M) (Gat.up2 W) (Gat.up2 as_) (Gat.up2 an)
      = Gat.up2 (Gat.score (Gat.attnCol (Gat.proj X W) as_) (Gat.attnCol (Gat.proj X W) an) A M) := by
  funext j
  obtain ⟨p, q, rfl⟩ : ∃ (p q : Fin 8192), j = ix2 p q := ⟨j 0, j 1, eq_ix2 j⟩
  simp only [refScores, dot_proj, dot_attnCol, select_apply, cmpf_apply, mulf_apply, addf_apply, id]
  rw [bc_col, bc_row, tr_col, bc_scalar, bc_scalar, bc_scalar, constant_apply, constant_apply, constant_apply,
    Gat.ofBits_zero, Gat.ofBits_slope, Gat.ofBits_negBig]
  simp only [Gat.up2_ix2]
  rw [← EReal.coe_add, ← EReal.coe_mul, ← EReal.coe_mul, Gat.cmpf_oge_coe, Gat.cmpf_ogt_coe, Gat.select_ite,
    Gat.select_ite]
  unfold Gat.score
  rw [← Gat.lrelu_eq_ite]
  split_ifs <;> rfl

/-- A real vector placed in an array of extended reals of literal extent. -/
def up1 {n : Nat} (f : ℕ → ℝ) : (⟨1, ![n]⟩ : Shape).Idx → EReal := fun i => ((f (i 0).val : ℝ) : EReal)

theorem up1_ix1 {n : Nat} (f : ℕ → ℝ) (a : Fin n) : up1 f (ix1 a) = ((f a.val : ℝ) : EReal) := rfl

/-- Folding "the larger of" over a nonempty family of finite values, starting from −∞, gives a finite value. -/
theorem fold_max_coe {ι : Type} (s : Finset ι) (hs : s.Nonempty) (g : ι → ℝ) :
    ∃ μ : ℝ, s.fold (FloatOps.maximumf (F := Ideal) (φ := .f32)) (⊥ : EReal) (fun k => ((g k : ℝ) : EReal))
      = (μ : EReal) := by
  classical
  induction s using Finset.induction_on with
  | empty => exact absurd hs Finset.not_nonempty_empty
  | insert a s ha ih =>
    rw [Finset.fold_insert ha]
    rcases s.eq_empty_or_nonempty with rfl | hne
    · exact ⟨g a, by rw [Finset.fold_empty]; exact Gat.max_coe_bot (g a)⟩
    · obtain ⟨μ, hμ⟩ := ih hne
      exact ⟨max (g a) μ, by rw [hμ]; exact Gat.max_coe (g a) μ⟩

/-- The maximum of a row of finite values (folded from −∞, then compared with −∞ once more) is a finite value. -/
theorem rowmax_point (E : ℕ → ℕ → ℝ) (p : Fin 8192) :
    ∃ μ : ℝ, maximumf (F := Ideal) (φ := .f32) (broadcastInDim S8192 ![] bcast_S_S8192 (constant S_ .f32 0xFF800000#32))
      (Host.reduce (FloatOps.maximumf (F := Ideal) (φ := .f32)) (Gat.up2 E) (constant S_ .f32 0xFF800000#32)
        reducesTo_S8192x8192_S8192_d1 h_S_) (ix1 p) = (μ : EReal) := by
  have hR : S8192x8192.Reduces [1] S8192 := by decide
  obtain ⟨μ, hμ⟩ := fold_max_coe (Finset.univ : Finset (Fin 8192)) Finset.univ_nonempty (fun k => E p.val k.val)
  refine ⟨μ, ?_⟩
  rw [maximumf_apply, bc_scalar, constant_apply, Gat.ofBits_ninf,
    Host.reduce_eq_fold_single (FloatOps.maximumf (F := Ideal) (φ := .f32)) _ _ reducesTo_S8192x8192_S8192_d1 hR h_S_ (ix1 p),
    constant_apply, Gat.ofBits_ninf]
  have h2 : (Finset.univ : Finset (Fin (S8192x8192.size 1))).fold (FloatOps.maximumf (F := Ideal) (φ := .f32)) (⊥ : EReal)
      ((Gat.up2 E : S8192x8192.Idx → EReal) ∘ hR.lift (ix1 p)) = (μ : EReal) := hμ
  rw [h2]
  exact Gat.max_bot_coe μ

/-- The row maxima as one vector of finite values. -/
theorem rowmax_up1 (E : ℕ → ℕ → ℝ) :
    ∃ μ : ℕ → ℝ, maximumf (F := Ideal) (φ := .f32) (broadcastInDim S8192 ![] bcast_S_S8192 (constant S_ .f32 0xFF800000#32))
      (Host.reduce (FloatOps.maximumf (F := Ideal) (φ := .f32)) (Gat.up2 E) (constant S_ .f32 0xFF800000#32)
        reducesTo_S8192x8192_S8192_d1 h_S_) = up1 μ := by
  choose μ hμ using rowmax_point E
  refine ⟨fun r => if h : r < 8192 then μ ⟨r, h⟩ else 0, ?_⟩
  funext j
  obtain ⟨p, rfl⟩ : ∃ p : Fin 8192, j = ix1 p := ⟨j 0, eq_ix1 j⟩
  rw [hμ p, up1_ix1, dif_pos p.isLt]

/-- Subtracting a per-row shift and exponentiating, on finite values. -/
theorem shift_exp_up2 (E : ℕ → ℕ → ℝ) (μ : ℕ → ℝ) :
    Host.exp (F := Ideal) (φ := .f32) (subf (Gat.up2 E) (broadcastInDim S8192x8192 ![0, 1] bcast_S8192x1_S8192x8192_0_1
      (broadcastInDim S8192x1 ![0] bcast_S8192_S8192x1_0 (up1 μ))))
      = Gat.up2 (fun r k => Real.exp (E r k - μ r)) := by
  funext j
  obtain ⟨p, q, rfl⟩ : ∃ (p q : Fin 8192), j = ix2 p q := ⟨j 0, j 1, eq_ix2 j⟩
  show FloatOps.hostUnary .exp (subf _ _ (ix2 p q)) = _
  rw [Ideal.hostUnary_exp_def, subf_apply, bc_col, bc_vec, Gat.up2_ix2, up1_ix1, ← EReal.coe_sub, Gat.exp_coe]
  rfl

/-- The row sums of a matrix of finite values, from zero. -/
theorem rowsum_up1 (G : ℕ → ℕ → ℝ) :
    Host.reduceAdd (F := Ideal) (φ := .f32) (s := S8192x8192) (Gat.up2 G) (constant S_ .f32 0x00000000#32)
      reducesTo_S8192x8192_S8192_d1 h_S_ = up1 (fun r => ∑ k ∈ range 8192, G r k) := by
  have hR : S8192x8192.Reduces [1] S8192 := by decide
  funext j
  obtain ⟨p, rfl⟩ : ∃ p : Fin 8192, j = ix1 p := ⟨j 0, eq_ix1 j⟩
  show Ideal.hostReduceAdd reducesTo_S8192x8192_S8192_d1 (Gat.up2 G)
    (constant (F := Ideal) S_ .f32 0x00000000#32 (Shape.Idx.first h_S_)) (ix1 p) = _
  rw [Ideal.hostReduceAdd_single reducesTo_S8192x8192_S8192_d1 hR, constant_apply, Gat.ofBits_zero, EReal.coe_zero,
    zero_add, up1_ix1, ← Fin.sum_univ_eq_sum_range (fun k => G p.val k) 8192, ← Gat.sum_coe]
  exact Finset.sum_congr rfl fun k _ => rfl

/-- Dividing each row by a per-row value that is not zero, on finite values. -/
theorem div_up2 (G : ℕ → ℕ → ℝ) (Z : ℕ → ℝ) (hZ : ∀ r, Z r ≠ 0) :
    Host.divf (F := Ideal) (φ := .f32) (Gat.up2 G) (broadcastInDim S8192x8192 ![0, 1] bcast_S8192x1_S8192x8192_0_1
      (broadcastInDim S8192x1 ![0] bcast_S8192_S8192x1_0 (up1 Z)))
      = Gat.up2 (fun r k => G r k / Z r) := by
  funext j
  obtain ⟨p, q, rfl⟩ : ∃ (p q : Fin 8192), j = ix2 p q := ⟨j 0, j 1, eq_ix2 j⟩
  show Ideal.div (Gat.up2 G (ix2 p q)) (broadcastInDim _ _ _ _ (ix2 p q)) = _
  rw [bc_col, bc_vec, Gat.up2_ix2, up1_ix1, Gat.div_coe _ _ (hZ p.val)]
  rfl

/-- The ELU as the reference writes it (exp(x) − 1 of the argument guarded to be nonpositive, times one, under a
    selection on x > 0), on finite values. -/
theorem elu_up2 (Y : ℕ → ℕ → ℝ) :
    (select (cmpf (F := Ideal) (φ := .f32) .ogt (Gat.up2 Y)
        (broadcastInDim S8192x128 ![] bcast_S_S8192x128 (constant S_ .f32 0x00000000#32)))
      (Gat.up2 Y)
      (mulf (F := Ideal) (φ := .f32) (broadcastInDim S8192x128 ![] bcast_S_S8192x128 (constant S_ .f32 0x3F800000#32))
        (Host.expm1 (F := Ideal) (φ := .f32) (select (cmpf (F := Ideal) (φ := .f32) .ogt (Gat.up2 Y)
            (broadcastInDim S8192x128 ![] bcast_S_S8192x128 (constant S_ .f32 0x00000000#32)))
          (broadcastInDim S8192x128 ![] bcast_S_S8192x128 (constant S_ .f32 0x00000000#32)) (Gat.up2 Y))))
      : FVec Ideal S8192x128 .f32)
      = Gat.up2 (fun r c => Gat.elu (Y r c)) := by
  funext j
  obtain ⟨p, q, rfl⟩ : ∃ (p : Fin 8192) (q : Fin 128), j = ix2 p q := ⟨j 0, j 1, eq_ix2 j⟩
  simp only [select_apply, cmpf_apply, mulf_apply, Host.expm1]
  rw [bc_scalar, bc_scalar, constant_apply, constant_apply, Gat.ofBits_zero, Gat.ofBits_one]
  simp only [Gat.up2_ix2]
  rw [Gat.cmpf_ogt_coe, Gat.select_ite, Gat.select_ite]
  have e1 : (if 0 < Y p.val q.val then ((0 : ℝ) : EReal) else ((Y p.val q.val : ℝ) : EReal))
      = ((if 0 < Y p.val q.val then 0 else Y p.val q.val : ℝ) : EReal) := by split_ifs <;> rfl
  rw [e1, Ideal.hostUnary_expm1_def, Gat.expm1_coe, ← EReal.coe_mul, ← Gat.elu_ref]
  split_ifs <;> rfl

/-- THE REFERENCE'S RESULT ON REAL ARRAYS IS THE SPECIFICATION: the layer's result, placed in the extended reals. -/
theorem refOut_up2 (X A M W as_ an : ℕ → ℕ → ℝ) :
    refOut (F := Ideal) (Gat.up2 X) (Gat.up2 A) (Gat.up2 M) (Gat.up2 W) (Gat.up2 as_) (Gat.up2 an)
      = Gat.up2 (Gat.result X A M W as_ an) := by
  obtain ⟨μ, hμ⟩ := rowmax_up1 (Gat.score (Gat.attnCol (Gat.proj X W) as_) (Gat.attnCol (Gat.proj X W) an) A M)
  -- every row's sum of exponentials is positive
  have hZ : ∀ r, (∑ k ∈ range 8192, Real.exp
      (Gat.score (Gat.attnCol (Gat.proj X W) as_) (Gat.attnCol (Gat.proj X W) an) A M r k - μ r)) ≠ 0 := fun r =>
    (Finset.sum_pos (fun k _ => Real.exp_pos _) (Finset.nonempty_range_iff.mpr (by norm_num))).ne'
  simp only [refOut, id]
  rw [refScores_up2, dot_proj, hμ, shift_exp_up2, rowsum_up1, div_up2 _ _ hZ, dotC_eq, dot_plain_up2, elu_up2]
  -- the softmax at the shift μ r, applied to H, is the exp-weighted mean
  refine congrArg Gat.up2 (funext fun r => funext fun c => ?_)
  show Gat.elu (∑ q ∈ range 8192, _) = Gat.elu (Gat.attn _ _ r c)
  rw [Gat.attn_of_softmax]

end Cert.ReferenceIdeal.Hand

end
-- ==== Proof.lean ====
/-
  A graph-attention layer: the streamed (online-softmax) kernel against the whole softmax of the reference.

  The three frames: the kernel program at the word level and at the extended reals (one text, generic in the float
  instance: the body run once per control case — first, middle and last column tile —, the running maximum and the
  accumulator tracked from grid point to grid point), and the reference (its host operations run in order).
  The ideal pass rewrote nothing, so the kernel's idealization is its own text.
  The equivalence over the extended reals: under the precondition every argument entry is a real number; the kernel's
  result array is then, entry by entry, the ELU of the exp-weighted mean of H's column — read off the accumulator after
  the last column tile, whose shift by the running maximum cancels in the quotient —, and the reference's composed term
  is the same number, its own shift by the row maximum cancelling the same way.
-/
import proofs.«429846_j4741643895566_3_alg».proof.Defs
import proofs.«429846_j4741643895566_3_alg».proof.Proof.Gen.Kernel
import proofs.«429846_j4741643895566_3_alg».proof.Proof.Gen.KernelIdeal
import proofs.«429846_j4741643895566_3_alg».proof.Proof.Gen.ReferenceIdeal
import proofs.«429846_j4741643895566_3_alg».proof.Proof.Gen.Pre_finite_inputs
import proofs.«429846_j4741643895566_3_alg».proof.Proof.Kernel.Frame
import proofs.«429846_j4741643895566_3_alg».proof.Proof.KernelIdeal.Frame
import proofs.«429846_j4741643895566_3_alg».proof.Proof.KernelIdeal.Fin
import proofs.«429846_j4741643895566_3_alg».proof.Proof.KernelIdeal.Invariant
import proofs.«429846_j4741643895566_3_alg».proof.Proof.RefRun
import proofs.«429846_j4741643895566_3_alg».proof.Proof.RefValue
import Idealize.ShloMosaic.Adequacy
import Idealize.ShloMosaic.Init

noncomputable section

namespace Cert.Proof

open Idealize.ShloMosaic Idealize.SL.Sem

/-- The word-level kernel program runs to the end and leaves its six arguments as they were. -/
theorem frame_kernel : Cert.frame_Kernel := fun m ρ _ => Cert.Kernel.Fr.frame (F := Bits) m ρ

/-- So does the same text read over the extended reals. -/
theorem frame_kernelIdeal : Cert.frame_KernelIdeal := fun m ρ _ => Cert.KernelIdeal.Fr.frame (F := Ideal) m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Hand.run (F := Ideal) m ρ)

/-- The ideal pass rewrote no operation. -/
theorem preserves : Cert.preserves_Kernel_KernelIdeal := trivial

/-- Both programs end with the ELU of the attention output of the real arrays the precondition makes of the arguments. -/
theorem algebraic : Cert.algebraic_KernelIdeal_ReferenceIdeal := by
  intro m ρ m' ρ' hpre hagree
  choose X A M W as_ an hX hA hM hW has han using fun c => Cert.KernelIdeal.Val.reals_of_pre m hpre c
  refine ⟨fun c => Gat.up2 (Gat.result (X c) (A c) (M c) (W c) (as_ c) (an c)),
    Cert.KernelIdeal.Val.run m ρ X A M W as_ an hX hA hM hW has han, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2,
    hX c, hA c, hM c, hW c, has c, han c]
  exact Cert.ReferenceIdeal.Hand.refOut_up2 _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
